-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x6400000 : Shape := ⟨2, ![2, 6400000]⟩
abbrev S6400000x3 : Shape := ⟨2, ![6400000, 3]⟩
abbrev S7x20 : Shape := ⟨2, ![7, 20]⟩
abbrev S20 : Shape := ⟨1, ![20]⟩
abbrev S20x20 : Shape := ⟨2, ![20, 20]⟩
abbrev S23x20 : Shape := ⟨2, ![23, 20]⟩
abbrev S20x3 : Shape := ⟨2, ![20, 3]⟩
abbrev S3 : Shape := ⟨1, ![3]⟩
abbrev S_ : Shape := ⟨0, ![]⟩
abbrev S1x6400000 : Shape := ⟨2, ![1, 6400000]⟩
abbrev S6400000 : Shape := ⟨1, ![6400000]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S6400000x3 : S_.BroadcastsInDim S6400000x3 (![] : Fin 0 → Fin S6400000x3.rank)
  reducesTo_S6400000x3_S_d0_1 : S6400000x3.ReducesTo [0, 1] S_
  bcast_S_S7x20 : S_.BroadcastsInDim S7x20 (![] : Fin 0 → Fin S7x20.rank)
  reducesTo_S7x20_S_d0_1 : S7x20.ReducesTo [0, 1] S_
  bcast_S_S20 : S_.BroadcastsInDim S20 (![] : Fin 0 → Fin S20.rank)
  reducesTo_S20_S_d0 : S20.ReducesTo [0] S_
  bcast_S_S20x20 : S_.BroadcastsInDim S20x20 (![] : Fin 0 → Fin S20x20.rank)
  reducesTo_S20x20_S_d0_1 : S20x20.ReducesTo [0, 1] S_
  bcast_S_S23x20 : S_.BroadcastsInDim S23x20 (![] : Fin 0 → Fin S23x20.rank)
  reducesTo_S23x20_S_d0_1 : S23x20.ReducesTo [0, 1] S_
  bcast_S_S20x3 : S_.BroadcastsInDim S20x3 (![] : Fin 0 → Fin S20x3.rank)
  reducesTo_S20x3_S_d0_1 : S20x3.ReducesTo [0, 1] S_
  bcast_S_S3 : S_.BroadcastsInDim S3 (![] : Fin 0 → Fin S3.rank)
  reducesTo_S3_S_d0 : S3.ReducesTo [0] S_
  slices_S2x6400000_S1x6400000_0_0 : S2x6400000.Slices ![0, 0] S1x6400000
  shapeCasts_S1x6400000_S6400000 : S1x6400000.ShapeCasts S6400000
  bcast_S_S6400000 : S_.BroadcastsInDim S6400000 (![] : Fin 0 → Fin S6400000.rank)
  reducesTo_S6400000_S_d0 : S6400000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x6400000 32) (main_arg12 : FVec F S3 .f32) (main_v48 : IVec S_ 1) (main_v49 : FVec F S20x3 .f32) (main_v50 : FVec F S20x3 .f32) : IVec S_ 1 :=
  let main_v51 : IVec S20x3 1 := cmpf .olt main_v49 main_v50
  let main_c_19 : IVec S_ 1 := constantI S_ 1 1#1
  let main_v52 : IVec S_ 1 := (fun x v => Host.reduce IntOp.andi x v reducesTo_S20x3_S_d0_1 h_S_) main_v51 main_c_19
  let main_v53 : IVec S_ 1 := andi main_v48 main_v52
  let main_v54 : FVec F S3 .f32 := Host.absf main_arg12
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  let main_v59 : IVec S1x6400000 32 := (extractStridedSlice S1x6400000 ![0, 0] · slices_S2x6400000_S1x6400000_0_0) main_arg1
  let main_v60 : IVec S6400000 32 := shapeCast S6400000 main_v59 shapeCasts_S1x6400000_S6400000
  let main_c_22 : IVec S_ 32 := constantI S_ 32 4294867296#32
  let main_v61 : IVec S6400000 32 := broadcastInDim S6400000 ![] bcast_S_S6400000 main_c_22
  let main_v62 : IVec S6400000 1 := cmpi .sge main_v60 main_v61
  let main_v63 : IVec S1x6400000 32 := (extractStridedSlice S1x6400000 ![0, 0] · slices_S2x6400000_S1x6400000_0_0) main_arg1
  let main_v64 : IVec S6400000 32 := shapeCast S6400000 main_v63 shapeCasts_S1x6400000_S6400000
  let main_c_23 : IVec S_ 32 := constantI S_ 32 100000#32
  let main_v65 : IVec S6400000 32 := broadcastInDim S6400000 ![] bcast_S_S6400000 main_c_23
  let main_v66 : IVec S6400000 1 := cmpi .slt main_v64 main_v65
  let main_v67 : IVec S6400000 1 := andi main_v62 main_v66
  let main_c_24 : IVec S_ 1 := constantI S_ 1 1#1
  let main_v68 : IVec S_ 1 := (fun x v => Host.reduce IntOp.andi x v reducesTo_S6400000_S_d0 h_S_) main_v67 main_c_24
  fn_part4 (F := F) main_v58 main_v68

def fn_part2 {F : FTy → Type} [FloatOps F] (main_arg1 : IVec S2x6400000 32) (main_arg8 : FVec F S20 .f32) (main_arg9 : FVec F S20x20 .f32) (main_arg10 : FVec F S20 .f32) (main_arg11 : FVec F S20x3 .f32) (main_arg12 : FVec F S3 .f32) (main_v33 : IVec S_ 1) : IVec S_ 1 :=
  let main_v34 : FVec F S20 .f32 := Host.absf main_arg8
  let main_cst_12 : FVec F S_ .f32 := constant S_ .f32 0x7F800000#32
  let main_v35 : FVec F S20 .f32 := broadcastInDim S20 ![] bcast_S_S20 main_cst_12
  let main_v36 : IVec S20 1 := cmpf .olt main_v34 main_v35
  let main_c_13 : IVec S_ 1 := constantI S_ 1 1#1
  let main_v37 : IVec S_ 1 := (fun x v => Host.reduce IntOp.andi x v reducesTo_S20_S_d0 h_S_) main_v36 main_c_13
  let main_v38 : IVec S_ 1 := andi main_v33 main_v37
  let main_v39 : FVec F S20x20 .f32 := Host.absf main_arg9
  let main_cst_14 : FVec F S_ .f32 := constant S_ .f32 0x7F800000#32
  let main_v40 : FVec F S20x20 .f32 := broadcastInDim S20x20 ![] bcast_S_S20x20 main_cst_14
  let main_v41 : IVec S20x20 1 := cmpf .olt main_v39 main_v40
  let main_c_15 : IVec S_ 1 := constantI S_ 1 1#1
  let main_v42 : IVec S_ 1 := (fun x v => Host.reduce IntOp.andi x v reducesTo_S20x20_S_d0_1 h_S_) main_v41 main_c_15
  let main_v43 : IVec S_ 1 := andi main_v38 main_v42
  let main_v44 : FVec F S20 .f32 := Host.absf main_arg10
  let main_cst_16 : FVec F S_ .f32 := constant S_ .f32 0x7F800000#32
  let main_v45 : FVec F S20 .f32 := broadcastInDim S20 ![] bcast_S_S20 main_cst_16
  let main_v46 : IVec S20 1 := cmpf .olt main_v44 main_v45
  let main_c_17 : IVec S_ 1 := constantI S_ 1 1#1
  let main_v47 : IVec S_ 1 := (fun x v => Host.reduce IntOp.andi x v reducesTo_S20_S_d0 h_S_) main_v46 main_c_17
  let main_v48 : IVec S_ 1 := andi main_v43 main_v47
  let main_v49 : FVec F S20x3 .f32 := Host.absf main_arg11
  let main_cst_18 : FVec F S_ .f32 := constant S_ .f32 0x7F800000#32
  let main_v50 : FVec F S20x3 .f32 := broadcastInDim S20x3 ![] bcast_S_S20x3 main_cst_18
  fn_part3 (F := F) main_arg1 main_arg12 main_v48 main_v49 main_v50

def fn_part1 {F : FTy → Type} [FloatOps F] (main_arg1 : IVec S2x6400000 32) (main_arg5 : FVec F S20x20 .f32) (main_arg6 : FVec F S20 .f32) (main_arg7 : FVec F S23x20 .f32) (main_arg8 : FVec F S20 .f32) (main_arg9 : FVec F S20x20 .f32) (main_arg10 : FVec F S20 .f32) (main_arg11 : FVec F S20x3 .f32) (main_arg12 : FVec F S3 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S20x20 .f32 := Host.absf main_arg5
  let main_cst_6 : FVec F S_ .f32 := constant S_ .f32 0x7F800000#32
  let main_v20 : FVec F S20x20 .f32 := broadcastInDim S20x20 ![] bcast_S_S20x20 main_cst_6
  let main_v21 : IVec S20x20 1 := cmpf .olt main_v19 main_v20
  let main_c_7 : IVec S_ 1 := constantI S_ 1 1#1
  let main_v22 : IVec S_ 1 := (fun x v => Host.reduce IntOp.andi x v reducesTo_S20x20_S_d0_1 h_S_) main_v21 main_c_7
  let main_v23 : IVec S_ 1 := andi main_v18 main_v22
  let main_v24 : FVec F S20 .f32 := Host.absf main_arg6
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S23x20 .f32 := Host.absf main_arg7
  let main_cst_10 : FVec F S_ .f32 := constant S_ .f32 0x7F800000#32
  let main_v30 : FVec F S23x20 .f32 := broadcastInDim S23x20 ![] bcast_S_S23x20 main_cst_10
  let main_v31 : IVec S23x20 1 := cmpf .olt main_v29 main_v30
  let main_c_11 : IVec S_ 1 := constantI S_ 1 1#1
  let main_v32 : IVec S_ 1 := (fun x v => Host.reduce IntOp.andi x v reducesTo_S23x20_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x4 .f32) (main_arg1 : IVec S2x6400000 32) (main_arg2 : FVec F S6400000x3 .f32) (main_arg3 : FVec F S7x20 .f32) (main_arg4 : FVec F S20 .f32) (main_arg5 : FVec F S20x20 .f32) (main_arg6 : FVec F S20 .f32) (main_arg7 : FVec F S23x20 .f32) (main_arg8 : FVec F S20 .f32) (main_arg9 : FVec F S20x20 .f32) (main_arg10 : FVec F S20 .f32) (main_arg11 : FVec F S20x3 .f32) (main_arg12 : FVec F S3 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S6400000x3 .f32 := Host.absf main_arg2
  let main_cst_0 : FVec F S_ .f32 := constant S_ .f32 0x7F800000#32
  let main_v5 : FVec F S6400000x3 .f32 := broadcastInDim S6400000x3 ![] bcast_S_S6400000x3 main_cst_0
  let main_v6 : IVec S6400000x3 1 := cmpf .olt main_v4 main_v5
  let main_c_1 : IVec S_ 1 := constantI S_ 1 1#1
  let main_v7 : IVec S_ 1 := (fun x v => Host.reduce IntOp.andi x v reducesTo_S6400000x3_S_d0_1 h_S_) main_v6 main_c_1
  let main_v8 : IVec S_ 1 := andi main_v3 main_v7
  let main_v9 : FVec F S7x20 .f32 := Host.absf main_arg3
  let main_cst_2 : FVec F S_ .f32 := constant S_ .f32 0x7F800000#32
  let main_v10 : FVec F S7x20 .f32 := broadcastInDim S7x20 ![] bcast_S_S7x20 main_cst_2
  let main_v11 : IVec S7x20 1 := cmpf .olt main_v9 main_v10
  let main_c_3 : IVec S_ 1 := constantI S_ 1 1#1
  let main_v12 : IVec S_ 1 := (fun x v => Host.reduce IntOp.andi x v reducesTo_S7x20_S_d0_1 h_S_) main_v11 main_c_3
  let main_v13 : IVec S_ 1 := andi main_v8 main_v12
  let main_v14 : FVec F S20 .f32 := Host.absf main_arg4
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg1 main_arg5 main_arg6 main_arg7 main_arg8 main_arg9 main_arg10 main_arg11 main_arg12 main_v13 main_v16
-- ==== Kernel.lean ====
abbrev S100000x4 : Shape := ⟨2, ![100000, 4]⟩
abbrev S2x6400000 : Shape := ⟨2, ![2, 6400000]⟩
abbrev S6400000x3 : Shape := ⟨2, ![6400000, 3]⟩
abbrev S7x20 : Shape := ⟨2, ![7, 20]⟩
abbrev S20 : Shape := ⟨1, ![20]⟩
abbrev S20x20 : Shape := ⟨2, ![20, 20]⟩
abbrev S23x20 : Shape := ⟨2, ![23, 20]⟩
abbrev S20x3 : Shape := ⟨2, ![20, 3]⟩
abbrev S3 : Shape := ⟨1, ![3]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S1 : Shape := ⟨1, ![1]⟩
abbrev S1x1 : Shape := ⟨2, ![1, 1]⟩
abbrev S6400000x4 : Shape := ⟨2, ![6400000, 4]⟩
abbrev S4x20 : Shape := ⟨2, ![4, 20]⟩
abbrev S3x20 : Shape := ⟨2, ![3, 20]⟩
abbrev S1x20 : Shape := ⟨2, ![1, 20]⟩
abbrev S6400000x20 : Shape := ⟨2, ![6400000, 20]⟩
abbrev S6400x4 : Shape := ⟨2, ![6400, 4]⟩
abbrev S6400x3 : Shape := ⟨2, ![6400, 3]⟩
abbrev S6400x20 : Shape := ⟨2, ![6400, 20]⟩
abbrev S100000x20 : Shape := ⟨2, ![100000, 20]⟩
abbrev S100000 : Shape := ⟨1, ![100000]⟩
abbrev S100000x1 : Shape := ⟨2, ![100000, 1]⟩
abbrev S1x3 : Shape := ⟨2, ![1, 3]⟩
abbrev S100000x3 : Shape := ⟨2, ![100000, 3]⟩
abbrev S2000x20 : Shape := ⟨2, ![2000, 20]⟩
abbrev S2000x3 : Shape := ⟨2, ![2000, 3]⟩

abbrev nBuf : Space → Nat
  | .hbm => 126
  | .vmem => 28
  | .smem => 0
  | _ => 0

abbrev bufTy : (tb : Table) → Fin (tcTables nBuf tb) → BufTy
  | .hbm, ⟨0, _⟩ => ⟨S100000x4, .f32⟩
  | .hbm, ⟨1, _⟩ => ⟨S2x6400000, .i32⟩
  | .hbm, ⟨2, _⟩ => ⟨S6400000x3, .f32⟩
  | .hbm, ⟨3, _⟩ => ⟨S7x20, .f32⟩
  | .hbm, ⟨4, _⟩ => ⟨S20, .f32⟩
  | .hbm, ⟨5, _⟩ => ⟨S20x20, .f32⟩
  | .hbm, ⟨6, _⟩ => ⟨S20, .f32⟩
  | .hbm, ⟨7, _⟩ => ⟨S23x20, .f32⟩
  | .hbm, ⟨8, _⟩ => ⟨S20, .f32⟩
  | .hbm, ⟨9, _⟩ => ⟨S20x20, .f32⟩
  | .hbm, ⟨10, _⟩ => ⟨S20, .f32⟩
  | .hbm, ⟨11, _⟩ => ⟨S20x3, .f32⟩
  | .hbm, ⟨12, _⟩ => ⟨S3, .f32⟩
  | .hbm, ⟨13, _⟩ => ⟨S1x6400000, .i32⟩
  | .hbm, ⟨14, _⟩ => ⟨S6400000, .i32⟩
  | .hbm, ⟨15, _⟩ => ⟨S1x6400000, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S1, .i32⟩
  | .hbm, ⟨26, _⟩ => ⟨S_, .i32⟩
  | .hbm, ⟨27, _⟩ => ⟨S6400000x1, .i32⟩
  | .hbm, ⟨28, _⟩ => ⟨S6400000x1, .i1⟩
  | .hbm, ⟨29, _⟩ => ⟨S1x1, .i32⟩
  | .hbm, ⟨30, _⟩ => ⟨S6400000x1, .i32⟩
  | .hbm, ⟨31, _⟩ => ⟨S6400000x1, .i1⟩
  | .hbm, ⟨32, _⟩ => ⟨S6400000x1, .i1⟩
  | .hbm, ⟨33, _⟩ => ⟨S_, .i1⟩
  | .hbm, ⟨34, _⟩ => ⟨S6400000, .i1⟩
  | .hbm, ⟨35, _⟩ => ⟨S6400000x4, .f32⟩
  | .hbm, ⟨36, _⟩ => ⟨S6400000x4, .i1⟩
  | .hbm, ⟨37, _⟩ => ⟨S_, .f32⟩
  | .hbm, ⟨38, _⟩ => ⟨S6400000x4, .f32⟩
  | .hbm, ⟨39, _⟩ => ⟨S6400000x4, .f32⟩
  | .hbm, ⟨40, _⟩ => ⟨S4x20, .f32⟩
  | .hbm, ⟨41, _⟩ => ⟨S3x20, .f32⟩
  | .hbm, ⟨42, _⟩ => ⟨S1x20, .f32⟩
  | .hbm, ⟨43, _⟩ => ⟨S1x20, .f32⟩
  | .hbm, ⟨44, _⟩ => ⟨S6400000x20, .f32⟩
  | .hbm, ⟨45, _⟩ => ⟨S_, .f32⟩
  | .hbm, ⟨46, _⟩ => ⟨S100000x20, .f32⟩
  | .hbm, ⟨47, _⟩ => ⟨S6400000x1, .i32⟩
  | .hbm, ⟨48, _⟩ => ⟨S100000x20, .f32⟩
  | .hbm, ⟨49, _⟩ => ⟨S_, .f32⟩
  | .hbm, ⟨50, _⟩ => ⟨S6400000, .f32⟩
  | .hbm, ⟨51, _⟩ => ⟨S_, .f32⟩
  | .hbm, ⟨52, _⟩ => ⟨S100000, .f32⟩
  | .hbm, ⟨53, _⟩ => ⟨S6400000x1, .i32⟩
  | .hbm, ⟨54, _⟩ => ⟨S100000, .f32⟩
  | .hbm, ⟨55, _⟩ => ⟨S100000x1, .f32⟩
  | .hbm, ⟨56, _⟩ => ⟨S_, .f32⟩
  | .hbm, ⟨57, _⟩ => ⟨S100000x1, .f32⟩
  | .hbm, ⟨58, _⟩ => ⟨S100000x1, .i1⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S100000x20, .f32⟩
  | .hbm, ⟨63, _⟩ => ⟨S100000x20, .f32⟩
  | .hbm, ⟨64, _⟩ => ⟨S_, .f32⟩
  | .hbm, ⟨65, _⟩ => ⟨S_, .f32⟩
  | .hbm, ⟨66, _⟩ => ⟨S100000x20, .i1⟩
  | .hbm, ⟨67, _⟩ => ⟨S100000x20, .f32⟩
  | .hbm, ⟨68, _⟩ => ⟨S100000x20, .f32⟩
  | .hbm, ⟨69, _⟩ => ⟨S_, .f32⟩
  | .hbm, ⟨70, _⟩ => ⟨S100000x20, .f32⟩
  | .hbm, ⟨71, _⟩ => ⟨S100000x20, .f32⟩
  | .hbm, ⟨72, _⟩ => ⟨S_, .i32⟩
  | .hbm, ⟨73, _⟩ => ⟨S6400000, .i32⟩
  | .hbm, ⟨74, _⟩ => ⟨S6400000, .i1⟩
  | .hbm, ⟨75, _⟩ => ⟨S_, .i32⟩
  | .hbm, ⟨76, _⟩ => ⟨S6400000, .i32⟩
  | .hbm, ⟨77, _⟩ => ⟨S6400000, .i32⟩
  | .hbm, ⟨78, _⟩ => ⟨S6400000, .i32⟩
  | .hbm, ⟨79, _⟩ => ⟨S6400000x1, .i32⟩
  | .hbm, ⟨80, _⟩ => ⟨S1, .i32⟩
  | .hbm, ⟨81, _⟩ => ⟨S_, .i32⟩
  | .hbm, ⟨82, _⟩ => ⟨S6400000x1, .i32⟩
  | .hbm, ⟨83, _⟩ => ⟨S6400000x1, .i1⟩
  | .hbm, ⟨84, _⟩ => ⟨S1x1, .i32⟩
  | .hbm, ⟨85, _⟩ => ⟨S6400000x1, .i32⟩
  | .hbm, ⟨86, _⟩ => ⟨S6400000x1, .i1⟩
  | .hbm, ⟨87, _⟩ => ⟨S6400000x1, .i1⟩
  | .hbm, ⟨88, _⟩ => ⟨S_, .i1⟩
  | .hbm, ⟨89, _⟩ => ⟨S6400000, .i1⟩
  | .hbm, ⟨90, _⟩ => ⟨S6400000x20, .f32⟩
  | .hbm, ⟨91, _⟩ => ⟨S6400000x20, .i1⟩
  | .hbm, ⟨92, _⟩ => ⟨S_, .f32⟩
  | .hbm, ⟨93, _⟩ => ⟨S6400000x20, .f32⟩
  | .hbm, ⟨94, _⟩ => ⟨S6400000x20, .f32⟩
  | .hbm, ⟨95, _⟩ => ⟨S20x20, .f32⟩
  | .hbm, ⟨96, _⟩ => ⟨S3x20, .f32⟩
  | .hbm, ⟨97, _⟩ => ⟨S1x20, .f32⟩
  | .hbm, ⟨98, _⟩ => ⟨S1x20, .f32⟩
  | .hbm, ⟨99, _⟩ => ⟨S6400000x20, .f32⟩
  | .hbm, ⟨100, _⟩ => ⟨S_, .f32⟩
  | .hbm, ⟨101, _⟩ => ⟨S100000x20, .f32⟩
  | .hbm, ⟨102, _⟩ => ⟨S6400000x1, .i32⟩
  | .hbm, ⟨103, _⟩ => ⟨S100000x20, .f32⟩
  | .hbm, ⟨104, _⟩ => ⟨S_, .f32⟩
  | .hbm, ⟨105, _⟩ => ⟨S6400000, .f32⟩
  | .hbm, ⟨106, _⟩ => ⟨S_, .f32⟩
  | .hbm, ⟨107, _⟩ => ⟨S100000, .f32⟩
  | .hbm, ⟨108, _⟩ => ⟨S6400000x1, .i32⟩
  | .hbm, ⟨109, _⟩ => ⟨S100000, .f32⟩
  | .hbm, ⟨110, _⟩ => ⟨S100000x1, .f32⟩
  | .hbm, ⟨111, _⟩ => ⟨S_, .f32⟩
  | .hbm, ⟨112, _⟩ => ⟨S100000x1, .f32⟩
  | .hbm, ⟨113, _⟩ => ⟨S100000x1, .i1⟩
  | .hbm, ⟨114, _⟩ => ⟨S_, .f32⟩
  | .hbm, ⟨115, _⟩ => ⟨S100000x1, .f32⟩
  | .hbm, ⟨116, _⟩ => ⟨S100000x1, .f32⟩
  | .hbm, ⟨117, _⟩ => ⟨S100000x20, .f32⟩
  | .hbm, ⟨118, _⟩ => ⟨S100000x20, .f32⟩
  | .hbm, ⟨119, _⟩ => ⟨S_, .f32⟩
  | .hbm, ⟨120, _⟩ => ⟨S_, .f32⟩
  | .hbm, ⟨121, _⟩ => ⟨S100000x20, .i1⟩
  | .hbm, ⟨122, _⟩ => ⟨S100000x20, .f32⟩
  | .hbm, ⟨123, _⟩ => ⟨S100000x20, .f32⟩
  | .hbm, ⟨124, _⟩ => ⟨S1x3, .f32⟩
  | .hbm, ⟨125, _⟩ => ⟨S100000x3, .f32⟩
  | .local _ .vmem, ⟨0, _⟩ => ⟨S6400x4, .f32⟩
  | .local _ .vmem, ⟨1, _⟩ => ⟨S6400x4, .f32⟩
  | .local _ .vmem, ⟨2, _⟩ => ⟨S6400x3, .f32⟩
  | .local _ .vmem, ⟨3, _⟩ => ⟨S6400x3, .f32⟩
  | .local _ .vmem, ⟨4, _⟩ => ⟨S4x20, .f32⟩
  | .local _ .vmem, ⟨5, _⟩ => ⟨S3x20, .f32⟩
  | .local _ .vmem, ⟨6, _⟩ => ⟨S1x20, .f32⟩
  | .local _ .vmem, ⟨7, _⟩ => ⟨S20x20, .f32⟩
  | .local _ .vmem, ⟨8, _⟩ => ⟨S1x20, .f32⟩
  | .local _ .vmem, ⟨9, _⟩ => ⟨S6400x20, .f32⟩
  | .local _ .vmem, ⟨10, _⟩ => ⟨S6400x20, .f32⟩
  | .local _ .vmem, ⟨11, _⟩ => ⟨S6400x20, .f32⟩
  | .local _ .vmem, ⟨12, _⟩ => ⟨S6400x20, .f32⟩
  | .local _ .vmem, ⟨13, _⟩ => ⟨S6400x3, .f32⟩
  | .local _ .vmem, ⟨14, _⟩ => ⟨S6400x3, .f32⟩
  | .local _ .vmem, ⟨15, _⟩ => ⟨S20x20, .f32⟩
  | .local _ .vmem, ⟨16, _⟩ => ⟨S3x20, .f32⟩
  | .local _ .vmem, ⟨17, _⟩ => ⟨S1x20, .f32⟩
  | .local _ .vmem, ⟨18, _⟩ => ⟨S20x20, .f32⟩
  | .local _ .vmem, ⟨19, _⟩ => ⟨S1x20, .f32⟩
  | .local _ .vmem, ⟨20, _⟩ => ⟨S6400x20, .f32⟩
  | .local _ .vmem, ⟨21, _⟩ => ⟨S6400x20, .f32⟩
  | .local _ .vmem, ⟨22, _⟩ => ⟨S2000x20, .f32⟩
  | .local _ .vmem, ⟨23, _⟩ => ⟨S2000x20, .f32⟩
  | .local _ .vmem, ⟨24, _⟩ => ⟨S20x3, .f32⟩
  | .local _ .vmem, ⟨25, _⟩ => ⟨S1x3, .f32⟩
  | .local _ .vmem, ⟨26, _⟩ => ⟨S2000x3, .f32⟩
  | .local _ .vmem, ⟨27, _⟩ => ⟨S2000x3, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_cst_0 : Ref sig .tc := ⟨.hbm, 49, rfl⟩
abbrev main_v13 : Ref sig .tc := ⟨.hbm, 50, rfl⟩
abbrev main_cst_1 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_2 : Ref sig .tc := ⟨.hbm, 56, rfl⟩
abbrev main_v18 : Ref sig .tc := ⟨.hbm, 57, rfl⟩
abbrev main_v19 : Ref sig .tc := ⟨.hbm, 58, rfl⟩
abbrev main_cst_3 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_4 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v24 : Ref sig .tc := ⟨.hbm, 68, rfl⟩
abbrev main_call2_cst : Ref sig .tc := ⟨.hbm, 69, rfl⟩
abbrev main_call2_v0 : Ref sig .tc := ⟨.hbm, 70, rfl⟩
abbrev main_v25 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_call3_cst : Ref sig .tc := ⟨.hbm, 92, rfl⟩
abbrev main_call3_v15 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_cst_5 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_cst_6 : Ref sig .tc := ⟨.hbm, 104, rfl⟩
abbrev main_v35 : Ref sig .tc := ⟨.hbm, 105, rfl⟩
abbrev main_cst_7 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_cst_8 : Ref sig .tc := ⟨.hbm, 111, rfl⟩
abbrev main_v40 : Ref sig .tc := ⟨.hbm, 112, rfl⟩
abbrev main_v41 : Ref sig .tc := ⟨.hbm, 113, rfl⟩
abbrev main_cst_9 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_cst_10 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x20 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1000], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S20x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S20x20 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x20 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x20 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x20 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S20x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x3 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  bcast_S6400000_S6400000x4_0 : S6400000.BroadcastsInDim S6400000x4 (![0] : Fin 1 → Fin S6400000x4.rank)
  bcast_S_S6400000x4 : S_.BroadcastsInDim S6400000x4 (![] : Fin 0 → Fin S6400000x4.rank)
  slices_S7x20_S4x20_0_0 : S7x20.Slices ![0, 0] S4x20
  slices_S7x20_S3x20_4_0 : S7x20.Slices ![4, 0] S3x20
  shapeCasts_S20_S1x20 : S20.ShapeCasts S1x20
  inb_S6400x4_S6400x4_0_0 : ∀ a, (![0, 0] : Fin 2 → Nat) a + S6400x4.size a ≤ S6400x4.size a
  h_S6400x4 : 0 < S6400x4.numel
  shapeCasts_S6400x4_S6400x4 : S6400x4.ShapeCasts S6400x4
  bitsLt_bf16_f32 : FTy.bits .bf16 < FTy.bits .f32
  inb_S6400x3_S6400x3_0_0 : ∀ a, (![0, 0] : Fin 2 → Nat) a + S6400x3.size a ≤ S6400x3.size a
  h_S6400x3 : 0 < S6400x3.numel
  inb_S4x20_S4x20_0_0 : ∀ a, (![0, 0] : Fin 2 → Nat) a + S4x20.size a ≤ S4x20.size a
  h_S4x20 : 0 < S4x20.numel
  shapeCasts_S4x20_S4x20 : S4x20.ShapeCasts S4x20
  inb_S3x20_S3x20_0_0 : ∀ a, (![0, 0] : Fin 2 → Nat) a + S3x20.size a ≤ S3x20.size a
  h_S3x20 : 0 < S3x20.numel
  shapeCasts_S3x20_S3x20 : S3x20.ShapeCasts S3x20
  inb_S20x20_S20x20_0_0 : ∀ a, (![0, 0] : Fin 2 → Nat) a + S20x20.size a ≤ S20x20.size a
  h_S20x20 : 0 < S20x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S6400x20 : S1x20.Broadcasts S6400x20
  inb_S6400x20_S6400x20_0_0 : ∀ a, (![0, 0] : Fin 2 → Nat) a + S6400x20.size a ≤ S6400x20.size a
  h_S6400x20 : 0 < S6400x20.numel
  bcast_S_S100000x20 : S_.BroadcastsInDim S100000x20 (![] : Fin 0 → Fin S100000x20.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x20_0_1 : S100000x1.BroadcastsInDim S100000x20 (![0, 1] : Fin 2 → Fin S100000x20.rank)
  bcast_S6400000_S6400000x20_0 : S6400000.BroadcastsInDim S6400000x20 (![0] : Fin 1 → Fin S6400000x20.rank)
  bcast_S_S6400000x20 : S_.BroadcastsInDim S6400000x20 (![] : Fin 0 → Fin S6400000x20.rank)
  slices_S23x20_S20x20_0_0 : S23x20.Slices ![0, 0] S20x20
  slices_S23x20_S3x20_20_0 : S23x20.Slices ![20, 0] S3x20
  shapeCasts_S6400x20_S6400x20 : S6400x20.ShapeCasts S6400x20
  shapeCasts_S20x20_S20x20 : S20x20.ShapeCasts S20x20
  shapeCasts_S3_S1x3 : S3.ShapeCasts S1x3
  inb_S2000x20_S2000x20_0_0 : ∀ a, (![0, 0] : Fin 2 → Nat) a + S2000x20.size a ≤ S2000x20.size a
  h_S2000x20 : 0 < S2000x20.numel
  shapeCasts_S2000x20_S2000x20 : S2000x20.ShapeCasts S2000x20
  inb_S20x3_S20x3_0_0 : ∀ a, (![0, 0] : Fin 2 → Nat) a + S20x3.size a ≤ S20x3.size a
  h_S20x3 : 0 < S20x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  gather_S100000x4_S6400000x1_S6400000x4_1_0_n_n_0_1_14_wf : GatherDims.WF S100000x4 S6400000x1 S6400000x4 [1] [0] [] [0] [] 1 ![1, 4]
  dot_S6400x4_S4x20_S6400x20_1_0_0_1_n_n_wf : DotDims.WF S6400x4 S4x20 S6400x20 [1] [0] [0] [1] [] []
  dot_S6400x3_S3x20_S6400x20_1_0_0_1_n_n_wf : DotDims.WF S6400x3 S3x20 S6400x20 [1] [0] [0] [1] [] []
  dot_S6400x20_S20x20_S6400x20_1_0_0_1_n_n_wf : DotDims.WF S6400x20 S20x20 S6400x20 [1] [0] [0] [1] [] []
  scatter_S100000x20_S6400000x1_S6400000x20_1_0_0_1_wf : ScatterDims.WF S100000x20 S6400000x1 S6400000x20 [1] [0] [0] 1
  scatter_S100000_S6400000x1_S6400000_n_0_0_1_wf : ScatterDims.WF S100000 S6400000x1 S6400000 [] [0] [0] 1
  gather_S100000x20_S6400000x1_S6400000x20_1_0_n_n_0_1_120_wf : GatherDims.WF S100000x20 S6400000x1 S6400000x20 [1] [0] [] [0] [] 1 ![1, 20]
  dot_S2000x20_S20x3_S2000x3_1_0_0_1_n_n_wf : DotDims.WF S2000x20 S20x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x4.size a ≤ S6400000x4.size a
  hwx0_0 : ∀ i : grid0.Coords, EltTy.bits .f32 = 32 ∨ (Rect.block (s := S6400000x4) S6400x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x3.size a ≤ S6400000x3.size a
  hwx0_1 : ∀ i : grid0.Coords, EltTy.bits .f32 = 32 ∨ (Rect.block (s := S6400000x3) S6400x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x20.size a ≤ S4x20.size a
  hwx0_2 : ∀ i : grid0.Coords, EltTy.bits .f32 = 32 ∨ (Rect.block (s := S4x20) S4x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x20.size a ≤ S3x20.size a
  hwx0_3 : ∀ i : grid0.Coords, EltTy.bits .f32 = 32 ∨ (Rect.block (s := S3x20) S3x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x20.size a ≤ S1x20.size a
  hwx0_4 : ∀ i : grid0.Coords, EltTy.bits .f32 = 32 ∨ (Rect.block (s := S1x20) S1x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x20.size a ≤ S20x20.size a
  hwx0_5 : ∀ i : grid0.Coords, EltTy.bits .f32 = 32 ∨ (Rect.block (s := S20x20) S20x20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x20.size a ≤ S1x20.size a
  hwx0_6 : ∀ i : grid0.Coords, EltTy.bits .f32 = 32 ∨ (Rect.block (s := S1x20) S1x20.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x20.size a ≤ S6400000x20.size a
  hwx0_7 : ∀ i : grid0.Coords, EltTy.bits .f32 = 32 ∨ (Rect.block (s := S6400000x20) S6400x20.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x20.size a ≤ S6400000x20.size a
  hwx1_0 : ∀ i : grid1.Coords, EltTy.bits .f32 = 32 ∨ (Rect.block (s := S6400000x20) S6400x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x3.size a ≤ S6400000x3.size a
  hwx1_1 : ∀ i : grid1.Coords, EltTy.bits .f32 = 32 ∨ (Rect.block (s := S6400000x3) S6400x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20x20.size a ≤ S20x20.size a
  hwx1_2 : ∀ i : grid1.Coords, EltTy.bits .f32 = 32 ∨ (Rect.block (s := S20x20) S20x20.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x20.size a ≤ S3x20.size a
  hwx1_3 : ∀ i : grid1.Coords, EltTy.bits .f32 = 32 ∨ (Rect.block (s := S3x20) S3x20.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x20.size a ≤ S1x20.size a
  hwx1_4 : ∀ i : grid1.Coords, EltTy.bits .f32 = 32 ∨ (Rect.block (s := S1x20) S1x20.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S20x20.size a ≤ S20x20.size a
  hwx1_5 : ∀ i : grid1.Coords, EltTy.bits .f32 = 32 ∨ (Rect.block (s := S20x20) S20x20.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x20.size a ≤ S1x20.size a
  hwx1_6 : ∀ i : grid1.Coords, EltTy.bits .f32 = 32 ∨ (Rect.block (s := S1x20) S1x20.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x20.size a ≤ S6400000x20.size a
  hwx1_7 : ∀ i : grid1.Coords, EltTy.bits .f32 = 32 ∨ (Rect.block (s := S6400000x20) S6400x20.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x20.size a ≤ S100000x20.size a
  hwx2_0 : ∀ i : grid2.Coords, EltTy.bits .f32 = 32 ∨ (Rect.block (s := S100000x20) S2000x20.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S20x3.size a ≤ S20x3.size a
  hwx2_1 : ∀ i : grid2.Coords, EltTy.bits .f32 = 32 ∨ (Rect.block (s := S20x3) S20x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x3.size a ≤ S1x3.size a
  hwx2_2 : ∀ i : grid2.Coords, EltTy.bits .f32 = 32 ∨ (Rect.block (s := S1x3) S1x3.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x3.size a ≤ S100000x3.size a
  hwx2_3 : ∀ i : grid2.Coords, EltTy.bits .f32 = 32 ∨ (Rect.block (s := S100000x3) S2000x3.size (cc2_transform_3 i) (hinb2_3 i)).WholeWords (EltTy.packing .f32)

variable [Facts₀]

def gather_S100000x4_S6400000x1_S6400000x4_1_0_n_n_0_1_14 : GatherDims S100000x4 S6400000x1 S6400000x4 where
  offsetDims := [1]
  collapsedSliceDims := [0]
  operandBatchingDims := []
  startIndicesBatchingDims := []
  startIndexMap := [0]
  indexVectorDim := 1
  sliceSizes := ![1, 4]
  wf := gather_S100000x4_S6400000x1_S6400000x4_1_0_n_n_0_1_14_wf
def dot_S6400x4_S4x20_S6400x20_1_0_0_1_n_n : DotDims S6400x4 S4x20 S6400x20 where
  lhsContracting := [1]
  rhsContracting := [0]
  lhsNonContracting := [0]
  rhsNonContracting := [1]
  lhsBatch := []
  rhsBatch := []
  wf := dot_S6400x4_S4x20_S6400x20_1_0_0_1_n_n_wf
def dot_S6400x3_S3x20_S6400x20_1_0_0_1_n_n : DotDims S6400x3 S3x20 S6400x20 where
  lhsContracting := [1]
  rhsContracting := [0]
  lhsNonContracting := [0]
  rhsNonContracting := [1]
  lhsBatch := []
  rhsBatch := []
  wf := dot_S6400x3_S3x20_S6400x20_1_0_0_1_n_n_wf
def dot_S6400x20_S20x20_S6400x20_1_0_0_1_n_n : DotDims S6400x20 S20x20 S6400x20 where
  lhsContracting := [1]
  rhsContracting := [0]
  lhsNonContracting := [0]
  rhsNonContracting := [1]
  lhsBatch := []
  rhsBatch := []
  wf := dot_S6400x20_S20x20_S6400x20_1_0_0_1_n_n_wf
def scatter_S100000x20_S6400000x1_S6400000x20_1_0_0_1 : ScatterDims S100000x20 S6400000x1 S6400000x20 where
  updateWindowDims := [1]
  insertedWindowDims := [0]
  scatterDimsToOperandDims := [0]
  indexVectorDim := 1
  wf := scatter_S100000x20_S6400000x1_S6400000x20_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000x20_S6400000x1_S6400000x20_1_0_n_n_0_1_120 : GatherDims S100000x20 S6400000x1 S6400000x20 where
  offsetDims := [1]
  collapsedSliceDims := [0]
  operandBatchingDims := []
  startIndicesBatchingDims := []
  startIndexMap := [0]
  indexVectorDim := 1
  sliceSizes := ![1, 20]
  wf := gather_S100000x20_S6400000x1_S6400000x20_1_0_n_n_0_1_120_wf
def dot_S2000x20_S20x3_S2000x3_1_0_0_1_n_n : DotDims S2000x20 S20x3 S2000x3 where
  lhsContracting := [1]
  rhsContracting := [0]
  lhsNonContracting := [0]
  rhsNonContracting := [1]
  lhsBatch := []
  rhsBatch := []
  wf := dot_S2000x20_S20x3_S2000x3_1_0_0_1_n_n_wf

abbrev win0_0 : Pipeline.Window sig grid0 :=
  Pipeline.Window.ofSpec (Memref.whole main_v4) S6400x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S3x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S20x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S6400x20.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26) S6400x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S6400x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S20x20.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S3x20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x20.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S20x20.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x20.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S6400x20.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v46) S2000x20.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S20x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x3.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S2000x3.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x4 : Shape := ⟨2, ![100000, 4]⟩
abbrev S2x6400000 : Shape := ⟨2, ![2, 6400000]⟩
abbrev S6400000x3 : Shape := ⟨2, ![6400000, 3]⟩
abbrev S7x20 : Shape := ⟨2, ![7, 20]⟩
abbrev S20 : Shape := ⟨1, ![20]⟩
abbrev S20x20 : Shape := ⟨2, ![20, 20]⟩
abbrev S23x20 : Shape := ⟨2, ![23, 20]⟩
abbrev S20x3 : Shape := ⟨2, ![20, 3]⟩
abbrev S3 : Shape := ⟨1, ![3]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x4 : Shape := ⟨2, ![6400000, 4]⟩
abbrev S6400000x7 : Shape := ⟨2, ![6400000, 7]⟩
abbrev S6400000x20 : Shape := ⟨2, ![6400000, 20]⟩
abbrev S1x20 : Shape := ⟨2, ![1, 20]⟩
abbrev S100000x20 : Shape := ⟨2, ![100000, 20]⟩
abbrev S100000 : Shape := ⟨1, ![100000]⟩
abbrev S100000x1 : Shape := ⟨2, ![100000, 1]⟩
abbrev S6400000x23 : Shape := ⟨2, ![6400000, 23]⟩
abbrev S100000x3 : Shape := ⟨2, ![100000, 3]⟩
abbrev S1x3 : Shape := ⟨2, ![1, 3]⟩

abbrev nBuf : Space → Nat
  | .hbm => 126
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x6400000, .i32⟩
  | .hbm, ⟨2, _⟩ => ⟨S6400000x3, .f32⟩
  | .hbm, ⟨3, _⟩ => ⟨S7x20, .f32⟩
  | .hbm, ⟨4, _⟩ => ⟨S20, .f32⟩
  | .hbm, ⟨5, _⟩ => ⟨S20x20, .f32⟩
  | .hbm, ⟨6, _⟩ => ⟨S20, .f32⟩
  | .hbm, ⟨7, _⟩ => ⟨S23x20, .f32⟩
  | .hbm, ⟨8, _⟩ => ⟨S20, .f32⟩
  | .hbm, ⟨9, _⟩ => ⟨S20x20, .f32⟩
  | .hbm, ⟨10, _⟩ => ⟨S20, .f32⟩
  | .hbm, ⟨11, _⟩ => ⟨S20x3, .f32⟩
  | .hbm, ⟨12, _⟩ => ⟨S3, .f32⟩
  | .hbm, ⟨13, _⟩ => ⟨S1x6400000, .i32⟩
  | .hbm, ⟨14, _⟩ => ⟨S6400000, .i32⟩
  | .hbm, ⟨15, _⟩ => ⟨S1x6400000, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000x4, .f32⟩
  | .hbm, ⟨26, _⟩ => ⟨S6400000x7, .f32⟩
  | .hbm, ⟨27, _⟩ => ⟨S6400000x20, .f32⟩
  | .hbm, ⟨28, _⟩ => ⟨S1x20, .f32⟩
  | .hbm, ⟨29, _⟩ => ⟨S6400000x20, .f32⟩
  | .hbm, ⟨30, _⟩ => ⟨S6400000x20, .f32⟩
  | .hbm, ⟨31, _⟩ => ⟨S_, .f32⟩
  | .hbm, ⟨32, _⟩ => ⟨S6400000x20, .f32⟩
  | .hbm, ⟨33, _⟩ => ⟨S6400000x20, .f32⟩
  | .hbm, ⟨34, _⟩ => ⟨S6400000x20, .f32⟩
  | .hbm, ⟨35, _⟩ => ⟨S1x20, .f32⟩
  | .hbm, ⟨36, _⟩ => ⟨S6400000x20, .f32⟩
  | .hbm, ⟨37, _⟩ => ⟨S6400000x20, .f32⟩
  | .hbm, ⟨38, _⟩ => ⟨S_, .f32⟩
  | .hbm, ⟨39, _⟩ => ⟨S100000x20, .f32⟩
  | .hbm, ⟨40, _⟩ => ⟨S6400000x1, .i32⟩
  | .hbm, ⟨41, _⟩ => ⟨S100000x20, .f32⟩
  | .hbm, ⟨42, _⟩ => ⟨S_, .f32⟩
  | .hbm, ⟨43, _⟩ => ⟨S6400000, .f32⟩
  | .hbm, ⟨44, _⟩ => ⟨S_, .f32⟩
  | .hbm, ⟨45, _⟩ => ⟨S100000, .f32⟩
  | .hbm, ⟨46, _⟩ => ⟨S6400000x1, .i32⟩
  | .hbm, ⟨47, _⟩ => ⟨S100000, .f32⟩
  | .hbm, ⟨48, _⟩ => ⟨S100000x1, .f32⟩
  | .hbm, ⟨49, _⟩ => ⟨S_, .f32⟩
  | .hbm, ⟨50, _⟩ => ⟨S100000x1, .f32⟩
  | .hbm, ⟨51, _⟩ => ⟨S100000x1, .i1⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000x20, .f32⟩
  | .hbm, ⟨56, _⟩ => ⟨S100000x20, .f32⟩
  | .hbm, ⟨57, _⟩ => ⟨S_, .f32⟩
  | .hbm, ⟨58, _⟩ => ⟨S_, .f32⟩
  | .hbm, ⟨59, _⟩ => ⟨S100000x20, .i1⟩
  | .hbm, ⟨60, _⟩ => ⟨S100000x20, .f32⟩
  | .hbm, ⟨61, _⟩ => ⟨S100000x20, .f32⟩
  | .hbm, ⟨62, _⟩ => ⟨S_, .f32⟩
  | .hbm, ⟨63, _⟩ => ⟨S100000x20, .f32⟩
  | .hbm, ⟨64, _⟩ => ⟨S100000x20, .f32⟩
  | .hbm, ⟨65, _⟩ => ⟨S1x6400000, .i32⟩
  | .hbm, ⟨66, _⟩ => ⟨S6400000, .i32⟩
  | .hbm, ⟨67, _⟩ => ⟨S1x6400000, .i32⟩
  | .hbm, ⟨68, _⟩ => ⟨S6400000, .i32⟩
  | .hbm, ⟨69, _⟩ => ⟨S_, .i32⟩
  | .hbm, ⟨70, _⟩ => ⟨S6400000, .i32⟩
  | .hbm, ⟨71, _⟩ => ⟨S6400000, .i1⟩
  | .hbm, ⟨72, _⟩ => ⟨S_, .i32⟩
  | .hbm, ⟨73, _⟩ => ⟨S6400000, .i32⟩
  | .hbm, ⟨74, _⟩ => ⟨S6400000, .i32⟩
  | .hbm, ⟨75, _⟩ => ⟨S6400000, .i32⟩
  | .hbm, ⟨76, _⟩ => ⟨S6400000x1, .i32⟩
  | .hbm, ⟨77, _⟩ => ⟨S6400000x20, .f32⟩
  | .hbm, ⟨78, _⟩ => ⟨S6400000x23, .f32⟩
  | .hbm, ⟨79, _⟩ => ⟨S6400000x20, .f32⟩
  | .hbm, ⟨80, _⟩ => ⟨S1x20, .f32⟩
  | .hbm, ⟨81, _⟩ => ⟨S6400000x20, .f32⟩
  | .hbm, ⟨82, _⟩ => ⟨S6400000x20, .f32⟩
  | .hbm, ⟨83, _⟩ => ⟨S_, .f32⟩
  | .hbm, ⟨84, _⟩ => ⟨S6400000x20, .f32⟩
  | .hbm, ⟨85, _⟩ => ⟨S6400000x20, .f32⟩
  | .hbm, ⟨86, _⟩ => ⟨S6400000x20, .f32⟩
  | .hbm, ⟨87, _⟩ => ⟨S1x20, .f32⟩
  | .hbm, ⟨88, _⟩ => ⟨S6400000x20, .f32⟩
  | .hbm, ⟨89, _⟩ => ⟨S6400000x20, .f32⟩
  | .hbm, ⟨90, _⟩ => ⟨S_, .f32⟩
  | .hbm, ⟨91, _⟩ => ⟨S100000x20, .f32⟩
  | .hbm, ⟨92, _⟩ => ⟨S6400000x1, .i32⟩
  | .hbm, ⟨93, _⟩ => ⟨S100000x20, .f32⟩
  | .hbm, ⟨94, _⟩ => ⟨S_, .f32⟩
  | .hbm, ⟨95, _⟩ => ⟨S6400000, .f32⟩
  | .hbm, ⟨96, _⟩ => ⟨S_, .f32⟩
  | .hbm, ⟨97, _⟩ => ⟨S100000, .f32⟩
  | .hbm, ⟨98, _⟩ => ⟨S6400000x1, .i32⟩
  | .hbm, ⟨99, _⟩ => ⟨S100000, .f32⟩
  | .hbm, ⟨100, _⟩ => ⟨S100000x1, .f32⟩
  | .hbm, ⟨101, _⟩ => ⟨S_, .f32⟩
  | .hbm, ⟨102, _⟩ => ⟨S100000x1, .f32⟩
  | .hbm, ⟨103, _⟩ => ⟨S100000x1, .i1⟩
  | .hbm, ⟨104, _⟩ => ⟨S_, .f32⟩
  | .hbm, ⟨105, _⟩ => ⟨S100000x1, .f32⟩
  | .hbm, ⟨106, _⟩ => ⟨S100000x1, .f32⟩
  | .hbm, ⟨107, _⟩ => ⟨S100000x20, .f32⟩
  | .hbm, ⟨108, _⟩ => ⟨S100000x20, .f32⟩
  | .hbm, ⟨109, _⟩ => ⟨S_, .f32⟩
  | .hbm, ⟨110, _⟩ => ⟨S_, .f32⟩
  | .hbm, ⟨111, _⟩ => ⟨S100000x20, .i1⟩
  | .hbm, ⟨112, _⟩ => ⟨S100000x20, .f32⟩
  | .hbm, ⟨113, _⟩ => ⟨S100000x20, .f32⟩
  | .hbm, ⟨114, _⟩ => ⟨S100000x3, .f32⟩
  | .hbm, ⟨115, _⟩ => ⟨S1x3, .f32⟩
  | .hbm, ⟨116, _⟩ => ⟨S100000x3, .f32⟩
  | .hbm, ⟨117, _⟩ => ⟨S100000x3, .f32⟩
  | .hbm, ⟨118, _⟩ => ⟨S100000x3, .f32⟩
  | .hbm, ⟨119, _⟩ => ⟨S100000x3, .f32⟩
  | .hbm, ⟨120, _⟩ => ⟨S_, .f32⟩
  | .hbm, ⟨121, _⟩ => ⟨S100000x3, .f32⟩
  | .hbm, ⟨122, _⟩ => ⟨S100000x3, .f32⟩
  | .hbm, ⟨123, _⟩ => ⟨S_, .f32⟩
  | .hbm, ⟨124, _⟩ => ⟨S100000x3, .f32⟩
  | .hbm, ⟨125, _⟩ => ⟨S100000x3, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v35 : Ref sig .tc := ⟨.hbm, 61, rfl⟩
abbrev main_call2_cst : Ref sig .tc := ⟨.hbm, 62, rfl⟩
abbrev main_call2_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_6 : Ref sig .tc := ⟨.hbm, 69, rfl⟩
abbrev main_v41 : Ref sig .tc := ⟨.hbm, 70, rfl⟩
abbrev main_v42 : Ref sig .tc := ⟨.hbm, 71, rfl⟩
abbrev main_c_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call3_cst : Ref sig .tc := ⟨.hbm, 83, rfl⟩
abbrev main_call3_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_8 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_9 : Ref sig .tc := ⟨.hbm, 94, rfl⟩
abbrev main_v61 : Ref sig .tc := ⟨.hbm, 95, rfl⟩
abbrev main_cst_10 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_11 : Ref sig .tc := ⟨.hbm, 101, rfl⟩
abbrev main_v66 : Ref sig .tc := ⟨.hbm, 102, rfl⟩
abbrev main_v67 : Ref sig .tc := ⟨.hbm, 103, rfl⟩
abbrev main_cst_12 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_13 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_14 : Ref sig .tc := ⟨.hbm, 120, rfl⟩
abbrev main_v79 : Ref sig .tc := ⟨.hbm, 121, rfl⟩
abbrev main_v80 : Ref sig .tc := ⟨.hbm, 122, rfl⟩
abbrev main_cst_15 : Ref sig .tc := ⟨.hbm, 123, rfl⟩
abbrev main_v81 : Ref sig .tc := ⟨.hbm, 124, rfl⟩
abbrev main_v82 : Ref sig .tc := ⟨.hbm, 125, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x4_S6400000x3_S6400000x7_d1 : Shape.Concatenates [S6400000x4, S6400000x3] S6400000x7 1
  bcast_S20_S1x20_1 : S20.BroadcastsInDim S1x20 (![1] : Fin 1 → Fin S1x20.rank)
  bcast_S1x20_S6400000x20_0_1 : S1x20.BroadcastsInDim S6400000x20 (![0, 1] : Fin 2 → Fin S6400000x20.rank)
  bcast_S_S6400000x20 : S_.BroadcastsInDim S6400000x20 (![] : Fin 0 → Fin S6400000x20.rank)
  bcast_S_S100000x20 : S_.BroadcastsInDim S100000x20 (![] : Fin 0 → Fin S100000x20.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x20_0_1 : S100000x1.BroadcastsInDim S100000x20 (![0, 1] : Fin 2 → Fin S100000x20.rank)
  concatenates_S6400000x20_S6400000x3_S6400000x23_d1 : Shape.Concatenates [S6400000x20, S6400000x3] S6400000x23 1
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S_S100000x3 : S_.BroadcastsInDim S100000x3 (![] : Fin 0 → Fin S100000x3.rank)
  gather_S100000x4_S6400000x1_S6400000x4_1_0_n_n_0_1_14_wf : GatherDims.WF S100000x4 S6400000x1 S6400000x4 [1] [0] [] [0] [] 1 ![1, 4]
  dot_S6400000x7_S7x20_S6400000x20_1_0_0_1_n_n_wf : DotDims.WF S6400000x7 S7x20 S6400000x20 [1] [0] [0] [1] [] []
  dot_S6400000x20_S20x20_S6400000x20_1_0_0_1_n_n_wf : DotDims.WF S6400000x20 S20x20 S6400000x20 [1] [0] [0] [1] [] []
  scatter_S100000x20_S6400000x1_S6400000x20_1_0_0_1_wf : ScatterDims.WF S100000x20 S6400000x1 S6400000x20 [1] [0] [0] 1
  scatter_S100000_S6400000x1_S6400000_n_0_0_1_wf : ScatterDims.WF S100000 S6400000x1 S6400000 [] [0] [0] 1
  gather_S100000x20_S6400000x1_S6400000x20_1_0_n_n_0_1_120_wf : GatherDims.WF S100000x20 S6400000x1 S6400000x20 [1] [0] [] [0] [] 1 ![1, 20]
  dot_S6400000x23_S23x20_S6400000x20_1_0_0_1_n_n_wf : DotDims.WF S6400000x23 S23x20 S6400000x20 [1] [0] [0] [1] [] []
  dot_S100000x20_S20x3_S100000x3_1_0_0_1_n_n_wf : DotDims.WF S100000x20 S20x3 S100000x3 [1] [0] [0] [1] [] []

variable [Facts₀]

def gather_S100000x4_S6400000x1_S6400000x4_1_0_n_n_0_1_14 : GatherDims S100000x4 S6400000x1 S6400000x4 where
  offsetDims := [1]
  collapsedSliceDims := [0]
  operandBatchingDims := []
  startIndicesBatchingDims := []
  startIndexMap := [0]
  indexVectorDim := 1
  sliceSizes := ![1, 4]
  wf := gather_S100000x4_S6400000x1_S6400000x4_1_0_n_n_0_1_14_wf
def dot_S6400000x7_S7x20_S6400000x20_1_0_0_1_n_n : DotDims S6400000x7 S7x20 S6400000x20 where
  lhsContracting := [1]
  rhsContracting := [0]
  lhsNonContracting := [0]
  rhsNonContracting := [1]
  lhsBatch := []
  rhsBatch := []
  wf := dot_S6400000x7_S7x20_S6400000x20_1_0_0_1_n_n_wf
def dot_S6400000x20_S20x20_S6400000x20_1_0_0_1_n_n : DotDims S6400000x20 S20x20 S6400000x20 where
  lhsContracting := [1]
  rhsContracting := [0]
  lhsNonContracting := [0]
  rhsNonContracting := [1]
  lhsBatch := []
  rhsBatch := []
  wf := dot_S6400000x20_S20x20_S6400000x20_1_0_0_1_n_n_wf
def scatter_S100000x20_S6400000x1_S6400000x20_1_0_0_1 : ScatterDims S100000x20 S6400000x1 S6400000x20 where
  updateWindowDims := [1]
  insertedWindowDims := [0]
  scatterDimsToOperandDims := [0]
  indexVectorDim := 1
  wf := scatter_S100000x20_S6400000x1_S6400000x20_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000x20_S6400000x1_S6400000x20_1_0_n_n_0_1_120 : GatherDims S100000x20 S6400000x1 S6400000x20 where
  offsetDims := [1]
  collapsedSliceDims := [0]
  operandBatchingDims := []
  startIndicesBatchingDims := []
  startIndexMap := [0]
  indexVectorDim := 1
  sliceSizes := ![1, 20]
  wf := gather_S100000x20_S6400000x1_S6400000x20_1_0_n_n_0_1_120_wf
def dot_S6400000x23_S23x20_S6400000x20_1_0_0_1_n_n : DotDims S6400000x23 S23x20 S6400000x20 where
  lhsContracting := [1]
  rhsContracting := [0]
  lhsNonContracting := [0]
  rhsNonContracting := [1]
  lhsBatch := []
  rhsBatch := []
  wf := dot_S6400000x23_S23x20_S6400000x20_1_0_0_1_n_n_wf
def dot_S100000x20_S20x3_S100000x3_1_0_0_1_n_n : DotDims S100000x20 S20x3 S100000x3 where
  lhsContracting := [1]
  rhsContracting := [0]
  lhsNonContracting := [0]
  rhsNonContracting := [1]
  lhsBatch := []
  rhsBatch := []
  wf := dot_S100000x20_S20x3_S100000x3_1_0_0_1_n_n_wf

class Facts : Prop extends Facts₀ where

variable [Facts]
-- ==== Proof.Chain.lean ====
/-
  The host operations that stand between the three kernel calls, as functions of the arrays they read.

  * The source and the target node of every edge: rows 0 and 1 of the edge index.
  * A take with out-of-range entries filled: the index is first wrapped the way NumPy wraps a negative index
    (`idx + 100000` where `idx < 0`), the row of the table at the wrapped index is gathered, and a row whose wrapped
    index falls outside [0, 99999] is replaced by a fill value. Stated for a table of 4 and of 20 columns.
  * The mean of the messages that arrive at a node: the messages are added up per target node, the number of
    arriving edges is counted the same way, and a node with at least one arriving edge gets the sum divided by the
    count, every other node 0.
  * The positive part of a matrix.
-/
import proofs.«423065_j89103391523366_2_alg».proof.KernelIdeal
import Idealize.ShloMosaic.PureOps.Ideal

noncomputable section

namespace Cert.KernelIdeal.Chain

open Cert.KernelIdeal
open Idealize.ShloMosaic

variable [Cert.KernelIdeal.Facts₀]
open Cert.KernelIdeal.Facts₀
variable {F : FTy → Type} [FloatOps F]

/-- The source node of every edge: row 0 of the edge index, as a vector. -/
def srcOf (ei : (⟨S2x6400000, .i32⟩ : BufTy).Contents (Elt F)) : (⟨S6400000, .i32⟩ : BufTy).Contents (Elt F) :=
  shapeCast S6400000 (extractStridedSlice S1x6400000 ![0, 0] ei slices_S2x6400000_S1x6400000_0_0) shapeCasts_S1x6400000_S6400000

/-- The target node of every edge: row 1 of the edge index, as a vector. -/
def dstOf (ei : (⟨S2x6400000, .i32⟩ : BufTy).Contents (Elt F)) : (⟨S6400000, .i32⟩ : BufTy).Contents (Elt F) :=
  shapeCast S6400000 (extractStridedSlice S1x6400000 ![1, 0] ei slices_S2x6400000_S1x6400000_1_0) shapeCasts_S1x6400000_S6400000

/-- The indices wrapped the NumPy way, as a one-column matrix: `idx + 100000` where `idx < 0`, else `idx`. -/
def wrapCol (idx : (⟨S6400000, .i32⟩ : BufTy).Contents (Elt F)) : (⟨S6400000x1, .i32⟩ : BufTy).Contents (Elt F) :=
  broadcastInDim S6400000x1 ![0] bcast_S6400000_S6400000x1_0
    (select (cmpi .slt idx (broadcastInDim S6400000 ![] bcast_S_S6400000 (constantI S_ 32 0#32)))
      (addi idx (broadcastInDim S6400000 ![] bcast_S_S6400000 (constantI S_ 32 100000#32))) idx)

/-- Which rows have their wrapped index inside [0, 99999]: one bit per edge. -/
def inRange (idx : (⟨S6400000, .i32⟩ : BufTy).Contents (Elt F)) : (⟨S6400000, .i1⟩ : BufTy).Contents (Elt F) :=
  Host.reduce IntOp.andi
    (andi (cmpi .sge (wrapCol (F := F) idx) (broadcastInDim S6400000x1 ![] bcast_S_S6400000x1 (constantI S_ 32 0#32)))
      (cmpi .sle (wrapCol (F := F) idx) (broadcastInDim S6400000x1 ![0, 1] bcast_S1x1_S6400000x1_0_1
        (broadcastInDim S1x1 ![1] bcast_S1_S1x1_1 (constantI S1 32 99999#32)))))
    (constantI S_ 1 1#1) reducesTo_S6400000x1_S6400000_d1 h_S_

/-- The rows of a 4-column table taken at the indices, a row whose wrapped index is out of range filled. -/
def take4 (x : (⟨S100000x4, .f32⟩ : BufTy).Contents (Elt F)) (idx : (⟨S6400000, .i32⟩ : BufTy).Contents (Elt F)) :
    (⟨S6400000x4, .f32⟩ : BufTy).Contents (Elt F) :=
  select (broadcastInDim S6400000x4 ![0] bcast_S6400000_S6400000x4_0 (inRange (F := F) idx))
    (Host.gather gather_S100000x4_S6400000x1_S6400000x4_1_0_n_n_0_1_14 x (wrapCol (F := F) idx))
    (broadcastInDim S6400000x4 ![] bcast_S_S6400000x4 (constant S_ .f32 0x7FC00000#32))

/-- The rows of a 20-column table taken at the indices, a row whose wrapped index is out of range filled. -/
def take20 (h : (⟨S100000x20, .f32⟩ : BufTy).Contents (Elt F)) (idx : (⟨S6400000, .i32⟩ : BufTy).Contents (Elt F)) :
    (⟨S6400000x20, .f32⟩ : BufTy).Contents (Elt F) :=
  select (broadcastInDim S6400000x20 ![0] bcast_S6400000_S6400000x20_0 (inRange (F := F) idx))
    (Host.gather gather_S100000x20_S6400000x1_S6400000x20_1_0_n_n_0_1_120 h (wrapCol (F := F) idx))
    (broadcastInDim S6400000x20 ![] bcast_S_S6400000x20 (constant S_ .f32 0x7FC00000#32))

/-- How many edges arrive at each node, as a one-column matrix. -/
def arrivals (dst : (⟨S6400000, .i32⟩ : BufTy).Contents (Elt F)) : (⟨S100000x1, .f32⟩ : BufTy).Contents (Elt F) :=
  broadcastInDim S100000x1 ![0] bcast_S100000_S100000x1_0
    (Host.scatterAdd scatter_S100000_S6400000x1_S6400000_n_0_0_1
      (broadcastInDim S100000 ![] bcast_S_S100000 (constant S_ .f32 0x00000000#32))
      (broadcastInDim S6400000x1 ![0] bcast_S6400000_S6400000x1_0 dst)
      (broadcastInDim S6400000 ![] bcast_S_S6400000 (constant S_ .f32 0x3F800000#32)))

/-- The mean of the messages arriving at each node; 0 at a node where none arrives. -/
def meanOf (msgs : (⟨S6400000x20, .f32⟩ : BufTy).Contents (Elt F)) (dst : (⟨S6400000, .i32⟩ : BufTy).Contents (Elt F)) :
    (⟨S100000x20, .f32⟩ : BufTy).Contents (Elt F) :=
  select
    (broadcastInDim S100000x20 ![0, 1] bcast_S100000x1_S100000x20_0_1
      (cmpf (F := F) .ogt (arrivals (F := F) dst) (broadcastInDim S100000x1 ![] bcast_S_S100000x1 (constant S_ .f32 0x00000000#32))))
    (Host.divf
      (Host.scatterAdd scatter_S100000x20_S6400000x1_S6400000x20_1_0_0_1
        (broadcastInDim S100000x20 ![] bcast_S_S100000x20 (constant S_ .f32 0x00000000#32))
        (broadcastInDim S6400000x1 ![0] bcast_S6400000_S6400000x1_0 dst) msgs)
      (broadcastInDim S100000x20 ![0, 1] bcast_S100000x1_S100000x20_0_1
        (maximumf (arrivals (F := F) dst) (broadcastInDim S100000x1 ![] bcast_S_S100000x1 (constant S_ .f32 0x3F800000#32)))))
    (broadcastInDim S100000x20 ![] bcast_S_S100000x20 (id (constant S_ .f32 0x00000000#32)))

/-- The positive part of a matrix, entry by entry. -/
def reluOf (h : (⟨S100000x20, .f32⟩ : BufTy).Contents (Elt F)) : (⟨S100000x20, .f32⟩ : BufTy).Contents (Elt F) :=
  maximumf h (broadcastInDim S100000x20 ![] bcast_S_S100000x20 (constant S_ .f32 0x00000000#32))

end Cert.KernelIdeal.Chain

end
-- ==== Proof.KOps.lean ====
/- The operations of the five outlined host functions of the kernel program (two takes, two choices between the mean
  and 0, one positive part), written over the buffers themselves: each list is the program's own list of operations,
  whose contents pass through a change of type that is the identity. -/
import proofs.«423065_j89103391523366_2_alg».proof.Proof.Gen.KernelIdeal.Launch
import proofs.«423065_j89103391523366_2_alg».proof.Proof.Chain
import Idealize.ShloMosaic.Lib.StableHlo.Run

set_option maxRecDepth 16384

noncomputable section

namespace Cert.KernelIdeal.KOps

open Cert.KernelIdeal Cert.KernelIdeal.Gen Cert.KernelIdeal.Chain
open Idealize.ShloMosaic Idealize.ShloMosaic.TcCoe Idealize.SL.Sem Idealize.ShloMosaic.StableHlo

variable {F : FTy → Type} [FloatOps F]

/-- The take of the node features at the sources, operation by operation. -/
def takeOps4 : List (HloOp τ sig (Elt F)) :=
  [ StableHlo.nullary main_call0_c (constantI S_ 32 0#32 : (⟨S_, .i32⟩ : BufTy).Contents (Elt F)),
    StableHlo.unary main_call0_c main_call0_v0 (broadcastInDim S6400000 ![] bcast_S_S6400000 : (⟨S_, .i32⟩ : BufTy).Contents (Elt F) → (⟨S6400000, .i32⟩ : BufTy).Contents (Elt F)),
    StableHlo.binary main_v1 main_call0_v0 main_call0_v1 (cmpi .slt : (⟨S6400000, .i32⟩ : BufTy).Contents (Elt F) → (⟨S6400000, .i32⟩ : BufTy).Contents (Elt F) → (⟨S6400000, .i1⟩ : BufTy).Contents (Elt F)),
    StableHlo.nullary main_call0_c_0 (constantI S_ 32 100000#32 : (⟨S_, .i32⟩ : BufTy).Contents (Elt F)),
    StableHlo.unary main_call0_c_0 main_call0_v2 (broadcastInDim S6400000 ![] bcast_S_S6400000 : (⟨S_, .i32⟩ : BufTy).Contents (Elt F) → (⟨S6400000, .i32⟩ : BufTy).Contents (Elt F)),
    StableHlo.binary main_v1 main_call0_v2 main_call0_v3 (addi : (⟨S6400000, .i32⟩ : BufTy).Contents (Elt F) → (⟨S6400000, .i32⟩ : BufTy).Contents (Elt F) → (⟨S6400000, .i32⟩ : BufTy).Contents (Elt F)),
    StableHlo.ternary main_call0_v1 main_call0_v3 main_v1 main_call0_v4 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_call0_v4 main_call0_v5 (broadcastInDim S6400000x1 ![0] bcast_S6400000_S6400000x1_0 : (⟨S6400000, .i32⟩ : BufTy).Contents (Elt F) → (⟨S6400000x1, .i32⟩ : BufTy).Contents (Elt F)),
    StableHlo.nullary main_call0_c_1 (constantI S1 32 99999#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 (broadcastInDim S6400000x1 ![] bcast_S_S6400000x1 : (⟨S_, .i32⟩ : BufTy).Contents (Elt F) → (⟨S6400000x1, .i32⟩ : BufTy).Contents (Elt F)),
    StableHlo.binary main_call0_v5 main_call0_v6 main_call0_v7 (cmpi .sge : (⟨S6400000x1, .i32⟩ : BufTy).Contents (Elt F) → (⟨S6400000x1, .i32⟩ : BufTy).Contents (Elt F) → (⟨S6400000x1, .i1⟩ : BufTy).Contents (Elt F)),
    StableHlo.unary main_call0_c_1 main_call0_v8 (broadcastInDim S1x1 ![1] bcast_S1_S1x1_1 : (⟨S1, .i32⟩ : BufTy).Contents (Elt F) → (⟨S1x1, .i32⟩ : BufTy).Contents (Elt F)),
    StableHlo.unary main_call0_v8 main_call0_v9 (broadcastInDim S6400000x1 ![0, 1] bcast_S1x1_S6400000x1_0_1 : (⟨S1x1, .i32⟩ : BufTy).Contents (Elt F) → (⟨S6400000x1, .i32⟩ : BufTy).Contents (Elt F)),
    StableHlo.binary main_call0_v5 main_call0_v9 main_call0_v10 (cmpi .sle : (⟨S6400000x1, .i32⟩ : BufTy).Contents (Elt F) → (⟨S6400000x1, .i32⟩ : BufTy).Contents (Elt F) → (⟨S6400000x1, .i1⟩ : BufTy).Contents (Elt F)),
    StableHlo.binary main_call0_v7 main_call0_v10 main_call0_v11 (andi : (⟨S6400000x1, .i1⟩ : BufTy).Contents (Elt F) → (⟨S6400000x1, .i1⟩ : BufTy).Contents (Elt F) → (⟨S6400000x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 (fun x v => Host.reduce IntOp.andi x v reducesTo_S6400000x1_S6400000_d1 h_S_ : (⟨S6400000x1, .i1⟩ : BufTy).Contents (Elt F) → (⟨S_, .i1⟩ : BufTy).Contents (Elt F) → (⟨S6400000, .i1⟩ : BufTy).Contents (Elt F)),
    StableHlo.binary main_arg0 main_call0_v5 main_call0_v13 (fun x i => Host.gather gather_S100000x4_S6400000x1_S6400000x4_1_0_n_n_0_1_14 x i : (⟨S100000x4, .f32⟩ : BufTy).Contents (Elt F) → (⟨S6400000x1, .i32⟩ : BufTy).Contents (Elt F) → (⟨S6400000x4, .f32⟩ : BufTy).Contents (Elt F)),
    StableHlo.unary main_call0_v12 main_call0_v14 (broadcastInDim S6400000x4 ![0] bcast_S6400000_S6400000x4_0 : (⟨S6400000, .i1⟩ : BufTy).Contents (Elt F) → (⟨S6400000x4, .i1⟩ : BufTy).Contents (Elt F)),
    StableHlo.nullary main_call0_cst (constant S_ .f32 0x7FC00000#32 : (⟨S_, .f32⟩ : BufTy).Contents (Elt F)),
    StableHlo.unary main_call0_cst main_call0_v15 (broadcastInDim S6400000x4 ![] bcast_S_S6400000x4 : (⟨S_, .f32⟩ : BufTy).Contents (Elt F) → (⟨S6400000x4, .f32⟩ : BufTy).Contents (Elt F)),
    StableHlo.ternary main_call0_v14 main_call0_v13 main_call0_v15 main_v4 (select : (⟨S6400000x4, .i1⟩ : BufTy).Contents (Elt F) → (⟨S6400000x4, .f32⟩ : BufTy).Contents (Elt F) → (⟨S6400000x4, .f32⟩ : BufTy).Contents (Elt F) → (⟨S6400000x4, .f32⟩ : BufTy).Contents (Elt F)) ]

attribute [local irreducible] Host.reduce Host.gather in
/-- The program's list is this list: the change of type around each operation is the identity. -/
theorem takeOps4_eq : (hostOps0_1 (F := F)) = takeOps4 := rfl

/-- The choice between the mean and 0 after the first layer, operation by operation. -/
def whereOps1 : List (HloOp τ sig (Elt F)) :=
  [ StableHlo.unary main_cst_4 main_call1_v0 (id : (⟨S_, .f32⟩ : BufTy).Contents (Elt F) → (⟨S_, .f32⟩ : BufTy).Contents (Elt F)),
    StableHlo.unary main_v19 main_call1_v1 (broadcastInDim S100000x20 ![0, 1] bcast_S100000x1_S100000x20_0_1 : (⟨S100000x1, .i1⟩ : BufTy).Contents (Elt F) → (⟨S100000x20, .i1⟩ : BufTy).Contents (Elt F)),
    StableHlo.unary main_call1_v0 main_call1_v2 (broadcastInDim S100000x20 ![] bcast_S_S100000x20 : (⟨S_, .f32⟩ : BufTy).Contents (Elt F) → (⟨S100000x20, .f32⟩ : BufTy).Contents (Elt F)),
    StableHlo.ternary main_call1_v1 main_v23 main_call1_v2 main_v24 (select : (⟨S100000x20, .i1⟩ : BufTy).Contents (Elt F) → (⟨S100000x20, .f32⟩ : BufTy).Contents (Elt F) → (⟨S100000x20, .f32⟩ : BufTy).Contents (Elt F) → (⟨S100000x20, .f32⟩ : BufTy).Contents (Elt F)) ]

attribute [local irreducible] Host.reduce Host.gather in
/-- The program's list is this list: the change of type around each operation is the identity. -/
theorem whereOps1_eq : (hostOps1_1 (F := F)) = whereOps1 := rfl

/-- The positive part after the first layer, operation by operation. -/
def reluOps : List (HloOp τ sig (Elt F)) :=
  [ StableHlo.nullary main_call2_cst (constant S_ .f32 0x00000000#32 : (⟨S_, .f32⟩ : BufTy).Contents (Elt F)),
    StableHlo.unary main_call2_cst main_call2_v0 (broadcastInDim S100000x20 ![] bcast_S_S100000x20 : (⟨S_, .f32⟩ : BufTy).Contents (Elt F) → (⟨S100000x20, .f32⟩ : BufTy).Contents (Elt F)),
    StableHlo.binary main_v24 main_call2_v0 main_v25 (maximumf : (⟨S100000x20, .f32⟩ : BufTy).Contents (Elt F) → (⟨S100000x20, .f32⟩ : BufTy).Contents (Elt F) → (⟨S100000x20, .f32⟩ : BufTy).Contents (Elt F)) ]

attribute [local irreducible] Host.reduce Host.gather in
/-- The program's list is this list: the change of type around each operation is the identity. -/
theorem reluOps_eq : (hostOps1_2 (F := F)) = reluOps := rfl

/-- The take of the first layer's node features at the sources, operation by operation. -/
def takeOps20 : List (HloOp τ sig (Elt F)) :=
  [ StableHlo.nullary main_call3_c (constantI S_ 32 0#32 : (⟨S_, .i32⟩ : BufTy).Contents (Elt F)),
    StableHlo.unary main_call3_c main_call3_v0 (broadcastInDim S6400000 ![] bcast_S_S6400000 : (⟨S_, .i32⟩ : BufTy).Contents (Elt F) → (⟨S6400000, .i32⟩ : BufTy).Contents (Elt F)),
    StableHlo.binary main_v1 main_call3_v0 main_call3_v1 (cmpi .slt : (⟨S6400000, .i32⟩ : BufTy).Contents (Elt F) → (⟨S6400000, .i32⟩ : BufTy).Contents (Elt F) → (⟨S6400000, .i1⟩ : BufTy).Contents (Elt F)),
    StableHlo.nullary main_call3_c_0 (constantI S_ 32 100000#32 : (⟨S_, .i32⟩ : BufTy).Contents (Elt F)),
    StableHlo.unary main_call3_c_0 main_call3_v2 (broadcastInDim S6400000 ![] bcast_S_S6400000 : (⟨S_, .i32⟩ : BufTy).Contents (Elt F) → (⟨S6400000, .i32⟩ : BufTy).Contents (Elt F)),
    StableHlo.binary main_v1 main_call3_v2 main_call3_v3 (addi : (⟨S6400000, .i32⟩ : BufTy).Contents (Elt F) → (⟨S6400000, .i32⟩ : BufTy).Contents (Elt F) → (⟨S6400000, .i32⟩ : BufTy).Contents (Elt F)),
    StableHlo.ternary main_call3_v1 main_call3_v3 main_v1 main_call3_v4 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_call3_v4 main_call3_v5 (broadcastInDim S6400000x1 ![0] bcast_S6400000_S6400000x1_0 : (⟨S6400000, .i32⟩ : BufTy).Contents (Elt F) → (⟨S6400000x1, .i32⟩ : BufTy).Contents (Elt F)),
    StableHlo.nullary main_call3_c_1 (constantI S1 32 99999#32 : (⟨S1, .i32⟩ : BufTy).Contents (Elt F)),
    StableHlo.nullary main_call3_c_2 (constantI S_ 32 0#32 : (⟨S_, .i32⟩ : BufTy).Contents (Elt F)),
    StableHlo.unary main_call3_c_2 main_call3_v6 (broadcastInDim S6400000x1 ![] bcast_S_S6400000x1 : (⟨S_, .i32⟩ : BufTy).Contents (Elt F) → (⟨S6400000x1, .i32⟩ : BufTy).Contents (Elt F)),
    StableHlo.binary main_call3_v5 main_call3_v6 main_call3_v7 (cmpi .sge : (⟨S6400000x1, .i32⟩ : BufTy).Contents (Elt F) → (⟨S6400000x1, .i32⟩ : BufTy).Contents (Elt F) → (⟨S6400000x1, .i1⟩ : BufTy).Contents (Elt F)),
    StableHlo.unary main_call3_c_1 main_call3_v8 (broadcastInDim S1x1 ![1] bcast_S1_S1x1_1 : (⟨S1, .i32⟩ : BufTy).Contents (Elt F) → (⟨S1x1, .i32⟩ : BufTy).Contents (Elt F)),
    StableHlo.unary main_call3_v8 main_call3_v9 (broadcastInDim S6400000x1 ![0, 1] bcast_S1x1_S6400000x1_0_1 : (⟨S1x1, .i32⟩ : BufTy).Contents (Elt F) → (⟨S6400000x1, .i32⟩ : BufTy).Contents (Elt F)),
    StableHlo.binary main_call3_v5 main_call3_v9 main_call3_v10 (cmpi .sle : (⟨S6400000x1, .i32⟩ : BufTy).Contents (Elt F) → (⟨S6400000x1, .i32⟩ : BufTy).Contents (Elt F) → (⟨S6400000x1, .i1⟩ : BufTy).Contents (Elt F)),
    StableHlo.binary main_call3_v7 main_call3_v10 main_call3_v11 (andi : (⟨S6400000x1, .i1⟩ : BufTy).Contents (Elt F) → (⟨S6400000x1, .i1⟩ : BufTy).Contents (Elt F) → (⟨S6400000x1, .i1⟩ : BufTy).Contents (Elt F)),
    StableHlo.nullary main_call3_c_3 (constantI S_ 1 1#1 : (⟨S_, .i1⟩ : BufTy).Contents (Elt F)),
    StableHlo.binary main_call3_v11 main_call3_c_3 main_call3_v12 (fun x v => Host.reduce IntOp.andi x v reducesTo_S6400000x1_S6400000_d1 h_S_ : (⟨S6400000x1, .i1⟩ : BufTy).Contents (Elt F) → (⟨S_, .i1⟩ : BufTy).Contents (Elt F) → (⟨S6400000, .i1⟩ : BufTy).Contents (Elt F)),
    StableHlo.binary main_v25 main_call3_v5 main_call3_v13 (fun x i => Host.gather gather_S100000x20_S6400000x1_S6400000x20_1_0_n_n_0_1_120 x i : (⟨S100000x20, .f32⟩ : BufTy).Contents (Elt F) → (⟨S6400000x1, .i32⟩ : BufTy).Contents (Elt F) → (⟨S6400000x20, .f32⟩ : BufTy).Contents (Elt F)),
    StableHlo.unary main_call3_v12 main_call3_v14 (broadcastInDim S6400000x20 ![0] bcast_S6400000_S6400000x20_0 : (⟨S6400000, .i1⟩ : BufTy).Contents (Elt F) → (⟨S6400000x20, .i1⟩ : BufTy).Contents (Elt F)),
    StableHlo.nullary main_call3_cst (constant S_ .f32 0x7FC00000#32 : (⟨S_, .f32⟩ : BufTy).Contents (Elt F)),
    StableHlo.unary main_call3_cst main_call3_v15 (broadcastInDim S6400000x20 ![] bcast_S_S6400000x20 : (⟨S_, .f32⟩ : BufTy).Contents (Elt F) → (⟨S6400000x20, .f32⟩ : BufTy).Contents (Elt F)),
    StableHlo.ternary main_call3_v14 main_call3_v13 main_call3_v15 main_v26 (select : (⟨S6400000x20, .i1⟩ : BufTy).Contents (Elt F) → (⟨S6400000x20, .f32⟩ : BufTy).Contents (Elt F) → (⟨S6400000x20, .f32⟩ : BufTy).Contents (Elt F) → (⟨S6400000x20, .f32⟩ : BufTy).Contents (Elt F)) ]

attribute [local irreducible] Host.reduce Host.gather in
/-- The program's list is this list: the change of type around each operation is the identity. -/
theorem takeOps20_eq : (hostOps1_3 (F := F)) = takeOps20 := rfl

/-- The choice between the mean and 0 after the second layer, operation by operation. -/
def whereOps2 : List (HloOp τ sig (Elt F)) :=
  [ StableHlo.unary main_cst_10 main_call4_v0 (id : (⟨S_, .f32⟩ : BufTy).Contents (Elt F) → (⟨S_, .f32⟩ : BufTy).Contents (Elt F)),
    StableHlo.unary main_v41 main_call4_v1 (broadcastInDim S100000x20 ![0, 1] bcast_S100000x1_S100000x20_0_1 : (⟨S100000x1, .i1⟩ : BufTy).Contents (Elt F) → (⟨S100000x20, .i1⟩ : BufTy).Contents (Elt F)),
    StableHlo.unary main_call4_v0 main_call4_v2 (broadcastInDim S100000x20 ![] bcast_S_S100000x20 : (⟨S_, .f32⟩ : BufTy).Contents (Elt F) → (⟨S100000x20, .f32⟩ : BufTy).Contents (Elt F)),
    StableHlo.ternary main_call4_v1 main_v45 main_call4_v2 main_v46 (select : (⟨S100000x20, .i1⟩ : BufTy).Contents (Elt F) → (⟨S100000x20, .f32⟩ : BufTy).Contents (Elt F) → (⟨S100000x20, .f32⟩ : BufTy).Contents (Elt F) → (⟨S100000x20, .f32⟩ : BufTy).Contents (Elt F)) ]

attribute [local irreducible] Host.reduce Host.gather in
/-- The program's list is this list: the change of type around each operation is the identity. -/
theorem whereOps2_eq : (hostOps2_1 (F := F)) = whereOps2 := rfl

end Cert.KernelIdeal.KOps

end
-- ==== Proof.KHostA.lean ====
/-
  The host operations before the first edge-MLP call, read at the buffers the call reads: the node features taken at
  the edges' sources, the first layer's weights split by rows, its biases as rows; a buffer no operation writes is
  left as it was.
-/
import proofs.«423065_j89103391523366_2_alg».proof.Proof.Gen.KernelIdeal.Launch
import proofs.«423065_j89103391523366_2_alg».proof.Proof.Chain
import proofs.«423065_j89103391523366_2_alg».proof.Proof.KOps
import Idealize.ShloMosaic.Lib.StableHlo.Run

set_option maxRecDepth 16384

noncomputable section

namespace Cert.KernelIdeal.KHostA

open Cert.KernelIdeal Cert.KernelIdeal.Gen Cert.KernelIdeal.Chain Cert.KernelIdeal.KOps
open Idealize.ShloMosaic Idealize.ShloMosaic.TcCoe Idealize.SL.Sem Idealize.ShloMosaic.StableHlo

variable {F : FTy → Type} [FloatOps F]
variable (V : Valuation τ sig (Elt F))

/-- The stretch, from the contents `V`. -/
abbrev sA : Valuation τ sig (Elt F) := StableHlo.after (hostOps0_2 (F := F)) (StableHlo.after (hostOps0_1 (F := F)) (StableHlo.after (hostOps0 (F := F)) V))

/-- The sources of the edges. -/
theorem A_v1 : sA V (Proc.devRef .tc main_v1)
    = srcOf (V (Proc.devRef .tc main_arg1)) := by
  after_results_simp <;> rfl

/-- The targets of the edges. -/
theorem A_v3 : sA V (Proc.devRef .tc main_v3)
    = dstOf (V (Proc.devRef .tc main_arg1)) := by
  after_results_simp <;> rfl

/-- The node features at the sources, filled where out of range. -/
theorem A_v4 : sA V (Proc.devRef .tc main_v4)
    = take4 (V (Proc.devRef .tc main_arg0)) (srcOf (V (Proc.devRef .tc main_arg1))) := by
  show StableHlo.after (hostOps0_2 (F := F)) (StableHlo.after (hostOps0_1 (F := F)) (StableHlo.after (hostOps0 (F := F)) V)) _ = _
  rw [takeOps4_eq]
  unfold takeOps4
  after_results_simp
  unfold take4 inRange wrapCol srcOf
  rfl

/-- The first layer's rows that meet the node features. -/
theorem A_v5 : sA V (Proc.devRef .tc main_v5)
    = extractStridedSlice S4x20 ![0, 0] (V (Proc.devRef .tc main_arg3)) slices_S7x20_S4x20_0_0 := by
  after_results_simp <;> rfl

/-- The first layer's rows that meet the edge attributes. -/
theorem A_v6 : sA V (Proc.devRef .tc main_v6)
    = extractStridedSlice S3x20 ![4, 0] (V (Proc.devRef .tc main_arg3)) slices_S7x20_S3x20_4_0 := by
  after_results_simp <;> rfl

/-- The first layer's first bias as a row. -/
theorem A_v7 : sA V (Proc.devRef .tc main_v7)
    = shapeCast S1x20 (V (Proc.devRef .tc main_arg4)) shapeCasts_S20_S1x20 := by
  after_results_simp <;> rfl

/-- The first layer's second bias as a row. -/
theorem A_v8 : sA V (Proc.devRef .tc main_v8)
    = shapeCast S1x20 (V (Proc.devRef .tc main_arg6)) shapeCasts_S20_S1x20 := by
  after_results_simp <;> rfl

/-- Argument 0 is not written. -/
theorem A_arg0 : sA V (Proc.devRef .tc main_arg0)
    = V (Proc.devRef .tc main_arg0) := by
  after_results_simp

/-- Argument 1 is not written. -/
theorem A_arg1 : sA V (Proc.devRef .tc main_arg1)
    = V (Proc.devRef .tc main_arg1) := by
  after_results_simp

/-- Argument 2 is not written. -/
theorem A_arg2 : sA V (Proc.devRef .tc main_arg2)
    = V (Proc.devRef .tc main_arg2) := by
  after_results_simp

/-- Argument 3 is not written. -/
theorem A_arg3 : sA V (Proc.devRef .tc main_arg3)
    = V (Proc.devRef .tc main_arg3) := by
  after_results_simp

/-- Argument 4 is not written. -/
theorem A_arg4 : sA V (Proc.devRef .tc main_arg4)
    = V (Proc.devRef .tc main_arg4) := by
  after_results_simp

/-- Argument 5 is not written. -/
theorem A_arg5 : sA V (Proc.devRef .tc main_arg5)
    = V (Proc.devRef .tc main_arg5) := by
  after_results_simp

/-- Argument 6 is not written. -/
theorem A_arg6 : sA V (Proc.devRef .tc main_arg6)
    = V (Proc.devRef .tc main_arg6) := by
  after_results_simp

/-- Argument 7 is not written. -/
theorem A_arg7 : sA V (Proc.devRef .tc main_arg7)
    = V (Proc.devRef .tc main_arg7) := by
  after_results_simp

/-- Argument 8 is not written. -/
theorem A_arg8 : sA V (Proc.devRef .tc main_arg8)
    = V (Proc.devRef .tc main_arg8) := by
  after_results_simp

/-- Argument 9 is not written. -/
theorem A_arg9 : sA V (Proc.devRef .tc main_arg9)
    = V (Proc.devRef .tc main_arg9) := by
  after_results_simp

/-- Argument 10 is not written. -/
theorem A_arg10 : sA V (Proc.devRef .tc main_arg10)
    = V (Proc.devRef .tc main_arg10) := by
  after_results_simp

/-- Argument 11 is not written. -/
theorem A_arg11 : sA V (Proc.devRef .tc main_arg11)
    = V (Proc.devRef .tc main_arg11) := by
  after_results_simp

/-- Argument 12 is not written. -/
theorem A_arg12 : sA V (Proc.devRef .tc main_arg12)
    = V (Proc.devRef .tc main_arg12) := by
  after_results_simp

end Cert.KernelIdeal.KHostA

end
-- ==== Proof.KHostB.lean ====
/-
  The host operations between the two edge-MLP calls, read at the buffers the second call reads: the first layer's
  node features (the positive part of the mean of the messages arriving at each node) taken at the edges' sources, the
  second layer's weights split by rows, its biases as rows; a buffer no operation writes is left as it was.
-/
import proofs.«423065_j89103391523366_2_alg».proof.Proof.Gen.KernelIdeal.Launch
import proofs.«423065_j89103391523366_2_alg».proof.Proof.Chain
import proofs.«423065_j89103391523366_2_alg».proof.Proof.KOps
import Idealize.ShloMosaic.Lib.StableHlo.Run

set_option maxRecDepth 16384

noncomputable section

namespace Cert.KernelIdeal.KHostB

open Cert.KernelIdeal Cert.KernelIdeal.Gen Cert.KernelIdeal.Chain Cert.KernelIdeal.KOps
open Idealize.ShloMosaic Idealize.ShloMosaic.TcCoe Idealize.SL.Sem Idealize.ShloMosaic.StableHlo

variable {F : FTy → Type} [FloatOps F]
variable (V : Valuation τ sig (Elt F))

/-- The stretch, from the contents `V`. -/
abbrev sB : Valuation τ sig (Elt F) := StableHlo.after (hostOps1_4 (F := F)) (StableHlo.after (hostOps1_3 (F := F)) (StableHlo.after (hostOps1_2 (F := F)) (StableHlo.after (hostOps1_1 (F := F)) (StableHlo.after (hostOps1 (F := F)) V))))

/-- The first layer's node features at the sources, filled where out of range. -/
theorem B_v26 : sB V (Proc.devRef .tc main_v26)
    = take20 (reluOf (meanOf (V (Proc.devRef .tc main_v9)) (V (Proc.devRef .tc main_v3)))) (V (Proc.devRef .tc main_v1)) := by
  show StableHlo.after (hostOps1_4 (F := F)) (StableHlo.after (hostOps1_3 (F := F)) (StableHlo.after (hostOps1_2 (F := F)) (StableHlo.after (hostOps1_1 (F := F)) (StableHlo.after (hostOps1 (F := F)) V)))) _ = _
  rw [whereOps1_eq, reluOps_eq, takeOps20_eq]
  unfold whereOps1 reluOps takeOps20
  after_results_simp
  unfold take20 inRange wrapCol reluOf meanOf arrivals
  rfl

/-- The second layer's rows that meet the node features. -/
theorem B_v27 : sB V (Proc.devRef .tc main_v27)
    = extractStridedSlice S20x20 ![0, 0] (V (Proc.devRef .tc main_arg7)) slices_S23x20_S20x20_0_0 := by
  after_results_simp <;> rfl

/-- The second layer's rows that meet the edge attributes. -/
theorem B_v28 : sB V (Proc.devRef .tc main_v28)
    = extractStridedSlice S3x20 ![20, 0] (V (Proc.devRef .tc main_arg7)) slices_S23x20_S3x20_20_0 := by
  after_results_simp <;> rfl

/-- The second layer's first bias as a row. -/
theorem B_v29 : sB V (Proc.devRef .tc main_v29)
    = shapeCast S1x20 (V (Proc.devRef .tc main_arg8)) shapeCasts_S20_S1x20 := by
  after_results_simp <;> rfl

/-- The second layer's second bias as a row. -/
theorem B_v30 : sB V (Proc.devRef .tc main_v30)
    = shapeCast S1x20 (V (Proc.devRef .tc main_arg10)) shapeCasts_S20_S1x20 := by
  after_results_simp <;> rfl

/-- The targets of the edges are not written. -/
theorem B_v3 : sB V (Proc.devRef .tc main_v3)
    = V (Proc.devRef .tc main_v3) := by
  after_results_simp

/-- Argument 2 is not written. -/
theorem B_arg2 : sB V (Proc.devRef .tc main_arg2)
    = V (Proc.devRef .tc main_arg2) := by
  after_results_simp

/-- Argument 9 is not written. -/
theorem B_arg9 : sB V (Proc.devRef .tc main_arg9)
    = V (Proc.devRef .tc main_arg9) := by
  after_results_simp

/-- Argument 11 is not written. -/
theorem B_arg11 : sB V (Proc.devRef .tc main_arg11)
    = V (Proc.devRef .tc main_arg11) := by
  after_results_simp

/-- Argument 12 is not written. -/
theorem B_arg12 : sB V (Proc.devRef .tc main_arg12)
    = V (Proc.devRef .tc main_arg12) := by
  after_results_simp

end Cert.KernelIdeal.KHostB

end
-- ==== Proof.KHostC.lean ====
/-
  The host operations before the classifier call, read at the buffers the call reads: the second layer's node features
  (the mean of the messages arriving at each node) and the classifier's bias as a row; a buffer no operation writes is
  left as it was.
-/
import proofs.«423065_j89103391523366_2_alg».proof.Proof.Gen.KernelIdeal.Launch
import proofs.«423065_j89103391523366_2_alg».proof.Proof.Chain
import proofs.«423065_j89103391523366_2_alg».proof.Proof.KOps
import Idealize.ShloMosaic.Lib.StableHlo.Run

set_option maxRecDepth 16384

noncomputable section

namespace Cert.KernelIdeal.KHostC

open Cert.KernelIdeal Cert.KernelIdeal.Gen Cert.KernelIdeal.Chain Cert.KernelIdeal.KOps
open Idealize.ShloMosaic Idealize.ShloMosaic.TcCoe Idealize.SL.Sem Idealize.ShloMosaic.StableHlo

variable {F : FTy → Type} [FloatOps F]
variable (V : Valuation τ sig (Elt F))

/-- The stretch, from the contents `V`. -/
abbrev sC : Valuation τ sig (Elt F) := StableHlo.after (hostOps2_2 (F := F)) (StableHlo.after (hostOps2_1 (F := F)) (StableHlo.after (hostOps2 (F := F)) V))

/-- The second layer's node features. -/
theorem C_v46 : sC V (Proc.devRef .tc main_v46)
    = meanOf (V (Proc.devRef .tc main_v31)) (V (Proc.devRef .tc main_v3)) := by
  show StableHlo.after (hostOps2_2 (F := F)) (StableHlo.after (hostOps2_1 (F := F)) (StableHlo.after (hostOps2 (F := F)) V)) _ = _
  rw [whereOps2_eq]
  unfold whereOps2
  after_results_simp
  unfold meanOf arrivals
  rfl

/-- The classifier's bias as a row. -/
theorem C_v47 : sC V (Proc.devRef .tc main_v47)
    = shapeCast S1x3 (V (Proc.devRef .tc main_arg12)) shapeCasts_S3_S1x3 := by
  after_results_simp <;> rfl

/-- Argument 11 is not written. -/
theorem C_arg11 : sC V (Proc.devRef .tc main_arg11)
    = V (Proc.devRef .tc main_arg11) := by
  after_results_simp

end Cert.KernelIdeal.KHostC

end
-- ==== Proof.RefChain.lean ====
/-
  The reference's host operations between its dense layers are the same operations as the kernel program's: the
  reference gathers the rows of a table at the wrapped source indices, and takes the mean of the messages arriving at
  each node, and the positive part, by the very operations named in the module of the host chain. Each statement
  below unfolds the reference's stages down to the stage that feeds them and finds the same term.
-/
import proofs.«423065_j89103391523366_2_alg».proof.Proof.RefReadP
import proofs.«423065_j89103391523366_2_alg».proof.Proof.Chain
import proofs.«423065_j89103391523366_2_alg».proof.Proof.Gen.KernelIdeal

set_option maxRecDepth 16384

noncomputable section

namespace Cert.Mpnn.RefChain

open Cert.ReferenceIdeal.ReadP Cert.KernelIdeal.Chain Cert.KernelIdeal.Gen
open Idealize.ShloMosaic

variable {F : FTy → Type} [FloatOps F]

/-- The reference's first gather reads the node features at the wrapped source indices. -/
theorem gather4_eq (x0 : (⟨Cert.ReferenceIdeal.S100000x4, .f32⟩ : BufTy).Contents (Elt F)) (x1 : (⟨Cert.ReferenceIdeal.S2x6400000, .i32⟩ : BufTy).Contents (Elt F)) :
    val_main_v10 (F := F) x0 x1
      = Host.gather Cert.KernelIdeal.gather_S100000x4_S6400000x1_S6400000x4_1_0_n_n_0_1_14 x0 (wrapCol (F := F) (srcOf (F := F) x1)) := by
  unfold val_main_v10 val_main_v9 val_main_v8 val_main_v7 val_main_v6 val_main_c_0 val_main_v5 val_main_v4 val_main_c val_main_v1 val_main_v0
  unfold wrapCol srcOf
  rfl

/-- The reference's node features after the first layer: the positive part of the mean of the arriving messages. -/
theorem layer1_eq (x0 : (⟨Cert.ReferenceIdeal.S100000x4, .f32⟩ : BufTy).Contents (Elt F)) (x1 : (⟨Cert.ReferenceIdeal.S2x6400000, .i32⟩ : BufTy).Contents (Elt F)) (x2 : (⟨Cert.ReferenceIdeal.S6400000x3, .f32⟩ : BufTy).Contents (Elt F))
    (x3 : (⟨Cert.ReferenceIdeal.S7x20, .f32⟩ : BufTy).Contents (Elt F)) (x4 : (⟨Cert.ReferenceIdeal.S20, .f32⟩ : BufTy).Contents (Elt F)) (x5 : (⟨Cert.ReferenceIdeal.S20x20, .f32⟩ : BufTy).Contents (Elt F)) (x6 : (⟨Cert.ReferenceIdeal.S20, .f32⟩ : BufTy).Contents (Elt F)) :
    val_main_v36 (F := F) x0 x1 x2 x3 x4 x5 x6 = reluOf (F := F) (meanOf (F := F) (val_main_v20 (F := F) x0 x1 x2 x3 x4 x5 x6) (dstOf (F := F) x1)) := by
  unfold val_main_v36 val_main_call2_v0 val_main_call2_cst val_main_v35 val_main_call1_v2 val_main_call1_v1 val_main_call1_v0 val_main_cst_5
    val_main_v34 val_main_v33 val_main_v32 val_main_v31 val_main_cst_4 val_main_v30 val_main_v29 val_main_cst_3 val_main_v28 val_main_v27
    val_main_v26 val_main_v25 val_main_cst_2 val_main_v24 val_main_cst_1 val_main_v23 val_main_v22 val_main_v21 val_main_cst val_main_v3 val_main_v2
  unfold reluOf meanOf arrivals dstOf
  rfl

/-- The reference's second gather reads those node features at the wrapped source indices. -/
theorem gather20_eq (x0 : (⟨Cert.ReferenceIdeal.S100000x4, .f32⟩ : BufTy).Contents (Elt F)) (x1 : (⟨Cert.ReferenceIdeal.S2x6400000, .i32⟩ : BufTy).Contents (Elt F)) (x2 : (⟨Cert.ReferenceIdeal.S6400000x3, .f32⟩ : BufTy).Contents (Elt F))
    (x3 : (⟨Cert.ReferenceIdeal.S7x20, .f32⟩ : BufTy).Contents (Elt F)) (x4 : (⟨Cert.ReferenceIdeal.S20, .f32⟩ : BufTy).Contents (Elt F)) (x5 : (⟨Cert.ReferenceIdeal.S20x20, .f32⟩ : BufTy).Contents (Elt F)) (x6 : (⟨Cert.ReferenceIdeal.S20, .f32⟩ : BufTy).Contents (Elt F)) :
    val_main_v47 (F := F) x0 x1 x2 x3 x4 x5 x6
      = Host.gather Cert.KernelIdeal.gather_S100000x20_S6400000x1_S6400000x20_1_0_n_n_0_1_120 (val_main_v36 (F := F) x0 x1 x2 x3 x4 x5 x6) (wrapCol (F := F) (srcOf (F := F) x1)) := by
  unfold val_main_v47 val_main_v46 val_main_v45 val_main_v44 val_main_v43 val_main_c_7 val_main_v42 val_main_v41 val_main_c_6 val_main_v38 val_main_v37
  unfold wrapCol srcOf
  rfl

/-- The reference's node features after the second layer: the mean of the arriving messages. -/
theorem layer2_eq (x0 : (⟨Cert.ReferenceIdeal.S100000x4, .f32⟩ : BufTy).Contents (Elt F)) (x1 : (⟨Cert.ReferenceIdeal.S2x6400000, .i32⟩ : BufTy).Contents (Elt F)) (x2 : (⟨Cert.ReferenceIdeal.S6400000x3, .f32⟩ : BufTy).Contents (Elt F))
    (x3 : (⟨Cert.ReferenceIdeal.S7x20, .f32⟩ : BufTy).Contents (Elt F)) (x4 : (⟨Cert.ReferenceIdeal.S20, .f32⟩ : BufTy).Contents (Elt F)) (x5 : (⟨Cert.ReferenceIdeal.S20x20, .f32⟩ : BufTy).Contents (Elt F)) (x6 : (⟨Cert.ReferenceIdeal.S20, .f32⟩ : BufTy).Contents (Elt F))
    (x7 : (⟨Cert.ReferenceIdeal.S23x20, .f32⟩ : BufTy).Contents (Elt F)) (x8 : (⟨Cert.ReferenceIdeal.S20, .f32⟩ : BufTy).Contents (Elt F)) (x9 : (⟨Cert.ReferenceIdeal.S20x20, .f32⟩ : BufTy).Contents (Elt F)) (x10 : (⟨Cert.ReferenceIdeal.S20, .f32⟩ : BufTy).Contents (Elt F)) :
    val_main_v72 (F := F) x0 x1 x2 x3 x4 x5 x6 x7 x8 x9 x10 = meanOf (F := F) (val_main_v57 (F := F) x0 x1 x2 x3 x4 x5 x6 x7 x8 x9 x10) (dstOf (F := F) x1) := by
  unfold val_main_v72 val_main_call4_v2 val_main_call4_v1 val_main_call4_v0 val_main_cst_13
    val_main_v71 val_main_v70 val_main_v69 val_main_v68 val_main_cst_12 val_main_v67 val_main_v66 val_main_cst_11 val_main_v65 val_main_v64
    val_main_v63 val_main_v62 val_main_cst_10 val_main_v61 val_main_cst_9 val_main_v60 val_main_v59 val_main_v58 val_main_cst_8 val_main_v40 val_main_v39
  unfold meanOf arrivals dstOf
  rfl

end Cert.Mpnn.RefChain

end
-- ==== Proof.LibTakeFill.lean ====
/-
  A TAKE WITH OUT-OF-RANGE ENTRIES FILLED. `jnp.take(table, idx)` in its default mode first wraps a negative index the
  way NumPy does (`w = idx + N` where `idx < 0`, else `w = idx`, `N` the table's extent), then keeps the gathered entry
  where `0 ≤ w ≤ N - 1` and writes a fill value elsewhere. The in-range test is printed over the [n × 1] column of wrapped
  indices: the reduction by `and` along the second axis of `(col ≥ lo) & (col ≤ hi)`.

  * `wrap_in_range`: an index in `[-N, N)` wraps into `[0, N - 1]`;
  * `wrap_of_nonneg`: a non-negative index is left as it is;
  * `foldl_andi_of_all_one`: a left fold by `and` from 1 over `i1` words that are all 1 is 1;
  * `fill_mask_eq_one`: the printed in-range test is 1 at a row whose wrapped index lies between the bounds.

  Every statement holds at any number of rows `n` and any table extent below 2³⁰.
-/
import Idealize.ShloMosaic.Lib.ReduceAll
import Idealize.ShloMosaic.Lib.StableHlo.Predicate
import Idealize.ShloMosaic.Lib.ValueIdx

namespace Cert.Lib.TakeFill

open Idealize.ShloMosaic
open Idealize.ShloMosaic.StableHlo.Predicate (ixP)
open Idealize.ShloMosaic.ValueIdx (ix1)

/-- An integer in the signed 32-bit range is its own balanced remainder modulo 2³². -/
private theorem bmod_self {m : Int} (h₁ : -2 ^ 31 ≤ m) (h₂ : m < 2 ^ 31) : m.bmod (2 ^ 32) = m :=
  Int.bmod_eq_of_le (by omega) (by omega)

/-- The extent of a table below 2³⁰, as a 32-bit word, reads as itself. -/
private theorem toInt_extent (N : Nat) (hN : N < 2 ^ 31) : (BitVec.ofNat 32 N).toInt = (N : Int) := by
  rw [BitVec.toInt_ofNat']
  exact bmod_self (by omega) (by omega)

/-- THE WRAP LANDS IN RANGE. For a table of extent `N` (positive, below 2³⁰) an index `x` with `-N ≤ x < N`, wrapped
    the NumPy way (`x + N` where `x < 0`, else `x`), lies in `[0, N - 1]`: a negative `x` has `0 ≤ x + N ≤ N - 1` and the
    sum does not leave the word; a non-negative `x` is below `N` already. -/
theorem wrap_in_range (N : Nat) (hN : 0 < N) (hN' : N < 2 ^ 30) (x : BitVec 32) (hlo : -(N : Int) ≤ x.toInt)
    (hhi : x.toInt < (N : Int)) :
    0 ≤ (Scalar.select (IntOp.cmpi .slt x 0#32) (IntOp.addi x (BitVec.ofNat 32 N)) x).toInt ∧
      (Scalar.select (IntOp.cmpi .slt x 0#32) (IntOp.addi x (BitVec.ofNat 32 N)) x).toInt ≤ (N : Int) - 1 := by
  have h0 : (0#32).toInt = 0 := rfl
  by_cases h : x.toInt < 0
  · have hc : IntOp.cmpi .slt x 0#32 = (1 : BitVec 1) := IntOp.cmpi_slt.2 (by rw [h0]; exact h)
    have hn : (BitVec.ofNat 32 N).toInt = (N : Int) := toInt_extent N (by omega)
    have hs : (IntOp.addi x (BitVec.ofNat 32 N)).toInt = x.toInt + (N : Int) := by
      rw [IntOp.addi, BitVec.toInt_add, hn]
      exact bmod_self (by omega) (by omega)
    rw [Scalar.select, if_pos hc, hs]
    omega
  · have hc : ¬ IntOp.cmpi .slt x 0#32 = (1 : BitVec 1) := fun e => h (by have := IntOp.cmpi_slt.1 e; rwa [h0] at this)
    rw [Scalar.select, if_neg hc]
    omega

/-- A NON-NEGATIVE INDEX IS NOT WRAPPED: the comparison `x < 0` fails, so the selection keeps `x`. -/
theorem wrap_of_nonneg (N : Nat) (x : BitVec 32) (h : 0 ≤ x.toInt) :
    Scalar.select (IntOp.cmpi .slt x 0#32) (IntOp.addi x (BitVec.ofNat 32 N)) x = x := by
  have h0 : (0#32).toInt = 0 := rfl
  have hc : ¬ IntOp.cmpi .slt x 0#32 = (1 : BitVec 1) := fun e => by
    have := IntOp.cmpi_slt.1 e
    rw [h0] at this
    omega
  rw [Scalar.select, if_neg hc]

/-- A left fold by `and` from 1 over `i1` words that are all 1 is 1 (the converse of reading such a fold back). -/
theorem foldl_andi_of_all_one {ι : Type} (f : ι → BitVec 1) :
    ∀ l : List ι, (∀ i ∈ l, f i = 1#1) → l.foldl (fun r i => IntOp.andi r (f i)) 1#1 = 1#1
  | [], _ => rfl
  | a :: l, h => by
    have ha : IntOp.andi 1#1 (f a) = 1#1 := IntOp.andi_eq_one.2 ⟨rfl, h a List.mem_cons_self⟩
    rw [List.foldl_cons, ha]
    exact foldl_andi_of_all_one f l fun i hi => h i (List.mem_cons_of_mem _ hi)

/-- THE IN-RANGE TEST AT A ROW. The reduction by `and` along the second axis of `(col ≥ lo) & (col ≤ hi)` over an
    [n × 1] column, from an initial value whose element is 1, is 1 at row `p` as soon as the column's entry of that row
    lies between the two bounds' entries there: the only index of the column that reduces into row `p` is (`p`, 0), and
    both comparisons hold at it. -/
theorem fill_mask_eq_one {n : Nat} {u : Shape} (hred : (⟨2, ![n, 1]⟩ : Shape).ReducesTo [1] ⟨1, ![n]⟩)
    (hu : 0 < u.numel) (init : u.Idx → BitVec 1) (hinit : init (Shape.Idx.first hu) = 1#1)
    (col lo hi : IVec ⟨2, ![n, 1]⟩ 32) (p : Fin n)
    (hx : (lo (ixP p)).toInt ≤ (col (ixP p)).toInt ∧ (col (ixP p)).toInt ≤ (hi (ixP p)).toInt) :
    Host.reduce IntOp.andi (andi (cmpi .sge col lo) (cmpi .sle col hi)) init hred hu (ix1 p) = 1#1 := by
  rw [Host.reduce_eq_foldl, hinit]
  refine foldl_andi_of_all_one _ _ fun i hmem => ?_
  -- an index that reduces into row p is (p, 0)
  have hd : hred.drop i = ix1 p := of_decide_eq_true (List.mem_filter.1 hmem).2
  have hv : (hred.drop i 0 : Nat) = i 0 := Shape.ReducesTo.drop_apply_val hred i 0
  have hr : (i 0 : Nat) = p := by rw [← hv, hd]; rfl
  have hip : i = ixP p := by
    funext b
    match b with
    | ⟨0, _⟩ => exact Fin.ext hr
    | ⟨1, _⟩ => exact Subsingleton.elim (α := Fin 1) _ _
  subst hip
  exact IntOp.andi_eq_one.2 ⟨IntOp.cmpi_sge.2 hx.1, IntOp.cmpi_sle.2 hx.2⟩

end Cert.Lib.TakeFill
-- ==== Proof.TakeGather.lean ====
/-
  Within the index range a filled take is a plain gather. When every index lies in [-100000, 100000) its NumPy wrap
  lies in [0, 99999], so the in-range bit of every row is 1 and the fill value is never chosen: the take of a table of
  100000 rows is the gather of the rows at the wrapped indices.
-/
import proofs.«423065_j89103391523366_2_alg».proof.Proof.Chain
import proofs.«423065_j89103391523366_2_alg».proof.Proof.LibTakeFill
import Idealize.ShloMosaic.Lib.Pipeline.Value
import Idealize.ShloMosaic.Lib.ValueIdx

noncomputable section

namespace Cert.KernelIdeal.TakeGather

open Cert.KernelIdeal Cert.KernelIdeal.Chain
open Idealize.ShloMosaic Idealize.ShloMosaic.ValueIdx
open Idealize.ShloMosaic.StableHlo.Predicate (ixP)

variable [Cert.KernelIdeal.Facts₀]
open Cert.KernelIdeal.Facts₀
variable {F : FTy → Type} [FloatOps F]

/-- The wrapped index of row `e`, read at (`e`, 0): `idx e + 100000` where `idx e < 0`, else `idx e`. The column is the
    vector laid along the first axis, and the comparison, the sum and the selection act entry by entry on the index and
    the two broadcast constants. -/
theorem wrapCol_apply (idx : (⟨S6400000, .i32⟩ : BufTy).Contents (Elt F)) (e : Fin 6400000) :
    wrapCol (F := F) idx (ixP e) =
      Scalar.select (IntOp.cmpi .slt (idx (ix1 e)) 0#32) (IntOp.addi (idx (ix1 e)) (BitVec.ofNat 32 100000)) (idx (ix1 e)) := by
  unfold wrapCol
  refine (broadcastInDim_apply _ _ _ (ixP e) (ix1 e) ?_).trans ?_
  · intro a
    match a with
    | ⟨0, _⟩ => rfl
  · rfl

/-- Every row's in-range bit is 1 when every index lies in [-100000, 100000). -/
theorem inRange_eq_one (idx : (⟨S6400000, .i32⟩ : BufTy).Contents (Elt F))
    (hidx : ∀ e : Fin 6400000, (-100000 : Int) ≤ (idx (ix1 e)).toInt ∧ (idx (ix1 e)).toInt < (100000 : Int))
    (e : Fin 6400000) : inRange (F := F) idx (ix1 e) = 1#1 := by
  unfold inRange
  -- the reduction along the second axis of an [n × 1] column reads, at row e, the one entry (e, 0)
  refine Cert.Lib.TakeFill.fill_mask_eq_one reducesTo_S6400000x1_S6400000_d1 h_S_ (constantI S_ 1 1#1) rfl
    (wrapCol (F := F) idx) _ _ e ?_
  -- the wrapped index lies in [0, 99999]
  have hw := Cert.Lib.TakeFill.wrap_in_range 100000 (by decide) (by decide) (idx (ix1 e))
    (by have := (hidx e).1; omega) (by have := (hidx e).2; omega)
  -- the two bounds are the constants 0 and 99999 at every entry
  have hlo : (broadcastInDim S6400000x1 ![] bcast_S_S6400000x1 (constantI S_ 32 0#32) (ixP e)).toInt = 0 := rfl
  have hhi : (broadcastInDim S6400000x1 ![0, 1] bcast_S1x1_S6400000x1_0_1
      (broadcastInDim S1x1 ![1] bcast_S1_S1x1_1 (constantI S1 32 99999#32)) (ixP e)).toInt = 99999 := rfl
  rw [hlo, hhi, wrapCol_apply]
  omega

/-- A filled take of a 4-column table at indices in [-100000, 100000) is the gather at the wrapped indices. -/
theorem take4_eq (x : (⟨S100000x4, .f32⟩ : BufTy).Contents (Elt F)) (idx : (⟨S6400000, .i32⟩ : BufTy).Contents (Elt F))
    (hidx : ∀ e : Fin 6400000, (-100000 : Int) ≤ (idx (ix1 e)).toInt ∧ (idx (ix1 e)).toInt < (100000 : Int)) :
    take4 x idx = Host.gather gather_S100000x4_S6400000x1_S6400000x4_1_0_n_n_0_1_14 x (wrapCol (F := F) idx) := by
  funext i
  unfold take4
  rw [select_apply]
  -- the mask at (r, c) is the in-range bit of row r, which is 1: the selection keeps the gathered entry
  have hm : broadcastInDim S6400000x4 ![0] bcast_S6400000_S6400000x4_0 (inRange (F := F) idx) i
      = inRange (F := F) idx (ix1 (i 0)) :=
    broadcastInDim_apply _ _ _ i (ix1 (i 0)) (fun a => match a with | ⟨0, _⟩ => rfl)
  rw [hm, inRange_eq_one idx hidx (i 0), Scalar.select]
  exact if_pos rfl

/-- A filled take of a 20-column table at indices in [-100000, 100000) is the gather at the wrapped indices. -/
theorem take20_eq (h : (⟨S100000x20, .f32⟩ : BufTy).Contents (Elt F)) (idx : (⟨S6400000, .i32⟩ : BufTy).Contents (Elt F))
    (hidx : ∀ e : Fin 6400000, (-100000 : Int) ≤ (idx (ix1 e)).toInt ∧ (idx (ix1 e)).toInt < (100000 : Int)) :
    take20 h idx = Host.gather gather_S100000x20_S6400000x1_S6400000x20_1_0_n_n_0_1_120 h (wrapCol (F := F) idx) := by
  funext i
  unfold take20
  rw [select_apply]
  -- the mask at (r, c) is the in-range bit of row r, which is 1: the selection keeps the gathered entry
  have hm : broadcastInDim S6400000x20 ![0] bcast_S6400000_S6400000x20_0 (inRange (F := F) idx) i
      = inRange (F := F) idx (ix1 (i 0)) :=
    broadcastInDim_apply _ _ _ i (ix1 (i 0)) (fun a => match a with | ⟨0, _⟩ => rfl)
  rw [hm, inRange_eq_one idx hidx (i 0), Scalar.select]
  exact if_pos rfl

end Cert.KernelIdeal.TakeGather

end
-- ==== Proof.KArgs.lean ====
/-
  The small host operations that prepare the weights, read at an entry: the rows of a weight matrix sliced out (the
  first linear layer's rows that meet the source features, and the rows that meet the edge attributes), and a bias
  vector reshaped into a one-row matrix.
-/
import proofs.«423065_j89103391523366_2_alg».proof.KernelIdeal
import Idealize.ShloMosaic.Lib.Pipeline.Value
import Idealize.ShloMosaic.Lib.ValueIdx

noncomputable section

namespace Cert.KernelIdeal.KArgs

open Cert.KernelIdeal
open Idealize.ShloMosaic Idealize.ShloMosaic.ValueIdx

/-- Rows 0 to 3 of a 7 × 20 matrix, sliced out: entry (j, k) is the matrix at (j, k). -/
theorem topRows4 {α : Type} (x : S7x20.Idx → α) (hs : S7x20.Slices ![0, 0] S4x20) (j : Fin 4) (k : Fin 20) :
    extractStridedSlice S4x20 ![0, 0] x hs (ix2 j k) = x (ix2 ⟨j.val, by have := j.isLt; omega⟩ k) := by
  refine extractStridedSlice_apply _ x hs _ _ fun a => ?_
  match a with
  | ⟨0, _⟩ => show j.val = 0 + j.val; omega
  | ⟨1, _⟩ => show k.val = 0 + k.val; omega

/-- Rows 4 to 6 of a 7 × 20 matrix, sliced out: entry (j, k) is the matrix at (j + 4, k). -/
theorem botRows3of7 {α : Type} (x : S7x20.Idx → α) (hs : S7x20.Slices ![4, 0] S3x20) (j : Fin 3) (k : Fin 20) :
    extractStridedSlice S3x20 ![4, 0] x hs (ix2 j k) = x (ix2 ⟨j.val + 4, by have := j.isLt; omega⟩ k) := by
  refine extractStridedSlice_apply _ x hs _ _ fun a => ?_
  match a with
  | ⟨0, _⟩ => show j.val + 4 = 4 + j.val; omega
  | ⟨1, _⟩ => show k.val = 0 + k.val; omega

/-- Rows 0 to 19 of a 23 × 20 matrix, sliced out: entry (j, k) is the matrix at (j, k). -/
theorem topRows20 {α : Type} (x : S23x20.Idx → α) (hs : S23x20.Slices ![0, 0] S20x20) (j : Fin 20) (k : Fin 20) :
    extractStridedSlice S20x20 ![0, 0] x hs (ix2 j k) = x (ix2 ⟨j.val, by have := j.isLt; omega⟩ k) := by
  refine extractStridedSlice_apply _ x hs _ _ fun a => ?_
  match a with
  | ⟨0, _⟩ => show j.val = 0 + j.val; omega
  | ⟨1, _⟩ => show k.val = 0 + k.val; omega

/-- Rows 20 to 22 of a 23 × 20 matrix, sliced out: entry (j, k) is the matrix at (j + 20, k). -/
theorem botRows3of23 {α : Type} (x : S23x20.Idx → α) (hs : S23x20.Slices ![20, 0] S3x20) (j : Fin 3) (k : Fin 20) :
    extractStridedSlice S3x20 ![20, 0] x hs (ix2 j k) = x (ix2 ⟨j.val + 20, by have := j.isLt; omega⟩ k) := by
  refine extractStridedSlice_apply _ x hs _ _ fun a => ?_
  match a with
  | ⟨0, _⟩ => show j.val + 20 = 20 + j.val; omega
  | ⟨1, _⟩ => show k.val = 0 + k.val; omega

/-- A vector of 20 entries reshaped into a 1 × 20 matrix: entry (0, k) is the vector's entry k. -/
theorem rowOfVec20 {α : Type} (x : S20.Idx → α) (hc : S20.ShapeCasts S1x20) (k : Fin 20) :
    shapeCast S1x20 x hc (ix2 (0 : Fin 1) k) = x (ix1 k) := by
  refine shapeCast_apply x hc (ix2 (0 : Fin 1) k) (ix1 k) ?_
  rw [Shape.rowMajor_val_two, Shape.rowMajor_val_one]
  show k.val = (0 : Nat) * 20 + k.val
  omega

/-- A vector of 3 entries reshaped into a 1 × 3 matrix: entry (0, f) is the vector's entry f. -/
theorem rowOfVec3 {α : Type} (x : S3.Idx → α) (hc : S3.ShapeCasts S1x3) (f : Fin 3) :
    shapeCast S1x3 x hc (ix2 (0 : Fin 1) f) = x (ix1 f) := by
  refine shapeCast_apply x hc (ix2 (0 : Fin 1) f) (ix1 f) ?_
  rw [Shape.rowMajor_val_two, Shape.rowMajor_val_one]
  show f.val = (0 : Nat) * 3 + f.val
  omega

end Cert.KernelIdeal.KArgs

end
-- ==== Proof.Spec.lean ====
/-
  The message-passing network's two dense pieces, entry by entry, on the extended reals.

  * An edge's message: with `h` the gathered source features of the edges (one row per edge), `ea` the edge attributes, the
    first linear layer split by rows into `Wh` (the rows that meet `h`) and `We` (the rows that meet `ea`), `ba`, `bb` the
    biases as one-row matrices and `Wb` the second layer,
        hidden e k = max (Σ_j h[e,j]·Wh[j,k] + Σ_j ea[e,j]·We[j,k] + ba[0,k]) 0,
        message e f = Σ_k hidden e k · Wb[k,f] + bb[0,f].
    Stated twice, for 4 and for 20 source features.
  * A node's class scores: 1 / (1 + exp (−(Σ_k h[n,k]·Wc[k,f] + bc[0,f]))).
-/
import Idealize.ShloMosaic.PureOps.Ideal
import Idealize.ShloMosaic.Lib.ValueIdx

noncomputable section

namespace Cert.Mpnn

open Idealize.ShloMosaic Idealize.ShloMosaic.ValueIdx

/-- A real matrix of `r` rows and `c` columns, on the extended reals. -/
abbrev Mat (r c : Nat) : Type := ((⟨⟨2, ![r, c]⟩, .f32⟩ : BufTy).Contents (Elt Ideal))

/-- Hidden unit `k` of edge `e`, from 4 source features and 3 edge attributes. -/
def hidden4 (h : Mat 6400000 4) (ea : Mat 6400000 3) (Wh : Mat 4 20) (We : Mat 3 20) (ba : Mat 1 20)
    (e : Fin 6400000) (k : Fin 20) : EReal :=
  max ((∑ j : Fin 4, h (ix2 e j) * Wh (ix2 j k)) + (∑ j : Fin 3, ea (ix2 e j) * We (ix2 j k)) + ba (ix2 0 k)) 0

/-- The messages of the first layer: entry (`e`, `f`). -/
def mlp4 (h : Mat 6400000 4) (ea : Mat 6400000 3) (Wh : Mat 4 20) (We : Mat 3 20) (ba : Mat 1 20) (Wb : Mat 20 20)
    (bb : Mat 1 20) : Mat 6400000 20 := fun i =>
  (∑ k : Fin 20, hidden4 h ea Wh We ba (i 0) k * Wb (ix2 k (i 1))) + bb (ix2 0 (i 1))

/-- Hidden unit `k` of edge `e`, from 20 source features and 3 edge attributes. -/
def hidden20 (h : Mat 6400000 20) (ea : Mat 6400000 3) (Wh : Mat 20 20) (We : Mat 3 20) (ba : Mat 1 20)
    (e : Fin 6400000) (k : Fin 20) : EReal :=
  max ((∑ j : Fin 20, h (ix2 e j) * Wh (ix2 j k)) + (∑ j : Fin 3, ea (ix2 e j) * We (ix2 j k)) + ba (ix2 0 k)) 0

/-- The messages of the second layer: entry (`e`, `f`). -/
def mlp20 (h : Mat 6400000 20) (ea : Mat 6400000 3) (Wh : Mat 20 20) (We : Mat 3 20) (ba : Mat 1 20) (Wb : Mat 20 20)
    (bb : Mat 1 20) : Mat 6400000 20 := fun i =>
  (∑ k : Fin 20, hidden20 h ea Wh We ba (i 0) k * Wb (ix2 k (i 1))) + bb (ix2 0 (i 1))

/-- The class scores: entry (`n`, `f`), the logistic function of the node's linear score. -/
def scores (h : Mat 100000 20) (Wc : Mat 20 3) (bc : Mat 1 3) : Mat 100000 3 := fun i =>
  Ideal.div 1 (1 + Ideal.exp (-((∑ k : Fin 20, h (ix2 (i 0) k) * Wc (ix2 k (i 1))) + bc (ix2 0 (i 1)))))

end Cert.Mpnn

end
-- ==== Proof.R0Value.lean ====
/-
  The first edge-MLP call, as a value: what its output array holds when the call returns.
-/
import proofs.«423065_j89103391523366_2_alg».proof.Proof.Gen.KernelIdeal.Frame
import proofs.«423065_j89103391523366_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0Value

open Cert.KernelIdeal Cert.KernelIdeal.Gen Cert.Mpnn
open Idealize.ShloMosaic Idealize.ShloMosaic.TcCoe Idealize.SL.Sem Idealize.ShloMosaic.ValueIdx
open Idealize.ShloMosaic.Pipeline (Dat Cfg Window)

/-- The zero offset of a whole-block access, as the constant function. -/
theorem hz : (![0, 0] : Fin 2 → Nat) = fun _ => 0 := funext fun a => by fin_cases a <;> rfl

/-! ## The three products of the body, entry by entry -/

/-! ### Source features times the first layer's source rows -/

theorem lhs_src_0 (i : S6400x20.Idx) (q : dot_S6400x4_S4x20_S6400x20_1_0_0_1_n_n.contr.Idx) :
    (dot_S6400x4_S4x20_S6400x20_1_0_0_1_n_n.lhsIdx i q 0).val = (i 0).val := by
  unfold DotDims.lhsIdx
  rw [dif_neg (show ¬(0 : Fin S6400x4.rank) ∈ dot_S6400x4_S4x20_S6400x20_1_0_0_1_n_n.lhsBatch by decide), dif_pos (show (0 : Fin S6400x4.rank) ∈ dot_S6400x4_S4x20_S6400x20_1_0_0_1_n_n.lhsNonContracting by decide)]
  rfl
theorem lhs_src_1 (i : S6400x20.Idx) (q : dot_S6400x4_S4x20_S6400x20_1_0_0_1_n_n.contr.Idx) :
    (dot_S6400x4_S4x20_S6400x20_1_0_0_1_n_n.lhsIdx i q 1).val = (q ⟨0, by decide⟩).val :=
  dot_S6400x4_S4x20_S6400x20_1_0_0_1_n_n.lhsIdx_val_of_single rfl i q
theorem rhs_src_0 (i : S6400x20.Idx) (q : dot_S6400x4_S4x20_S6400x20_1_0_0_1_n_n.contr.Idx) :
    (dot_S6400x4_S4x20_S6400x20_1_0_0_1_n_n.rhsIdx i q 0).val = (q ⟨0, by decide⟩).val :=
  dot_S6400x4_S4x20_S6400x20_1_0_0_1_n_n.rhsIdx_val_of_single rfl i q
theorem rhs_src_1 (i : S6400x20.Idx) (q : dot_S6400x4_S4x20_S6400x20_1_0_0_1_n_n.contr.Idx) :
    (dot_S6400x4_S4x20_S6400x20_1_0_0_1_n_n.rhsIdx i q 1).val = (i 1).val := by
  unfold DotDims.rhsIdx
  rw [dif_neg (show ¬(1 : Fin S4x20.rank) ∈ dot_S6400x4_S4x20_S6400x20_1_0_0_1_n_n.rhsBatch by decide), dif_pos (show (1 : Fin S4x20.rank) ∈ dot_S6400x4_S4x20_S6400x20_1_0_0_1_n_n.rhsNonContracting by decide)]
  rfl

/-- Entry (`p`, `q`) of the product into the zero accumulator: the sum over the 4 contracted coordinates of row
    `p` of the left factor times column `q` of the right. -/
theorem matmul_src_apply (x : FVec Ideal S6400x4 .bf16) (w : FVec Ideal S4x20 .bf16) (p : Fin 6400) (q : Fin 20) :
    matmul dot_S6400x4_S4x20_S6400x20_1_0_0_1_n_n none x w (constant (F := Ideal) S6400x20 .f32 0x00000000#32) (ix2 p q)
      = ∑ j : Fin 4, x (ix2 p j) * w (ix2 j q) := by
  refine (Ideal.matmul_constant_zero_apply dot_S6400x4_S4x20_S6400x20_1_0_0_1_n_n none x w (ix2 p q)).trans ?_
  rw [← Equiv.sum_comp (ValueIdx.contrEquiv1 dot_S6400x4_S4x20_S6400x20_1_0_0_1_n_n 4 rfl rfl).symm]
  refine Finset.sum_congr rfl fun k _ => ?_
  have hk := ValueIdx.contrEquiv1_symm_val dot_S6400x4_S4x20_S6400x20_1_0_0_1_n_n 4 rfl rfl k
  have el : dot_S6400x4_S4x20_S6400x20_1_0_0_1_n_n.lhsIdx (ix2 p q) ((ValueIdx.contrEquiv1 dot_S6400x4_S4x20_S6400x20_1_0_0_1_n_n 4 rfl rfl).symm k) = ix2 p k := funext fun a => Fin.ext (by
    match a with
    | ⟨0, _⟩ => exact lhs_src_0 _ _
    | ⟨1, _⟩ => exact (lhs_src_1 _ _).trans hk)
  have er : dot_S6400x4_S4x20_S6400x20_1_0_0_1_n_n.rhsIdx (ix2 p q) ((ValueIdx.contrEquiv1 dot_S6400x4_S4x20_S6400x20_1_0_0_1_n_n 4 rfl rfl).symm k) = ix2 k q := funext fun a => Fin.ext (by
    match a with
    | ⟨0, _⟩ => exact (rhs_src_0 _ _).trans hk
    | ⟨1, _⟩ => exact rhs_src_1 _ _)
  rw [el, er]

/-! ### Edge attributes times the first layer's attribute rows -/

theorem lhs_attr_0 (i : S6400x20.Idx) (q : dot_S6400x3_S3x20_S6400x20_1_0_0_1_n_n.contr.Idx) :
    (dot_S6400x3_S3x20_S6400x20_1_0_0_1_n_n.lhsIdx i q 0).val = (i 0).val := by
  unfold DotDims.lhsIdx
  rw [dif_neg (show ¬(0 : Fin S6400x3.rank) ∈ dot_S6400x3_S3x20_S6400x20_1_0_0_1_n_n.lhsBatch by decide), dif_pos (show (0 : Fin S6400x3.rank) ∈ dot_S6400x3_S3x20_S6400x20_1_0_0_1_n_n.lhsNonContracting by decide)]
  rfl
theorem lhs_attr_1 (i : S6400x20.Idx) (q : dot_S6400x3_S3x20_S6400x20_1_0_0_1_n_n.contr.Idx) :
    (dot_S6400x3_S3x20_S6400x20_1_0_0_1_n_n.lhsIdx i q 1).val = (q ⟨0, by decide⟩).val :=
  dot_S6400x3_S3x20_S6400x20_1_0_0_1_n_n.lhsIdx_val_of_single rfl i q
theorem rhs_attr_0 (i : S6400x20.Idx) (q : dot_S6400x3_S3x20_S6400x20_1_0_0_1_n_n.contr.Idx) :
    (dot_S6400x3_S3x20_S6400x20_1_0_0_1_n_n.rhsIdx i q 0).val = (q ⟨0, by decide⟩).val :=
  dot_S6400x3_S3x20_S6400x20_1_0_0_1_n_n.rhsIdx_val_of_single rfl i q
theorem rhs_attr_1 (i : S6400x20.Idx) (q : dot_S6400x3_S3x20_S6400x20_1_0_0_1_n_n.contr.Idx) :
    (dot_S6400x3_S3x20_S6400x20_1_0_0_1_n_n.rhsIdx i q 1).val = (i 1).val := by
  unfold DotDims.rhsIdx
  rw [dif_neg (show ¬(1 : Fin S3x20.rank) ∈ dot_S6400x3_S3x20_S6400x20_1_0_0_1_n_n.rhsBatch by decide), dif_pos (show (1 : Fin S3x20.rank) ∈ dot_S6400x3_S3x20_S6400x20_1_0_0_1_n_n.rhsNonContracting by decide)]
  rfl

/-- Entry (`p`, `q`) of the product into the zero accumulator: the sum over the 3 contracted coordinates of row
    `p` of the left factor times column `q` of the right. -/
theorem matmul_attr_apply (x : FVec Ideal S6400x3 .bf16) (w : FVec Ideal S3x20 .bf16) (p : Fin 6400) (q : Fin 20) :
    matmul dot_S6400x3_S3x20_S6400x20_1_0_0_1_n_n none x w (constant (F := Ideal) S6400x20 .f32 0x00000000#32) (ix2 p q)
      = ∑ j : Fin 3, x (ix2 p j) * w (ix2 j q) := by
  refine (Ideal.matmul_constant_zero_apply dot_S6400x3_S3x20_S6400x20_1_0_0_1_n_n none x w (ix2 p q)).trans ?_
  rw [← Equiv.sum_comp (ValueIdx.contrEquiv1 dot_S6400x3_S3x20_S6400x20_1_0_0_1_n_n 3 rfl rfl).symm]
  refine Finset.sum_congr rfl fun k _ => ?_
  have hk := ValueIdx.contrEquiv1_symm_val dot_S6400x3_S3x20_S6400x20_1_0_0_1_n_n 3 rfl rfl k
  have el : dot_S6400x3_S3x20_S6400x20_1_0_0_1_n_n.lhsIdx (ix2 p q) ((ValueIdx.contrEquiv1 dot_S6400x3_S3x20_S6400x20_1_0_0_1_n_n 3 rfl rfl).symm k) = ix2 p k := funext fun a => Fin.ext (by
    match a with
    | ⟨0, _⟩ => exact lhs_attr_0 _ _
    | ⟨1, _⟩ => exact (lhs_attr_1 _ _).trans hk)
  have er : dot_S6400x3_S3x20_S6400x20_1_0_0_1_n_n.rhsIdx (ix2 p q) ((ValueIdx.contrEquiv1 dot_S6400x3_S3x20_S6400x20_1_0_0_1_n_n 3 rfl rfl).symm k) = ix2 k q := funext fun a => Fin.ext (by
    match a with
    | ⟨0, _⟩ => exact (rhs_attr_0 _ _).trans hk
    | ⟨1, _⟩ => exact rhs_attr_1 _ _)
  rw [el, er]

/-! ### Hidden units times the second layer -/

theorem lhs_hid_0 (i : S6400x20.Idx) (q : dot_S6400x20_S20x20_S6400x20_1_0_0_1_n_n.contr.Idx) :
    (dot_S6400x20_S20x20_S6400x20_1_0_0_1_n_n.lhsIdx i q 0).val = (i 0).val := by
  unfold DotDims.lhsIdx
  rw [dif_neg (show ¬(0 : Fin S6400x20.rank) ∈ dot_S6400x20_S20x20_S6400x20_1_0_0_1_n_n.lhsBatch by decide), dif_pos (show (0 : Fin S6400x20.rank) ∈ dot_S6400x20_S20x20_S6400x20_1_0_0_1_n_n.lhsNonContracting by decide)]
  rfl
theorem lhs_hid_1 (i : S6400x20.Idx) (q : dot_S6400x20_S20x20_S6400x20_1_0_0_1_n_n.contr.Idx) :
    (dot_S6400x20_S20x20_S6400x20_1_0_0_1_n_n.lhsIdx i q 1).val = (q ⟨0, by decide⟩).val :=
  dot_S6400x20_S20x20_S6400x20_1_0_0_1_n_n.lhsIdx_val_of_single rfl i q
theorem rhs_hid_0 (i : S6400x20.Idx) (q : dot_S6400x20_S20x20_S6400x20_1_0_0_1_n_n.contr.Idx) :
    (dot_S6400x20_S20x20_S6400x20_1_0_0_1_n_n.rhsIdx i q 0).val = (q ⟨0, by decide⟩).val :=
  dot_S6400x20_S20x20_S6400x20_1_0_0_1_n_n.rhsIdx_val_of_single rfl i q
theorem rhs_hid_1 (i : S6400x20.Idx) (q : dot_S6400x20_S20x20_S6400x20_1_0_0_1_n_n.contr.Idx) :
    (dot_S6400x20_S20x20_S6400x20_1_0_0_1_n_n.rhsIdx i q 1).val = (i 1).val := by
  unfold DotDims.rhsIdx
  rw [dif_neg (show ¬(1 : Fin S20x20.rank) ∈ dot_S6400x20_S20x20_S6400x20_1_0_0_1_n_n.rhsBatch by decide), dif_pos (show (1 : Fin S20x20.rank) ∈ dot_S6400x20_S20x20_S6400x20_1_0_0_1_n_n.rhsNonContracting by decide)]
  rfl

/-- Entry (`p`, `q`) of the product into the zero accumulator: the sum over the 20 contracted coordinates of row
    `p` of the left factor times column `q` of the right. -/
theorem matmul_hid_apply (x : FVec Ideal S6400x20 .bf16) (w : FVec Ideal S20x20 .bf16) (p : Fin 6400) (q : Fin 20) :
    matmul dot_S6400x20_S20x20_S6400x20_1_0_0_1_n_n none x w (constant (F := Ideal) S6400x20 .f32 0x00000000#32) (ix2 p q)
      = ∑ j : Fin 20, x (ix2 p j) * w (ix2 j q) := by
  refine (Ideal.matmul_constant_zero_apply dot_S6400x20_S20x20_S6400x20_1_0_0_1_n_n none x w (ix2 p q)).trans ?_
  rw [← Equiv.sum_comp (ValueIdx.contrEquiv1 dot_S6400x20_S20x20_S6400x20_1_0_0_1_n_n 20 rfl rfl).symm]
  refine Finset.sum_congr rfl fun k _ => ?_
  have hk := ValueIdx.contrEquiv1_symm_val dot_S6400x20_S20x20_S6400x20_1_0_0_1_n_n 20 rfl rfl k
  have el : dot_S6400x20_S20x20_S6400x20_1_0_0_1_n_n.lhsIdx (ix2 p q) ((ValueIdx.contrEquiv1 dot_S6400x20_S20x20_S6400x20_1_0_0_1_n_n 20 rfl rfl).symm k) = ix2 p k := funext fun a => Fin.ext (by
    match a with
    | ⟨0, _⟩ => exact lhs_hid_0 _ _
    | ⟨1, _⟩ => exact (lhs_hid_1 _ _).trans hk)
  have er : dot_S6400x20_S20x20_S6400x20_1_0_0_1_n_n.rhsIdx (ix2 p q) ((ValueIdx.contrEquiv1 dot_S6400x20_S20x20_S6400x20_1_0_0_1_n_n 20 rfl rfl).symm k) = ix2 k q := funext fun a => Fin.ext (by
    match a with
    | ⟨0, _⟩ => exact (rhs_hid_0 _ _).trans hk
    | ⟨1, _⟩ => exact rhs_hid_1 _ _)
  rw [el, er]

/-! ## The body's payload, entry by entry -/

/-- A one-row bias spread over the rows reads, at (`p`, `q`), its entry `q`. -/
theorem bias_apply (b : Vec Ideal S1x20 .f32) (p : Fin 6400) (q : Fin 20) :
    broadcastTo S6400x20 b broadcasts_S1x20_S6400x20 (ix2 p q) = b (ix2 0 q) :=
  broadcastTo_apply b _ (ix2 p q) (ix2 0 q) (fun a => by
    match a with
    | ⟨0, _⟩ => rfl
    | ⟨1, _⟩ => rfl)

/-- Entry (`p`, `q`) of what the body stores: the hidden units of row `p` — the two products added, the first bias
    added, clamped below at zero — times column `q` of the second layer, plus the second bias. -/
theorem pay_apply (x0 : Vec Ideal S6400x4 .f32) (x1 : Vec Ideal S6400x3 .f32) (x2 : Vec Ideal S4x20 .f32)
    (x3 : Vec Ideal S3x20 .f32) (wb : Vec Ideal S20x20 .f32) (ba : Vec Ideal S1x20 .f32) (bb : Vec Ideal S1x20 .f32)
    (p : Fin 6400) (q : Fin 20) :
    k0_pay1 (F := Ideal) x0 x1 x2 x3 wb ba bb (ix2 p q)
      = (∑ k : Fin 20, max ((∑ j : Fin 4, x0 (ix2 p j) * x2 (ix2 j k)) + (∑ j : Fin 3, x1 (ix2 p j) * x3 (ix2 j k))
            + ba (ix2 0 k)) 0 * wb (ix2 k q)) + bb (ix2 0 q) := by
  unfold k0_pay1
  simp only [shapeCast_self]
  rw [addf_apply, bias_apply]
  refine congrArg (· + bb (ix2 0 q)) ?_
  refine (matmul_hid_apply _ _ p q).trans (Finset.sum_congr rfl fun k _ => ?_)
  rw [truncf_apply, truncf_apply, maximumf_apply, addf_apply, addf_apply, bias_apply, broadcast_apply]
  rw [matmul_src_apply, matmul_attr_apply]
  simp only [truncf_apply]
  rw [show (FloatOps.ofBits FTy.f32 0#32 : Ideal .f32) = 0 from Ideal.ofBits_zero_f32]

/-! ## The blocks of a grid point -/

/-- The printed index maps, decided over the grid: the two row-blocked inputs move with the output's row block and
    stay at column block 0, every weight and bias window stays at its one block, and the output's row block at point
    `t` is block `t`. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The first layer's messages at an index, the hidden units written out. -/
theorem mlp4_apply (h : Mat 6400000 4) (ea : Mat 6400000 3) (Wh : Mat 4 20) (We : Mat 3 20) (ba : Mat 1 20)
    (Wb : Mat 20 20) (bb : Mat 1 20) (i : (⟨2, ![6400000, 20]⟩ : Shape).Idx) :
    mlp4 h ea Wh We ba Wb bb i
      = (∑ k : Fin 20, max ((∑ j : Fin 4, h (ix2 (i 0) j) * Wh (ix2 j k)) + (∑ j : Fin 3, ea (ix2 (i 0) j) * We (ix2 j k))
            + ba (ix2 0 k)) 0 * Wb (ix2 k (i 1))) + bb (ix2 0 (i 1)) := rfl

variable (V : (c : Dev nD) → (b : Ref sig .tc) → Buf (Elt Ideal) ((c : Thread nD τ).loc b))

/-- What grid point `t` writes back is row block `t` of the first layer's messages. -/
theorem flushed_eq (c : Dev nD) (t : Fin cfg0.N) :
    (dat0 (F := Ideal) V c).flushed 7 t
      = ((cfg0.win 7).blk t).view.read (Elt Ideal)
          (mlp4 (V c main_v4) (V c main_arg2) (V c main_v5) (V c main_v6) (V c main_v7) (V c main_arg5) (V c main_v8)) := by
  show (cfg0.win 7).cut (grid0.coords t) ((dat0 (F := Ideal) V c).after 7 t) = _
  rw [after0_7]
  unfold out0_7
  rw [View.canon_unit_zero hz]
  simp only [View.ld_unit_zero (S := S6400x4) hz, View.ld_unit_zero (S := S6400x3) hz, View.ld_unit_zero (S := S4x20) hz,
    View.ld_unit_zero (S := S3x20) hz, View.ld_unit_zero (S := S20x20) hz, View.ld_unit_zero (S := S1x20) hz]
  obtain ⟨e00, e01, e10, e11, e20, e21, e30, e31, e40, e41, e50, e51, e60, e61, e70, e71⟩ := idx_facts t
  funext y
  obtain ⟨p, q, rfl⟩ : ∃ (p : Fin 6400) (q : Fin 20), y = ix2 p q := ⟨y 0, y 1, eq_ix2 y⟩
  -- the array index of entry (p, q) of the block: row (block index) * 6400 + p, column q
  obtain ⟨I, hI, hI0, hI1⟩ : ∃ I : (⟨2, ![6400000, 20]⟩ : Shape).Idx, ((cfg0.win 7).blk t).view.emb (ix2 p q) = I
      ∧ (I 0).val = win0_7.index t (0 : Fin 2) * 6400 + p.val ∧ (I 1).val = q.val :=
    ⟨_, rfl, (by show win0_7.index t (0 : Fin 2) * 6400 + 1 * p.val = _; omega),
      (by show win0_7.index t (1 : Fin 2) * 20 + 1 * q.val = _; omega)⟩
  show k0_pay1 (F := Ideal) (iblk0 V c 0 t) (iblk0 V c 1 t) (iblk0 V c 2 t) (iblk0 V c 3 t) (iblk0 V c 5 t) (iblk0 V c 4 t)
      (iblk0 V c 6 t) (ix2 p q) = (mlp4 (V c main_v4) (V c main_arg2) (V c main_v5) (V c main_v6) (V c main_v7) (V c main_arg5) (V c main_v8)) (((cfg0.win 7).blk t).view.emb (ix2 p q))
  rw [hI]
  -- each input block read where the output's row block says
  have b0 : ∀ j : Fin 4, (iblk0 V c 0 t : Vec Ideal S6400x4 .f32) (ix2 p j) = (V c main_v4 : Mat 6400000 4) (ix2 (I 0) j) := fun j => by
    show V c main_v4 (((cfg0.win 0).blk t).view.emb (ix2 p j)) = _
    refine congrArg (V c main_v4) (funext fun a => Fin.ext ?_)
    match a with
    | ⟨0, _⟩ => show win0_0.index t (0 : Fin 2) * 6400 + 1 * p.val = (I 0).val; omega
    | ⟨1, _⟩ => show win0_0.index t (1 : Fin 2) * 4 + 1 * j.val = j.val; omega
  have b1 : ∀ j : Fin 3, (iblk0 V c 1 t : Vec Ideal S6400x3 .f32) (ix2 p j) = (V c main_arg2 : Mat 6400000 3) (ix2 (I 0) j) := fun j => by
    show V c main_arg2 (((cfg0.win 1).blk t).view.emb (ix2 p j)) = _
    refine congrArg (V c main_arg2) (funext fun a => Fin.ext ?_)
    match a with
    | ⟨0, _⟩ => show win0_1.index t (0 : Fin 2) * 6400 + 1 * p.val = (I 0).val; omega
    | ⟨1, _⟩ => show win0_1.index t (1 : Fin 2) * 3 + 1 * j.val = j.val; omega
  have b2 : ∀ (j : Fin 4) (k : Fin 20), (iblk0 V c 2 t : Vec Ideal S4x20 .f32) (ix2 j k) = (V c main_v5 : Mat 4 20) (ix2 j k) := fun j k => by
    show V c main_v5 (((cfg0.win 2).blk t).view.emb (ix2 j k)) = _
    refine congrArg (V c main_v5) (funext fun a => Fin.ext ?_)
    match a with
    | ⟨0, _⟩ => show win0_2.index t (0 : Fin 2) * 4 + 1 * j.val = j.val; omega
    | ⟨1, _⟩ => show win0_2.index t (1 : Fin 2) * 20 + 1 * k.val = k.val; omega
  have b3 : ∀ (j : Fin 3) (k : Fin 20), (iblk0 V c 3 t : Vec Ideal S3x20 .f32) (ix2 j k) = (V c main_v6 : Mat 3 20) (ix2 j k) := fun j k => by
    show V c main_v6 (((cfg0.win 3).blk t).view.emb (ix2 j k)) = _
    refine congrArg (V c main_v6) (funext fun a => Fin.ext ?_)
    match a with
    | ⟨0, _⟩ => show win0_3.index t (0 : Fin 2) * 3 + 1 * j.val = j.val; omega
    | ⟨1, _⟩ => show win0_3.index t (1 : Fin 2) * 20 + 1 * k.val = k.val; omega
  have b4 : ∀ k : Fin 20, (iblk0 V c 4 t : Vec Ideal S1x20 .f32) (ix2 0 k) = (V c main_v7 : Mat 1 20) (ix2 0 k) := fun k => by
    show V c main_v7 (((cfg0.win 4).blk t).view.emb (ix2 0 k)) = _
    refine congrArg (V c main_v7) (funext fun a => Fin.ext ?_)
    match a with
    | ⟨0, _⟩ => show win0_4.index t (0 : Fin 2) * 1 + 1 * 0 = 0; omega
    | ⟨1, _⟩ => show win0_4.index t (1 : Fin 2) * 20 + 1 * k.val = k.val; omega
  have b5 : ∀ k : Fin 20, (iblk0 V c 5 t : Vec Ideal S20x20 .f32) (ix2 k q) = (V c main_arg5 : Mat 20 20) (ix2 k (I 1)) := fun k => by
    show V c main_arg5 (((cfg0.win 5).blk t).view.emb (ix2 k q)) = _
    refine congrArg (V c main_arg5) (funext fun a => Fin.ext ?_)
    match a with
    | ⟨0, _⟩ => show win0_5.index t (0 : Fin 2) * 20 + 1 * k.val = k.val; omega
    | ⟨1, _⟩ => show win0_5.index t (1 : Fin 2) * 20 + 1 * q.val = (I 1).val; omega
  have b6 : (iblk0 V c 6 t : Vec Ideal S1x20 .f32) (ix2 0 q) = (V c main_v8 : Mat 1 20) (ix2 0 (I 1)) := by
    show V c main_v8 (((cfg0.win 6).blk t).view.emb (ix2 0 q)) = _
    refine congrArg (V c main_v8) (funext fun a => Fin.ext ?_)
    match a with
    | ⟨0, _⟩ => show win0_6.index t (0 : Fin 2) * 1 + 1 * 0 = 0; omega
    | ⟨1, _⟩ => show win0_6.index t (1 : Fin 2) * 20 + 1 * q.val = (I 1).val; omega
  refine ((pay_apply (iblk0 V c 0 t) (iblk0 V c 1 t) (iblk0 V c 2 t) (iblk0 V c 3 t) (iblk0 V c 5 t) (iblk0 V c 4 t)
      (iblk0 V c 6 t) p q).trans ?_).trans
    (mlp4_apply (V c main_v4) (V c main_arg2) (V c main_v5) (V c main_v6) (V c main_v7) (V c main_arg5) (V c main_v8) I).symm
  simp only [b0, b1, b2, b3, b4, b5, b6]

/-- An index of the output array is in grid point `t`'s block iff each coordinate is in the block's range on its axis. -/
theorem mem_blk (t : Fin cfg0.N) (i : S6400000x20.Idx) :
    i ∈ ((cfg0.win 7).blk t).view.set ↔ ∀ a : Fin 2, win0_7.index t a * S6400x20.size a ≤ (i a).val
      ∧ (i a).val < win0_7.index t a * S6400x20.size a + S6400x20.size a := by
  show i ∈ ((View.whole main_v9).slice (win0_7.rect t)).set ↔ _
  rw [View.set_slice_whole, Rect.mem_set_unit]
  exact Iff.rfl

/-- Every index of the output array is in the block of the grid point of its row block: row `r` is written at
    point `r / 6400`. -/
theorem cover (i : S6400000x20.Idx) :
    ∃ t : Fin cfg0.N, (cfg0.win 7).flush t = true ∧ i ∈ ((cfg0.win 7).blk t).view.set := by
  have hi0 : (i 0).val < 6400000 := (i 0).isLt
  have hi1 : (i 1).val < 20 := (i 1).isLt
  obtain ⟨t, ht⟩ : ∃ t : Fin cfg0.N, t.val = (i 0).val / 6400 :=
    ⟨⟨(i 0).val / 6400, by rw [show cfg0.N = 1000 from N_0]; omega⟩, rfl⟩
  obtain ⟨-, -, -, -, -, -, -, -, -, -, -, -, -, -, e70, e71⟩ := idx_facts t
  refine ⟨t, flush0_7 t, ?_⟩
  rw [mem_blk]
  intro a
  match a with
  | ⟨0, _⟩ => show win0_7.index t (0 : Fin 2) * 6400 ≤ (i 0).val ∧ (i 0).val < win0_7.index t (0 : Fin 2) * 6400 + 6400; omega
  | ⟨1, _⟩ => show win0_7.index t (1 : Fin 2) * 20 ≤ (i 1).val ∧ (i 1).val < win0_7.index t (1 : Fin 2) * 20 + 20; omega

/-- When the first edge-MLP call returns, its output array holds the first layer's messages of the arrays the call
    found: every row block is written once, by the grid point of that block. -/
theorem final0 (c : Dev nD) :
    (dat0 (F := Ideal) V c).arrAt 7 cfg0.N
      = mlp4 (V c main_v4) (V c main_arg2) (V c main_v5) (V c main_v6) (V c main_v7) (V c main_arg5) (V c main_v8) :=
  (dat0 (F := Ideal) V c).arrAt_eq_of_cover 7 _ (fun t _ => flushed_eq V c t) cover

end Cert.KernelIdeal.R0Value

end
-- ==== Proof.R1Value.lean ====
/-
  The second edge-MLP call, as a value: what its output array holds when the call returns.
-/
import proofs.«423065_j89103391523366_2_alg».proof.Proof.Gen.KernelIdeal.Frame
import proofs.«423065_j89103391523366_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1Value

open Cert.KernelIdeal Cert.KernelIdeal.Gen Cert.Mpnn
open Idealize.ShloMosaic Idealize.ShloMosaic.TcCoe Idealize.SL.Sem Idealize.ShloMosaic.ValueIdx
open Idealize.ShloMosaic.Pipeline (Dat Cfg Window)

/-- The zero offsets of a whole-block access, spelt as a constant function. -/
theorem hz : (![0, 0] : Fin 2 → Nat) = fun _ => 0 := funext fun a => by fin_cases a <;> rfl

/-! ## The two contractions of the first layer and the one of the second, read at an entry -/

/-- The left operand's row coordinate in the 20-term contraction is the output's row. -/
theorem lhs_dot20_0 (i : S6400x20.Idx) (q : dot_S6400x20_S20x20_S6400x20_1_0_0_1_n_n.contr.Idx) :
    (dot_S6400x20_S20x20_S6400x20_1_0_0_1_n_n.lhsIdx i q 0).val = (i 0).val := by
  unfold DotDims.lhsIdx
  rw [dif_neg (show ¬(0 : Fin S6400x20.rank) ∈ dot_S6400x20_S20x20_S6400x20_1_0_0_1_n_n.lhsBatch by decide), dif_pos (show (0 : Fin S6400x20.rank) ∈ dot_S6400x20_S20x20_S6400x20_1_0_0_1_n_n.lhsNonContracting by decide)]
  rfl
/-- The left operand's column coordinate is the summation index. -/
theorem lhs_dot20_1 (i : S6400x20.Idx) (q : dot_S6400x20_S20x20_S6400x20_1_0_0_1_n_n.contr.Idx) :
    (dot_S6400x20_S20x20_S6400x20_1_0_0_1_n_n.lhsIdx i q 1).val = (q ⟨0, by decide⟩).val :=
  dot_S6400x20_S20x20_S6400x20_1_0_0_1_n_n.lhsIdx_val_of_single rfl i q
/-- The right operand's row coordinate is the summation index. -/
theorem rhs_dot20_0 (i : S6400x20.Idx) (q : dot_S6400x20_S20x20_S6400x20_1_0_0_1_n_n.contr.Idx) :
    (dot_S6400x20_S20x20_S6400x20_1_0_0_1_n_n.rhsIdx i q 0).val = (q ⟨0, by decide⟩).val :=
  dot_S6400x20_S20x20_S6400x20_1_0_0_1_n_n.rhsIdx_val_of_single rfl i q
/-- The right operand's column coordinate is the output's column. -/
theorem rhs_dot20_1 (i : S6400x20.Idx) (q : dot_S6400x20_S20x20_S6400x20_1_0_0_1_n_n.contr.Idx) :
    (dot_S6400x20_S20x20_S6400x20_1_0_0_1_n_n.rhsIdx i q 1).val = (i 1).val := by
  unfold DotDims.rhsIdx
  rw [dif_neg (show ¬(1 : Fin S20x20.rank) ∈ dot_S6400x20_S20x20_S6400x20_1_0_0_1_n_n.rhsBatch by decide), dif_pos (show (1 : Fin S20x20.rank) ∈ dot_S6400x20_S20x20_S6400x20_1_0_0_1_n_n.rhsNonContracting by decide)]
  rfl

/-- A [6400,20] × [20,20] product into the zero block, at entry (p, q): the 20-term sum of row p against column q. -/
theorem matmul20_apply (a : FVec Ideal S6400x20 .bf16) (b : FVec Ideal S20x20 .bf16) (p : Fin 6400) (q : Fin 20) :
    FloatOps.matmul dot_S6400x20_S20x20_S6400x20_1_0_0_1_n_n none a b (constant (F := Ideal) S6400x20 .f32 0x00000000#32) (ix2 p q)
      = ∑ k : Fin 20, a (ix2 p k) * b (ix2 k q) := by
  rw [Ideal.matmul_constant_zero_apply, ← Equiv.sum_comp (ValueIdx.contrEquiv1 dot_S6400x20_S20x20_S6400x20_1_0_0_1_n_n 20 rfl rfl).symm]
  refine Finset.sum_congr rfl fun k _ => ?_
  have hk := ValueIdx.contrEquiv1_symm_val dot_S6400x20_S20x20_S6400x20_1_0_0_1_n_n 20 rfl rfl k
  have el : dot_S6400x20_S20x20_S6400x20_1_0_0_1_n_n.lhsIdx (ix2 p q) ((ValueIdx.contrEquiv1 dot_S6400x20_S20x20_S6400x20_1_0_0_1_n_n 20 rfl rfl).symm k) = ix2 p k := funext fun x => Fin.ext (by
    match x with
    | ⟨0, _⟩ => exact lhs_dot20_0 _ _
    | ⟨1, _⟩ => exact (lhs_dot20_1 _ _).trans hk)
  have er : dot_S6400x20_S20x20_S6400x20_1_0_0_1_n_n.rhsIdx (ix2 p q) ((ValueIdx.contrEquiv1 dot_S6400x20_S20x20_S6400x20_1_0_0_1_n_n 20 rfl rfl).symm k) = ix2 k q := funext fun x => Fin.ext (by
    match x with
    | ⟨0, _⟩ => exact (rhs_dot20_0 _ _).trans hk
    | ⟨1, _⟩ => exact rhs_dot20_1 _ _)
  rw [el, er]

/-- The left operand's row coordinate in the 3-term contraction is the output's row. -/
theorem lhs_dot3_0 (i : S6400x20.Idx) (q : dot_S6400x3_S3x20_S6400x20_1_0_0_1_n_n.contr.Idx) :
    (dot_S6400x3_S3x20_S6400x20_1_0_0_1_n_n.lhsIdx i q 0).val = (i 0).val := by
  unfold DotDims.lhsIdx
  rw [dif_neg (show ¬(0 : Fin S6400x3.rank) ∈ dot_S6400x3_S3x20_S6400x20_1_0_0_1_n_n.lhsBatch by decide), dif_pos (show (0 : Fin S6400x3.rank) ∈ dot_S6400x3_S3x20_S6400x20_1_0_0_1_n_n.lhsNonContracting by decide)]
  rfl
/-- The left operand's column coordinate is the summation index. -/
theorem lhs_dot3_1 (i : S6400x20.Idx) (q : dot_S6400x3_S3x20_S6400x20_1_0_0_1_n_n.contr.Idx) :
    (dot_S6400x3_S3x20_S6400x20_1_0_0_1_n_n.lhsIdx i q 1).val = (q ⟨0, by decide⟩).val :=
  dot_S6400x3_S3x20_S6400x20_1_0_0_1_n_n.lhsIdx_val_of_single rfl i q
/-- The right operand's row coordinate is the summation index. -/
theorem rhs_dot3_0 (i : S6400x20.Idx) (q : dot_S6400x3_S3x20_S6400x20_1_0_0_1_n_n.contr.Idx) :
    (dot_S6400x3_S3x20_S6400x20_1_0_0_1_n_n.rhsIdx i q 0).val = (q ⟨0, by decide⟩).val :=
  dot_S6400x3_S3x20_S6400x20_1_0_0_1_n_n.rhsIdx_val_of_single rfl i q
/-- The right operand's column coordinate is the output's column. -/
theorem rhs_dot3_1 (i : S6400x20.Idx) (q : dot_S6400x3_S3x20_S6400x20_1_0_0_1_n_n.contr.Idx) :
    (dot_S6400x3_S3x20_S6400x20_1_0_0_1_n_n.rhsIdx i q 1).val = (i 1).val := by
  unfold DotDims.rhsIdx
  rw [dif_neg (show ¬(1 : Fin S3x20.rank) ∈ dot_S6400x3_S3x20_S6400x20_1_0_0_1_n_n.rhsBatch by decide), dif_pos (show (1 : Fin S3x20.rank) ∈ dot_S6400x3_S3x20_S6400x20_1_0_0_1_n_n.rhsNonContracting by decide)]
  rfl

/-- A [6400,3] × [3,20] product into the zero block, at entry (p, q): the 3-term sum of row p against column q. -/
theorem matmul3_apply (a : FVec Ideal S6400x3 .bf16) (b : FVec Ideal S3x20 .bf16) (p : Fin 6400) (q : Fin 20) :
    FloatOps.matmul dot_S6400x3_S3x20_S6400x20_1_0_0_1_n_n none a b (constant (F := Ideal) S6400x20 .f32 0x00000000#32) (ix2 p q)
      = ∑ k : Fin 3, a (ix2 p k) * b (ix2 k q) := by
  rw [Ideal.matmul_constant_zero_apply, ← Equiv.sum_comp (ValueIdx.contrEquiv1 dot_S6400x3_S3x20_S6400x20_1_0_0_1_n_n 3 rfl rfl).symm]
  refine Finset.sum_congr rfl fun k _ => ?_
  have hk := ValueIdx.contrEquiv1_symm_val dot_S6400x3_S3x20_S6400x20_1_0_0_1_n_n 3 rfl rfl k
  have el : dot_S6400x3_S3x20_S6400x20_1_0_0_1_n_n.lhsIdx (ix2 p q) ((ValueIdx.contrEquiv1 dot_S6400x3_S3x20_S6400x20_1_0_0_1_n_n 3 rfl rfl).symm k) = ix2 p k := funext fun x => Fin.ext (by
    match x with
    | ⟨0, _⟩ => exact lhs_dot3_0 _ _
    | ⟨1, _⟩ => exact (lhs_dot3_1 _ _).trans hk)
  have er : dot_S6400x3_S3x20_S6400x20_1_0_0_1_n_n.rhsIdx (ix2 p q) ((ValueIdx.contrEquiv1 dot_S6400x3_S3x20_S6400x20_1_0_0_1_n_n 3 rfl rfl).symm k) = ix2 k q := funext fun x => Fin.ext (by
    match x with
    | ⟨0, _⟩ => exact (rhs_dot3_0 _ _).trans hk
    | ⟨1, _⟩ => exact rhs_dot3_1 _ _)
  rw [el, er]

/-! ## The body's result block, read at an entry -/

/-- A [1,20] bias broadcast over the rows of a [6400,20] block reads, at entry (p, q), the bias's entry q. -/
theorem bias_apply (b : Vec Ideal S1x20 .f32) (p : Fin 6400) (q : Fin 20) :
    broadcastTo S6400x20 b broadcasts_S1x20_S6400x20 (ix2 p q) = b (ix2 0 q) :=
  broadcastTo_apply b broadcasts_S1x20_S6400x20 (ix2 p q) (ix2 0 q) fun a => match a with
    | ⟨0, _⟩ => by show 0 = if (1 : Nat) = 1 then 0 else p.val; rw [if_pos rfl]
    | ⟨1, _⟩ => by show q.val = if (20 : Nat) = 1 then 0 else q.val; rw [if_neg (by decide)]

/-- Entry (p, q) of the block the body stores, from the blocks it loads: the second layer's message of row p, output
    feature q, with the loaded weight and bias blocks. -/
theorem pay_apply (x0 : Vec Ideal S6400x20 .f32) (x1 : Vec Ideal S6400x3 .f32) (wh : Vec Ideal S20x20 .f32)
    (we : Vec Ideal S3x20 .f32) (wb : Vec Ideal S20x20 .f32) (ba : Vec Ideal S1x20 .f32) (bb : Vec Ideal S1x20 .f32)
    (p : Fin 6400) (q : Fin 20) :
    k1_pay1 (F := Ideal) x0 x1 wh we wb ba bb (ix2 p q)
      = (∑ k : Fin 20, max ((∑ j : Fin 20, x0 (ix2 p j) * wh (ix2 j k)) + (∑ j : Fin 3, x1 (ix2 p j) * we (ix2 j k))
            + ba (ix2 0 k)) 0 * wb (ix2 k q)) + bb (ix2 0 q) := by
  unfold k1_pay1
  simp only [shapeCast_self]
  rw [addf_apply]
  refine congrArg₂ (· + ·) ?_ (bias_apply bb p q)
  refine (matmul20_apply _ _ p q).trans ?_
  refine Finset.sum_congr rfl fun k _ => ?_
  refine congrArg₂ (· * ·) ?_ rfl
  rw [truncf_apply, maximumf_apply, broadcast_apply, Ideal.ofBits_def, Ideal.ofBits_zero_f32, addf_apply, addf_apply]
  refine congrArg₂ max (congrArg₂ (· + ·) (congrArg₂ (· + ·) ?_ ?_) (bias_apply ba p k)) rfl
  · exact matmul20_apply _ _ p k
  · exact matmul3_apply _ _ p k

/-! ## The blocks of a grid point -/

/-- The printed index maps, decided over the grid: the two row-blocked inputs and the output sit at row block `t` of
    point `t` and at column block 0; every weight and bias window stays at its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The second layer's messages at an index, the hidden units written out. -/
theorem mlp20_apply (h : Mat 6400000 20) (ea : Mat 6400000 3) (Wh : Mat 20 20) (We : Mat 3 20) (ba : Mat 1 20)
    (Wb : Mat 20 20) (bb : Mat 1 20) (i : S6400000x20.Idx) :
    mlp20 h ea Wh We ba Wb bb i
      = (∑ k : Fin 20, max ((∑ j : Fin 20, h (ix2 (i 0) j) * Wh (ix2 j k)) + (∑ j : Fin 3, ea (ix2 (i 0) j) * We (ix2 j k))
            + ba (ix2 0 k)) 0 * Wb (ix2 k (i 1))) + bb (ix2 0 (i 1)) := rfl

/-- The closed sum over blocks whose rows `p` are the arrays' rows `r`, and whose weights and biases are the arrays'
    own, is the second layer's message of row `r`. -/
theorem sum_of_reads (x0 : Vec Ideal S6400x20 .f32) (x1 : Vec Ideal S6400x3 .f32) (wh : Vec Ideal S20x20 .f32)
    (we : Vec Ideal S3x20 .f32) (wb : Vec Ideal S20x20 .f32) (ba : Vec Ideal S1x20 .f32) (bb : Vec Ideal S1x20 .f32)
    (h : Mat 6400000 20) (ea : Mat 6400000 3) (Wh : Mat 20 20) (We : Mat 3 20) (Ba : Mat 1 20) (Wb : Mat 20 20)
    (Bb : Mat 1 20) (p : Fin 6400) (q : Fin 20) (r : Fin 6400000)
    (h0 : ∀ j : Fin 20, x0 (ix2 p j) = h (ix2 r j)) (h1 : ∀ j : Fin 3, x1 (ix2 p j) = ea (ix2 r j))
    (h2 : ∀ j k : Fin 20, wh (ix2 j k) = Wh (ix2 j k)) (h3 : ∀ (j : Fin 3) (k : Fin 20), we (ix2 j k) = We (ix2 j k))
    (h4 : ∀ k : Fin 20, ba (ix2 0 k) = Ba (ix2 0 k)) (h5 : ∀ k q : Fin 20, wb (ix2 k q) = Wb (ix2 k q))
    (h6 : ∀ q : Fin 20, bb (ix2 0 q) = Bb (ix2 0 q)) :
    (∑ k : Fin 20, max ((∑ j : Fin 20, x0 (ix2 p j) * wh (ix2 j k)) + (∑ j : Fin 3, x1 (ix2 p j) * we (ix2 j k))
          + ba (ix2 0 k)) 0 * wb (ix2 k q)) + bb (ix2 0 q)
      = mlp20 h ea Wh We Ba Wb Bb (ix2 r q) := by
  rw [mlp20_apply]
  show _ = (∑ k : Fin 20, max ((∑ j : Fin 20, h (ix2 r j) * Wh (ix2 j k)) + (∑ j : Fin 3, ea (ix2 r j) * We (ix2 j k))
            + Ba (ix2 0 k)) 0 * Wb (ix2 k q)) + Bb (ix2 0 q)
  rw [h6]
  refine congrArg (· + Bb (ix2 0 q)) (Finset.sum_congr rfl fun k _ => ?_)
  rw [h4, h5]
  refine congrArg (fun s => max (s + Ba (ix2 0 k)) 0 * Wb (ix2 k q)) ?_
  refine congrArg₂ (· + ·) (Finset.sum_congr rfl fun j _ => ?_) (Finset.sum_congr rfl fun j _ => ?_)
  · rw [h0, h2]
  · rw [h1, h3]

variable (V : (c : Dev nD) → (b : Ref sig .tc) → Buf (Elt Ideal) ((c : Thread nD τ).loc b))

/-- Row `p` of point `t`'s block of the source features is row `t`·6400 + `p` of the array. -/
theorem blk0_apply (c : Dev nD) (t : Fin cfg1.N) (p : Fin 6400) (j : Fin 20) (r : Fin 6400000)
    (hr : r.val = t.val * 6400 + p.val) :
    (iblk1 (F := Ideal) V c 0 t : Vec Ideal S6400x20 .f32) (ix2 p j) = (V c main_v26 : Mat 6400000 20) (ix2 r j) := by
  show V c main_v26 (((cfg1.win 0).blk t).view.emb (ix2 p j)) = V c main_v26 (ix2 r j)
  refine congrArg _ (funext fun a => Fin.ext ?_)
  obtain ⟨e0, e1, -⟩ := idx_facts t
  match a with
  | ⟨0, _⟩ => show win1_0.index t (0 : Fin 2) * 6400 + 1 * p.val = r.val; omega
  | ⟨1, _⟩ => show win1_0.index t (1 : Fin 2) * 20 + 1 * j.val = j.val; omega

/-- Row `p` of point `t`'s block of the edge attributes is row `t`·6400 + `p` of the array. -/
theorem blk1_apply (c : Dev nD) (t : Fin cfg1.N) (p : Fin 6400) (j : Fin 3) (r : Fin 6400000)
    (hr : r.val = t.val * 6400 + p.val) :
    (iblk1 (F := Ideal) V c 1 t : Vec Ideal S6400x3 .f32) (ix2 p j) = (V c main_arg2 : Mat 6400000 3) (ix2 r j) := by
  show V c main_arg2 (((cfg1.win 1).blk t).view.emb (ix2 p j)) = V c main_arg2 (ix2 r j)
  refine congrArg _ (funext fun a => Fin.ext ?_)
  obtain ⟨-, -, e0, e1, -⟩ := idx_facts t
  match a with
  | ⟨0, _⟩ => show win1_1.index t (0 : Fin 2) * 6400 + 1 * p.val = r.val; omega
  | ⟨1, _⟩ => show win1_1.index t (1 : Fin 2) * 3 + 1 * j.val = j.val; omega

/-- The one block of the first layer's source rows is the array. -/
theorem blk2_apply (c : Dev nD) (t : Fin cfg1.N) (j k : Fin 20) :
    (iblk1 (F := Ideal) V c 2 t : Vec Ideal S20x20 .f32) (ix2 j k) = (V c main_v27 : Mat 20 20) (ix2 j k) := by
  show V c main_v27 (((cfg1.win 2).blk t).view.emb (ix2 j k)) = V c main_v27 (ix2 j k)
  refine congrArg _ (funext fun a => Fin.ext ?_)
  obtain ⟨-, -, -, -, e0, e1, -⟩ := idx_facts t
  match a with
  | ⟨0, _⟩ => show win1_2.index t (0 : Fin 2) * 20 + 1 * j.val = j.val; omega
  | ⟨1, _⟩ => show win1_2.index t (1 : Fin 2) * 20 + 1 * k.val = k.val; omega

/-- The one block of the first layer's attribute rows is the array. -/
theorem blk3_apply (c : Dev nD) (t : Fin cfg1.N) (j : Fin 3) (k : Fin 20) :
    (iblk1 (F := Ideal) V c 3 t : Vec Ideal S3x20 .f32) (ix2 j k) = (V c main_v28 : Mat 3 20) (ix2 j k) := by
  show V c main_v28 (((cfg1.win 3).blk t).view.emb (ix2 j k)) = V c main_v28 (ix2 j k)
  refine congrArg _ (funext fun a => Fin.ext ?_)
  obtain ⟨-, -, -, -, -, -, e0, e1, -⟩ := idx_facts t
  match a with
  | ⟨0, _⟩ => show win1_3.index t (0 : Fin 2) * 3 + 1 * j.val = j.val; omega
  | ⟨1, _⟩ => show win1_3.index t (1 : Fin 2) * 20 + 1 * k.val = k.val; omega

/-- The one block of the first bias is the array. -/
theorem blk4_apply (c : Dev nD) (t : Fin cfg1.N) (k : Fin 20) :
    (iblk1 (F := Ideal) V c 4 t : Vec Ideal S1x20 .f32) (ix2 0 k) = (V c main_v29 : Mat 1 20) (ix2 0 k) := by
  show V c main_v29 (((cfg1.win 4).blk t).view.emb (ix2 0 k)) = V c main_v29 (ix2 0 k)
  refine congrArg _ (funext fun a => Fin.ext ?_)
  obtain ⟨-, -, -, -, -, -, -, -, e0, e1, -⟩ := idx_facts t
  match a with
  | ⟨0, _⟩ => show win1_4.index t (0 : Fin 2) * 1 + 1 * 0 = 0; omega
  | ⟨1, _⟩ => show win1_4.index t (1 : Fin 2) * 20 + 1 * k.val = k.val; omega

/-- The one block of the second layer is the array. -/
theorem blk5_apply (c : Dev nD) (t : Fin cfg1.N) (k q : Fin 20) :
    (iblk1 (F := Ideal) V c 5 t : Vec Ideal S20x20 .f32) (ix2 k q) = (V c main_arg9 : Mat 20 20) (ix2 k q) := by
  show V c main_arg9 (((cfg1.win 5).blk t).view.emb (ix2 k q)) = V c main_arg9 (ix2 k q)
  refine congrArg _ (funext fun a => Fin.ext ?_)
  obtain ⟨-, -, -, -, -, -, -, -, -, -, e0, e1, -⟩ := idx_facts t
  match a with
  | ⟨0, _⟩ => show win1_5.index t (0 : Fin 2) * 20 + 1 * k.val = k.val; omega
  | ⟨1, _⟩ => show win1_5.index t (1 : Fin 2) * 20 + 1 * q.val = q.val; omega

/-- The one block of the second bias is the array. -/
theorem blk6_apply (c : Dev nD) (t : Fin cfg1.N) (q : Fin 20) :
    (iblk1 (F := Ideal) V c 6 t : Vec Ideal S1x20 .f32) (ix2 0 q) = (V c main_v30 : Mat 1 20) (ix2 0 q) := by
  show V c main_v30 (((cfg1.win 6).blk t).view.emb (ix2 0 q)) = V c main_v30 (ix2 0 q)
  refine congrArg _ (funext fun a => Fin.ext ?_)
  obtain ⟨-, -, -, -, -, -, -, -, -, -, -, -, e0, e1, -⟩ := idx_facts t
  match a with
  | ⟨0, _⟩ => show win1_6.index t (0 : Fin 2) * 1 + 1 * 0 = 0; omega
  | ⟨1, _⟩ => show win1_6.index t (1 : Fin 2) * 20 + 1 * q.val = q.val; omega

/-! ## From the blocks to the array -/

/-- Entry (`p`, `q`) of what the body stores at point `t` is the second layer's message at the array index the
    output's block puts there: row `t`·6400 + `p`, feature `q`. -/
theorem pay_at (c : Dev nD) (t : Fin cfg1.N) (p : Fin 6400) (q : Fin 20) :
    k1_pay1 (F := Ideal) (iblk1 V c 0 t) (iblk1 V c 1 t) (iblk1 V c 2 t) (iblk1 V c 3 t) (iblk1 V c 5 t) (iblk1 V c 4 t)
        (iblk1 V c 6 t) (ix2 p q)
      = mlp20 (V c main_v26) (V c main_arg2) (V c main_v27) (V c main_v28) (V c main_v29) (V c main_arg9) (V c main_v30)
          (((cfg1.win 7).blk t).view.emb (ix2 p q)) := by
  have hN : cfg1.N = 1000 := N_1
  have ht : t.val < 1000 := lt_of_lt_of_eq t.isLt hN
  have hp : p.val < 6400 := p.isLt
  let r : Fin 6400000 := ⟨t.val * 6400 + p.val, by omega⟩
  have hr : r.val = t.val * 6400 + p.val := rfl
  have hemb : ((cfg1.win 7).blk t).view.emb (ix2 p q) = (ix2 r q : S6400000x20.Idx) := by
    funext a; apply Fin.ext
    obtain ⟨-, -, -, -, -, -, -, -, -, -, -, -, -, -, e0, e1⟩ := idx_facts t
    match a with
    | ⟨0, _⟩ => show win1_7.index t (0 : Fin 2) * 6400 + 1 * p.val = r.val; omega
    | ⟨1, _⟩ => show win1_7.index t (1 : Fin 2) * 20 + 1 * q.val = q.val; omega
  rw [hemb]
  refine (pay_apply (iblk1 V c 0 t) (iblk1 V c 1 t) (iblk1 V c 2 t) (iblk1 V c 3 t) (iblk1 V c 5 t) (iblk1 V c 4 t)
    (iblk1 V c 6 t) p q).trans ?_
  exact sum_of_reads (iblk1 V c 0 t) (iblk1 V c 1 t) (iblk1 V c 2 t) (iblk1 V c 3 t) (iblk1 V c 5 t) (iblk1 V c 4 t)
    (iblk1 V c 6 t) (V c main_v26) (V c main_arg2) (V c main_v27) (V c main_v28) (V c main_v29) (V c main_arg9)
    (V c main_v30) p q r (fun j => blk0_apply V c t p j r hr) (fun j => blk1_apply V c t p j r hr)
    (fun j k => blk2_apply V c t j k) (fun j k => blk3_apply V c t j k) (fun k => blk4_apply V c t k)
    (fun k q => blk5_apply V c t k q) (fun q => blk6_apply V c t q)

/-- What point `t` writes back is block `t` of the second layer's messages of the arrays the call found. -/
theorem flushed_eq (c : Dev nD) (t : Fin cfg1.N) :
    (dat1 (F := Ideal) V c).flushed 7 t
      = ((cfg1.win 7).blk t).view.read (Elt Ideal)
          (mlp20 (V c main_v26) (V c main_arg2) (V c main_v27) (V c main_v28) (V c main_v29) (V c main_arg9) (V c main_v30)) := by
  show (cfg1.win 7).cut (grid1.coords t) ((dat1 (F := Ideal) V c).after 7 t) = _
  rw [after1_7]
  unfold out1_7
  rw [View.canon_unit_zero hz]
  simp only [View.ld_unit_zero (S := S6400x20) hz, View.ld_unit_zero (S := S6400x3) hz, View.ld_unit_zero (S := S20x20) hz,
    View.ld_unit_zero (S := S3x20) hz, View.ld_unit_zero (S := S1x20) hz]
  exact funext fun j => (eq_ix2 j).symm ▸ pay_at V c t (j 0) (j 1)

/-- An index of the output array is in point `t`'s block iff each coordinate is in the block's range on its axis. -/
theorem mem_blk (t : Fin cfg1.N) (i : S6400000x20.Idx) :
    i ∈ ((cfg1.win 7).blk t).view.set ↔ ∀ a : Fin 2, win1_7.index t a * S6400x20.size a ≤ (i a).val ∧ (i a).val < win1_7.index t a * S6400x20.size a + S6400x20.size a := by
  show i ∈ ((View.whole main_v31).slice (win1_7.rect t)).set ↔ _
  rw [View.set_slice_whole, Rect.mem_set_unit]
  exact Iff.rfl

/-- Every index of the output array is in the block of the point its row falls in: row `r` is in block `r` / 6400. -/
theorem cover (i : S6400000x20.Idx) :
    ∃ t : Fin cfg1.N, (cfg1.win 7).flush t = true ∧ i ∈ ((cfg1.win 7).blk t).view.set := by
  have hi0 : (i 0).val < 6400000 := (i 0).isLt
  have hi1 : (i 1).val < 20 := (i 1).isLt
  have hN : cfg1.N = 1000 := N_1
  let t : Fin cfg1.N := ⟨(i 0).val / 6400, by rw [hN]; omega⟩
  refine ⟨t, flush1_7 t, ?_⟩
  rw [mem_blk]
  obtain ⟨-, -, -, -, -, -, -, -, -, -, -, -, -, -, e0, e1⟩ := idx_facts t
  have ht : t.val = (i 0).val / 6400 := rfl
  intro a
  match a with
  | ⟨0, _⟩ => show win1_7.index t (0 : Fin 2) * 6400 ≤ (i 0).val ∧ (i 0).val < win1_7.index t (0 : Fin 2) * 6400 + 6400; omega
  | ⟨1, _⟩ => show win1_7.index t (1 : Fin 2) * 20 ≤ (i 1).val ∧ (i 1).val < win1_7.index t (1 : Fin 2) * 20 + 20; omega

/-- When the second edge-MLP call returns, its output array holds the second layer's messages of the arrays the call
    found: every row block is written once, by the grid point of that block. -/
theorem final1 (c : Dev nD) :
    (dat1 (F := Ideal) V c).arrAt 7 cfg1.N
      = mlp20 (V c main_v26) (V c main_arg2) (V c main_v27) (V c main_v28) (V c main_v29) (V c main_arg9) (V c main_v30) :=
  (dat1 (F := Ideal) V c).arrAt_eq_of_cover 7 _ (fun t _ => flushed_eq V c t) cover

end Cert.KernelIdeal.R1Value

end
-- ==== Proof.R2Value.lean ====
/-
  The classifier call, as a value: what its output array holds when the call returns.
-/
import proofs.«423065_j89103391523366_2_alg».proof.Proof.Gen.KernelIdeal.Frame
import proofs.«423065_j89103391523366_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R2Value

open Cert.KernelIdeal Cert.KernelIdeal.Gen Cert.Mpnn
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

theorem lhs_cls_0 (i : S2000x3.Idx) (q : dot_S2000x20_S20x3_S2000x3_1_0_0_1_n_n.contr.Idx) :
    (dot_S2000x20_S20x3_S2000x3_1_0_0_1_n_n.lhsIdx i q 0).val = (i 0).val := by
  unfold DotDims.lhsIdx
  rw [dif_neg (show ¬(0 : Fin S2000x20.rank) ∈ dot_S2000x20_S20x3_S2000x3_1_0_0_1_n_n.lhsBatch by decide), dif_pos (show (0 : Fin S2000x20.rank) ∈ dot_S2000x20_S20x3_S2000x3_1_0_0_1_n_n.lhsNonContracting by decide)]
  rfl
theorem lhs_cls_1 (i : S2000x3.Idx) (q : dot_S2000x20_S20x3_S2000x3_1_0_0_1_n_n.contr.Idx) :
    (dot_S2000x20_S20x3_S2000x3_1_0_0_1_n_n.lhsIdx i q 1).val = (q ⟨0, by decide⟩).val :=
  dot_S2000x20_S20x3_S2000x3_1_0_0_1_n_n.lhsIdx_val_of_single rfl i q
theorem rhs_cls_0 (i : S2000x3.Idx) (q : dot_S2000x20_S20x3_S2000x3_1_0_0_1_n_n.contr.Idx) :
    (dot_S2000x20_S20x3_S2000x3_1_0_0_1_n_n.rhsIdx i q 0).val = (q ⟨0, by decide⟩).val :=
  dot_S2000x20_S20x3_S2000x3_1_0_0_1_n_n.rhsIdx_val_of_single rfl i q
theorem rhs_cls_1 (i : S2000x3.Idx) (q : dot_S2000x20_S20x3_S2000x3_1_0_0_1_n_n.contr.Idx) :
    (dot_S2000x20_S20x3_S2000x3_1_0_0_1_n_n.rhsIdx i q 1).val = (i 1).val := by
  unfold DotDims.rhsIdx
  rw [dif_neg (show ¬(1 : Fin S20x3.rank) ∈ dot_S2000x20_S20x3_S2000x3_1_0_0_1_n_n.rhsBatch by decide), dif_pos (show (1 : Fin S20x3.rank) ∈ dot_S2000x20_S20x3_S2000x3_1_0_0_1_n_n.rhsNonContracting by decide)]
  rfl

theorem matmul_cls_at {φ₁ φ₂ : FTy} (a : FVec Ideal S2000x20 φ₁) (b : FVec Ideal S20x3 φ₂) (p : Fin 2000) (q : Fin 3) :
    FloatOps.matmul dot_S2000x20_S20x3_S2000x3_1_0_0_1_n_n none a b (constant S2000x3 .f32 0x00000000#32) (ix2 p q)
      = ∑ k : Fin 20, a (ix2 p k) * b (ix2 k q) := by
  rw [Ideal.matmul_constant_zero_apply, ← Equiv.sum_comp (ValueIdx.contrEquiv1 dot_S2000x20_S20x3_S2000x3_1_0_0_1_n_n 20 rfl rfl).symm]
  refine Finset.sum_congr rfl fun k _ => ?_
  have hk := ValueIdx.contrEquiv1_symm_val dot_S2000x20_S20x3_S2000x3_1_0_0_1_n_n 20 rfl rfl k
  have el : dot_S2000x20_S20x3_S2000x3_1_0_0_1_n_n.lhsIdx (ix2 p q) ((ValueIdx.contrEquiv1 dot_S2000x20_S20x3_S2000x3_1_0_0_1_n_n 20 rfl rfl).symm k) = ix2 p k := funext fun a => Fin.ext (by
    match a with
    | ⟨0, _⟩ => exact lhs_cls_0 _ _
    | ⟨1, _⟩ => exact (lhs_cls_1 _ _).trans hk)
  have er : dot_S2000x20_S20x3_S2000x3_1_0_0_1_n_n.rhsIdx (ix2 p q) ((ValueIdx.contrEquiv1 dot_S2000x20_S20x3_S2000x3_1_0_0_1_n_n 20 rfl rfl).symm k) = ix2 k q := funext fun a => Fin.ext (by
    match a with
    | ⟨0, _⟩ => exact (rhs_cls_0 _ _).trans hk
    | ⟨1, _⟩ => exact rhs_cls_1 _ _)
  rw [el, er]

theorem pay_at (x0 : Vec Ideal S2000x20 .f32) (x1 : Vec Ideal S20x3 .f32) (x2 : Vec Ideal S1x3 .f32) (p : Fin 2000) (q : Fin 3) :
    k2_pay1 (F := Ideal) x0 x1 x2 (ix2 p q) =
      Ideal.div 1 (1 + Ideal.exp (-((∑ k : Fin 20, x0 (ix2 p k) * x1 (ix2 k q)) + x2 (ix2 0 q)))) := by
  unfold k2_pay1
  rw [shapeCast_self, shapeCast_self]
  have hb : broadcastTo S2000x3 x2 broadcasts_S1x3_S2000x3 (ix2 p q) = x2 (ix2 0 q) :=
    broadcastTo_apply x2 broadcasts_S1x3_S2000x3 (ix2 p q) (ix2 0 q) (fun a => match a with
      | ⟨0, _⟩ => by show (0 : Nat) = if (1 : Nat) = 1 then 0 else _; rw [if_pos rfl]
      | ⟨1, _⟩ => by show q.val = if (3 : Nat) = 1 then 0 else q.val; rw [if_neg (by decide)])
  have hm := matmul_cls_at (truncf FTy.bf16 x0 bitsLt_bf16_f32) (truncf FTy.bf16 x1 bitsLt_bf16_f32) p q
  show Ideal.div 1 (1 + Ideal.exp (-(FloatOps.matmul (F := Ideal) dot_S2000x20_S20x3_S2000x3_1_0_0_1_n_n none (truncf (F := Ideal) FTy.bf16 x0 bitsLt_bf16_f32) (truncf (F := Ideal) FTy.bf16 x1 bitsLt_bf16_f32) (constant (F := Ideal) S2000x3 .f32 0x00000000#32) (ix2 p q) + broadcastTo S2000x3 x2 broadcasts_S1x3_S2000x3 (ix2 p q)))) = _
  rw [hm, hb]
  rfl

variable (V : (c : Dev nD) → (b : Ref sig .tc) → Buf (Elt Ideal) ((c : Thread nD τ).loc b))

theorem idx_facts : ∀ t : Fin cfg2.N,
    win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- An index of the score array lies in the block point `t` writes back iff, on each axis, it lies in that block's range. -/
theorem mem_blk (t : Fin cfg2.N) (i : S100000x3.Idx) :
    i ∈ ((cfg2.win 3).blk t).view.set ↔ ∀ a : Fin 2, win2_3.index t a * S2000x3.size a ≤ (i a).val ∧ (i a).val < win2_3.index t a * S2000x3.size a + S2000x3.size a := by
  show i ∈ ((View.whole main_v48).slice (win2_3.rect t)).set ↔ _
  rw [View.set_slice_whole, Rect.mem_set_unit]
  exact Iff.rfl

theorem flushed_eq (c : Dev nD) (t : Fin cfg2.N) :
    (dat2 (F := Ideal) V c).flushed 3 t
      = ((cfg2.win 3).blk t).view.read (Elt Ideal) (scores (V c main_v46) (V c main_arg11) (V c main_v47)) := by
  show (cfg2.win 3).cut (grid2.coords t) ((dat2 V c).after 3 t) = _
  rw [after2_3]
  unfold out2_3
  rw [View.canon_unit_zero hz]
  simp only [View.ld_unit_zero (S := S2000x20) hz, View.ld_unit_zero (S := S20x3) hz, View.ld_unit_zero (S := S1x3) hz]
  obtain ⟨e0, e1, e2, e3, e4, e5, e6, e7⟩ := idx_facts t
  funext j
  obtain ⟨p, q, rfl⟩ : ∃ (p : Fin 2000) (q : Fin 3), j = ix2 p q := ⟨j 0, j 1, eq_ix2 j⟩
  refine (pay_at (iblk2 V c 0 t) (iblk2 V c 1 t) (iblk2 V c 2 t) p q).trans ?_
  show _ = scores (V c main_v46) (V c main_arg11) (V c main_v47) (((cfg2.win 3).blk t).view.emb (ix2 p q))
  unfold scores
  -- the three blocks the body loads, read where the output block's rectangle says: the node rows move with the output's
  -- row block, the weights and the bias are whole at every point
  refine congrArg (fun z => Ideal.div 1 (1 + Ideal.exp (-z)))
    (congrArg₂ (· + ·) (Finset.sum_congr rfl fun k _ => congrArg₂ (· * ·) ?_ ?_) ?_)
  · show V c main_v46 (((cfg2.win 0).blk t).view.emb (ix2 p k)) = _
    refine congrArg (V c main_v46) (funext fun a => Fin.ext ?_)
    match a with
    | ⟨0, _⟩ => show win2_0.index t (0 : Fin 2) * 2000 + 1 * p.val = win2_3.index t (0 : Fin 2) * 2000 + 1 * p.val; omega
    | ⟨1, _⟩ => show win2_0.index t (1 : Fin 2) * 20 + 1 * k.val = k.val; omega
  · show V c main_arg11 (((cfg2.win 1).blk t).view.emb (ix2 k q)) = _
    refine congrArg (V c main_arg11) (funext fun a => Fin.ext ?_)
    match a with
    | ⟨0, _⟩ => show win2_1.index t (0 : Fin 2) * 20 + 1 * k.val = k.val; omega
    | ⟨1, _⟩ => show win2_1.index t (1 : Fin 2) * 3 + 1 * q.val = win2_3.index t (1 : Fin 2) * 3 + 1 * q.val; omega
  · show V c main_v47 (((cfg2.win 2).blk t).view.emb (ix2 0 q)) = _
    refine congrArg (V c main_v47) (funext fun a => Fin.ext ?_)
    match a with
    | ⟨0, _⟩ => show win2_2.index t (0 : Fin 2) * 1 + 1 * 0 = 0; omega
    | ⟨1, _⟩ => show win2_2.index t (1 : Fin 2) * 3 + 1 * q.val = win2_3.index t (1 : Fin 2) * 3 + 1 * q.val; omega

/-- When the classifier call returns, its output array holds the class scores of the node features the call found. -/
theorem final2 (c : Dev nD) :
    (dat2 (F := Ideal) V c).arrAt 3 cfg2.N = scores (V c main_v46) (V c main_arg11) (V c main_v47) := by
  -- every point writes its row block back, and row `r` lies in the block of point `r / 2000`
  refine (dat2 (F := Ideal) V c).arrAt_eq_of_cover 3 (scores (V c main_v46) (V c main_arg11) (V c main_v47))
    (fun t _ => flushed_eq V c t) fun (i : S100000x3.Idx) => ?_
  have hi0 : (i 0).val < 100000 := (i 0).isLt
  have hi1 : (i 1).val < 3 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 3 ≤ (i 1).val ∧ (i 1).val < win2_3.index t (1 : Fin 2) * 3 + 3; omega

end Cert.KernelIdeal.R2Value

end
-- ==== Proof.RefMlp1.lean ====
/-
  The reference's first layer of messages (concatenate, linear, max with 0, linear) is the first layer's messages of the gathered rows, with the first linear layer split by rows.
-/
import proofs.«423065_j89103391523366_2_alg».proof.Proof.RefReadP
import proofs.«423065_j89103391523366_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefMlp1

open Cert.ReferenceIdeal Cert.ReferenceIdeal.ReadP Cert.Mpnn
open Idealize.ShloMosaic Idealize.ShloMosaic.ValueIdx

/-- A sum over the 7 joined columns is the sum over the first 4 plus the sum over the last 3. -/
theorem sum_seven_split (g : Fin 7 → EReal) :
    ∑ k : Fin 7, g k
      = (∑ j : Fin 4, g ⟨j.val, by have := j.isLt; omega⟩) + ∑ j : Fin 3, g ⟨j.val + 4, by have := j.isLt; omega⟩ := by
  have h := Fin.sum_univ_add (a := 4) (b := 3) (fun k : Fin (4 + 3) => g k)
  refine h.trans (congrArg₂ (· + ·) (Finset.sum_congr rfl fun j _ => congrArg g (Fin.ext rfl))
    (Finset.sum_congr rfl fun j _ => congrArg g (Fin.ext ?_)))
  show 4 + j.val = j.val + 4
  omega

/-- The joined matrix at one of its first 4 columns is the left piece there. -/
theorem cat_feat (h : (⟨S6400000x4, .f32⟩ : BufTy).Contents (Elt Ideal)) (x2 : (⟨S6400000x3, .f32⟩ : BufTy).Contents (Elt Ideal))
    (hc : Shape.Concatenates [S6400000x4, S6400000x3] S6400000x7 1) (e : Fin 6400000) (j : Fin 4) :
    concatenate S6400000x7 1 [⟨S6400000x4, h⟩, ⟨S6400000x3, x2⟩] hc (ix2 e ⟨j.val, by have := j.isLt; omega⟩) = h (ix2 e j) :=
  concatenate_pair_apply_left 1 h x2 hc _ rfl (ix2 e j)
    (fun b => match b with | ⟨0, _⟩ => rfl | ⟨1, _⟩ => rfl)

/-- The joined matrix at column 4 + j is the right piece at column j. -/
theorem cat_attr (h : (⟨S6400000x4, .f32⟩ : BufTy).Contents (Elt Ideal)) (x2 : (⟨S6400000x3, .f32⟩ : BufTy).Contents (Elt Ideal))
    (hc : Shape.Concatenates [S6400000x4, S6400000x3] S6400000x7 1) (e : Fin 6400000) (j : Fin 3) :
    concatenate S6400000x7 1 [⟨S6400000x4, h⟩, ⟨S6400000x3, x2⟩] hc (ix2 e ⟨j.val + 4, by have := j.isLt; omega⟩) = x2 (ix2 e j) :=
  concatenate_pair_apply_right 1 h x2 hc _ rfl rfl (ix2 e j)
    (fun b hb => match b, hb with | ⟨0, _⟩, _ => rfl | ⟨1, _⟩, hb => absurd rfl hb)
    rfl

/-- The reference joins the gathered source features to the edge attributes and multiplies the 7 joined columns by the
    7 rows of the first weight matrix: the sum over the 7 columns is the sum over the 4 feature columns plus the sum over
    the 3 attribute columns, so its messages are the split form's, whatever matrices hold the two row groups and the biases
    as one-row matrices. -/
theorem mlp4_eq (x0 : (⟨S100000x4, .f32⟩ : BufTy).Contents (Elt Ideal)) (x1 : (⟨S2x6400000, .i32⟩ : BufTy).Contents (Elt Ideal)) (x2 : (⟨S6400000x3, .f32⟩ : BufTy).Contents (Elt Ideal))
    (x3 : (⟨S7x20, .f32⟩ : BufTy).Contents (Elt Ideal)) (x4 : (⟨S20, .f32⟩ : BufTy).Contents (Elt Ideal)) (x5 : (⟨S20x20, .f32⟩ : BufTy).Contents (Elt Ideal)) (x6 : (⟨S20, .f32⟩ : BufTy).Contents (Elt Ideal))
    (Wh : Mat 4 20) (We : Mat 3 20) (ba bb : Mat 1 20)
    (hWh : ∀ (j : Fin 4) (k : Fin 20), Wh (ix2 j k) = x3 (ix2 ⟨j.val, by have := j.isLt; omega⟩ k))
    (hWe : ∀ (j : Fin 3) (k : Fin 20), We (ix2 j k) = x3 (ix2 ⟨j.val + 4, by have := j.isLt; omega⟩ k))
    (hba : ∀ k : Fin 20, ba (ix2 0 k) = x4 (ix1 k))
    (hbb : ∀ k : Fin 20, bb (ix2 0 k) = x6 (ix1 k)) :
    mlp4 (val_main_v10 (F := Ideal) x0 x1) x2 Wh We ba x5 bb = val_main_v20 (F := Ideal) x0 x1 x2 x3 x4 x5 x6 := by
  funext i
  obtain ⟨e, f, rfl⟩ : ∃ (e : Fin 6400000) (f : Fin 20), i = ix2 e f := ⟨i 0, i 1, eq_ix2 i⟩
  unfold mlp4 hidden4
  -- entry (e, f) of the reference, one operation at a time, down to the joined matrix
  simp only [val_main_v20_apply, val_main_v17_apply, val_main_v16_apply, val_main_v15_apply, val_main_v12_apply,
    val_main_v14_apply, val_main_v13_apply, val_main_v19_apply, val_main_v18_apply, val_main_call0_v0_apply,
    val_main_call0_cst_apply]
  unfold val_main_v11
  -- the gathered rows are any matrix `h` from here on
  generalize val_main_v10 (F := Ideal) x0 x1 = h
  -- where each operation reads its operands: row e of the joined matrix and column k of the first weights,
  -- entry k of the first bias, row k and column f of the second weights, entry f of the second bias
  have i1 : ∀ (k : Fin 20) (k' : Fin 7), lidx_main_v12 (lidx_main_v17 (ix2 e f) k) k' = ix2 e k' := fun k k' =>
    funext fun a => Fin.ext (by match a with | ⟨0, _⟩ => rfl | ⟨1, _⟩ => rfl)
  have i2 : ∀ (k : Fin 20) (k' : Fin 7), ridx_main_v12 (lidx_main_v17 (ix2 e f) k) k' = ix2 k' k := fun k k' =>
    funext fun a => Fin.ext (by match a with | ⟨0, _⟩ => rfl | ⟨1, _⟩ => rfl)
  have i3 : ∀ k : Fin 20, idx_main_v13 (idx_main_v14 (lidx_main_v17 (ix2 e f) k)) = ix1 k := fun k =>
    funext fun a => Fin.ext (by match a with | ⟨0, _⟩ => rfl)
  have i4 : ∀ k : Fin 20, ridx_main_v17 (ix2 e f) k = ix2 k f := fun k =>
    funext fun a => Fin.ext (by match a with | ⟨0, _⟩ => rfl | ⟨1, _⟩ => rfl)
  have i5 : idx_main_v18 (idx_main_v19 (ix2 e f)) = ix1 f :=
    funext fun a => Fin.ext (by match a with | ⟨0, _⟩ => rfl)
  have c0 : ix2 e f 0 = e := rfl
  have c1 : ix2 e f 1 = f := rfl
  -- the operations on the extended reals, the zero word, the 7 = 4 + 3 split of the first product's sum, and the
  -- split matrices and one-row biases written back as entries of the reference's arguments
  simp only [i1, i2, i3, i4, i5, c0, c1, Ideal.addf_def, Ideal.maximumf_def, Ideal.ofBits_def, Ideal.ofBits_zero_f32,
    sum_seven_split, hWh, hWe, hba, hbb]
  -- both sides are now the same expression, but for the joined matrix read at a column of either piece
  refine congrArg₂ (· + ·) (Finset.sum_congr rfl fun k _ => ?_) rfl
  refine congrArg₂ (· * ·) (congrArg₂ max (congrArg₂ (· + ·) (congrArg₂ (· + ·)
    (Finset.sum_congr rfl fun j _ => ?_) (Finset.sum_congr rfl fun j _ => ?_)) rfl) rfl) rfl
  · rw [cat_feat]
  · rw [cat_attr]

end Cert.ReferenceIdeal.RefMlp1

end
-- ==== Proof.RefMlp2.lean ====
/-
  The reference's second layer of messages (concatenate, linear, max with 0, linear) is the second layer's messages of the gathered rows, with the first linear layer split by rows.
-/
import proofs.«423065_j89103391523366_2_alg».proof.Proof.RefReadP
import proofs.«423065_j89103391523366_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefMlp2

open Cert.ReferenceIdeal Cert.ReferenceIdeal.ReadP Cert.Mpnn
open Idealize.ShloMosaic Idealize.ShloMosaic.ValueIdx

/-- A column below 20 of the joined matrix is that column of the left piece. -/
theorem join_left (h : (⟨S6400000x20, .f32⟩ : BufTy).Contents (Elt Ideal)) (x2 : (⟨S6400000x3, .f32⟩ : BufTy).Contents (Elt Ideal))
    (hc : Shape.Concatenates [S6400000x20, S6400000x3] S6400000x23 1) (e : Fin 6400000) (j : Fin 20) :
    concatenate S6400000x23 1 [⟨S6400000x20, h⟩, ⟨S6400000x3, x2⟩] hc
        (ix2 e ⟨j.val, by have := j.isLt; omega⟩) = h (ix2 e j) :=
  concatenate_pair_apply_left 1 h x2 hc _ rfl (ix2 e j)
    (fun b => match b with | ⟨0, _⟩ => rfl | ⟨1, _⟩ => rfl)

/-- Column 20 + j of the joined matrix is column j of the right piece. -/
theorem join_right (h : (⟨S6400000x20, .f32⟩ : BufTy).Contents (Elt Ideal)) (x2 : (⟨S6400000x3, .f32⟩ : BufTy).Contents (Elt Ideal))
    (hc : Shape.Concatenates [S6400000x20, S6400000x3] S6400000x23 1) (e : Fin 6400000) (j : Fin 3) :
    concatenate S6400000x23 1 [⟨S6400000x20, h⟩, ⟨S6400000x3, x2⟩] hc
        (ix2 e ⟨j.val + 20, by have := j.isLt; omega⟩) = x2 (ix2 e j) :=
  concatenate_pair_apply_right 1 h x2 hc _ rfl rfl (ix2 e j)
    (fun b => match b with | ⟨0, _⟩ => fun _ => rfl | ⟨1, _⟩ => fun hb => absurd rfl hb) rfl

/-- A sum over 23 terms is the sum of the first 20 plus the sum of the last 3. -/
theorem sum_23 (g : Fin 23 → EReal) :
    ∑ k : Fin 23, g k = (∑ j : Fin 20, g ⟨j.val, by have := j.isLt; omega⟩) + ∑ j : Fin 3, g ⟨j.val + 20, by have := j.isLt; omega⟩ := by
  show (∑ k : Fin (20 + 3), g k) = _
  rw [Fin.sum_univ_add]
  congr 1

/-- The second layer's message at entry (e, f), written out. -/
theorem mlp20_apply (h : Mat 6400000 20) (ea : Mat 6400000 3) (Wh : Mat 20 20) (We : Mat 3 20) (ba : Mat 1 20) (Wb : Mat 20 20)
    (bb : Mat 1 20) (e : Fin 6400000) (f : Fin 20) :
    mlp20 h ea Wh We ba Wb bb (ix2 e f)
      = (∑ k : Fin 20, max ((∑ j : Fin 20, h (ix2 e j) * Wh (ix2 j k)) + (∑ j : Fin 3, ea (ix2 e j) * We (ix2 j k)) + ba (ix2 0 k)) 0
          * Wb (ix2 k f)) + bb (ix2 0 f) := rfl

/-- Entry (e, f) of the reference's second layer of messages, read one operation at a time down to its joined matrix:
    the 23 joined columns against the 23 rows of the first weights, the first bias, the maximum with 0, the 20 hidden
    units against the second weights, the second bias. -/
theorem v57_read (x0 : (⟨S100000x4, .f32⟩ : BufTy).Contents (Elt Ideal)) (x1 : (⟨S2x6400000, .i32⟩ : BufTy).Contents (Elt Ideal)) (x2 : (⟨S6400000x3, .f32⟩ : BufTy).Contents (Elt Ideal))
    (x3 : (⟨S7x20, .f32⟩ : BufTy).Contents (Elt Ideal)) (x4 : (⟨S20, .f32⟩ : BufTy).Contents (Elt Ideal)) (x5 : (⟨S20x20, .f32⟩ : BufTy).Contents (Elt Ideal)) (x6 : (⟨S20, .f32⟩ : BufTy).Contents (Elt Ideal))
    (x7 : (⟨S23x20, .f32⟩ : BufTy).Contents (Elt Ideal)) (x8 : (⟨S20, .f32⟩ : BufTy).Contents (Elt Ideal)) (x9 : (⟨S20x20, .f32⟩ : BufTy).Contents (Elt Ideal)) (x10 : (⟨S20, .f32⟩ : BufTy).Contents (Elt Ideal)) (e : Fin 6400000) (f : Fin 20) :
    val_main_v57 (F := Ideal) x0 x1 x2 x3 x4 x5 x6 x7 x8 x9 x10 (ix2 e f)
      = (∑ k : Fin 20, max ((∑ k' : Fin 23, val_main_v48 (F := Ideal) x0 x1 x2 x3 x4 x5 x6 (ix2 e k') * x7 (ix2 k' k)) + x8 (ix1 k)) 0
          * x9 (ix2 k f)) + x10 (ix1 f) := by
  -- entry (e, f), one operation at a time, down to the joined matrix
  -- the two additions, the maximum and the zero constant are entrywise: at an index, their operands at that index
  have h57 := val_main_v57_apply (F := Ideal) x0 x1 x2 x3 x4 x5 x6 x7 x8 x9 x10
  have h53 := val_main_v53_apply (F := Ideal) x0 x1 x2 x3 x4 x5 x6 x7 x8
  have h52 := val_main_v52_apply (F := Ideal) x0 x1 x2 x3 x4 x5 x6 x7 x8
  have hz := val_main_call3_cst_apply (F := Ideal)
  simp only [h57, val_main_v54_apply, h53, h52, val_main_v49_apply, val_main_v51_apply, val_main_v50_apply,
    val_main_v56_apply, val_main_v55_apply, val_main_call3_v0_apply, hz]
  clear h57 h53 h52 hz
  -- the joined matrix is any matrix `y` from here on
  generalize val_main_v48 (F := Ideal) x0 x1 x2 x3 x4 x5 x6 = y
  -- where each operation reads its operands
  have i1 : ∀ (k : Fin 20) (k' : Fin 23), lidx_main_v49 (lidx_main_v54 (ix2 e f) k) k' = ix2 e k' := fun k k' =>
    funext fun a => Fin.ext (by match a with | ⟨0, _⟩ => rfl | ⟨1, _⟩ => rfl)
  have i2 : ∀ (k : Fin 20) (k' : Fin 23), ridx_main_v49 (lidx_main_v54 (ix2 e f) k) k' = ix2 k' k := fun k k' =>
    funext fun a => Fin.ext (by match a with | ⟨0, _⟩ => rfl | ⟨1, _⟩ => rfl)
  have i3 : ∀ k : Fin 20, idx_main_v50 (idx_main_v51 (lidx_main_v54 (ix2 e f) k)) = ix1 k := fun k =>
    funext fun a => Fin.ext (by match a with | ⟨0, _⟩ => rfl)
  have i4 : ∀ k : Fin 20, ridx_main_v54 (ix2 e f) k = ix2 k f := fun k =>
    funext fun a => Fin.ext (by match a with | ⟨0, _⟩ => rfl | ⟨1, _⟩ => rfl)
  have i5 : idx_main_v55 (idx_main_v56 (ix2 e f)) = ix1 f :=
    funext fun a => Fin.ext (by match a with | ⟨0, _⟩ => rfl)
  simp only [i1, i2, i3, i4, i5, Ideal.addf_def, Ideal.maximumf_def, Ideal.ofBits_def, Ideal.ofBits_zero_f32]

/-- The reference's joined matrix at a column below 20 is the gathered rows there. -/
theorem v48_left (x0 : (⟨S100000x4, .f32⟩ : BufTy).Contents (Elt Ideal)) (x1 : (⟨S2x6400000, .i32⟩ : BufTy).Contents (Elt Ideal)) (x2 : (⟨S6400000x3, .f32⟩ : BufTy).Contents (Elt Ideal))
    (x3 : (⟨S7x20, .f32⟩ : BufTy).Contents (Elt Ideal)) (x4 : (⟨S20, .f32⟩ : BufTy).Contents (Elt Ideal)) (x5 : (⟨S20x20, .f32⟩ : BufTy).Contents (Elt Ideal)) (x6 : (⟨S20, .f32⟩ : BufTy).Contents (Elt Ideal)) (e : Fin 6400000) (j : Fin 20) :
    val_main_v48 (F := Ideal) x0 x1 x2 x3 x4 x5 x6 (ix2 e ⟨j.val, by have := j.isLt; omega⟩)
      = val_main_v47 (F := Ideal) x0 x1 x2 x3 x4 x5 x6 (ix2 e j) := by
  rw [val_main_v48]
  generalize val_main_v47 (F := Ideal) x0 x1 x2 x3 x4 x5 x6 = h
  exact join_left h x2 _ e j

/-- The reference's joined matrix at column 20 + j is the edge attributes at column j. -/
theorem v48_right (x0 : (⟨S100000x4, .f32⟩ : BufTy).Contents (Elt Ideal)) (x1 : (⟨S2x6400000, .i32⟩ : BufTy).Contents (Elt Ideal)) (x2 : (⟨S6400000x3, .f32⟩ : BufTy).Contents (Elt Ideal))
    (x3 : (⟨S7x20, .f32⟩ : BufTy).Contents (Elt Ideal)) (x4 : (⟨S20, .f32⟩ : BufTy).Contents (Elt Ideal)) (x5 : (⟨S20x20, .f32⟩ : BufTy).Contents (Elt Ideal)) (x6 : (⟨S20, .f32⟩ : BufTy).Contents (Elt Ideal)) (e : Fin 6400000) (j : Fin 3) :
    val_main_v48 (F := Ideal) x0 x1 x2 x3 x4 x5 x6 (ix2 e ⟨j.val + 20, by have := j.isLt; omega⟩) = x2 (ix2 e j) := by
  rw [val_main_v48]
  generalize val_main_v47 (F := Ideal) x0 x1 x2 x3 x4 x5 x6 = h
  exact join_right h x2 _ e j

/-- The split form's message at entry (e, f), over any gathered rows `h` and any matrix `y` that is `h` on its first 20
    columns and the edge attributes on its last 3: the sum over the 23 columns of `y` is the sum over the 20 columns
    of `h` plus the sum over the 3 attribute columns. -/
theorem mlp20_pt (h : (⟨S6400000x20, .f32⟩ : BufTy).Contents (Elt Ideal)) (y : (⟨S6400000x23, .f32⟩ : BufTy).Contents (Elt Ideal))
    (x2 : (⟨S6400000x3, .f32⟩ : BufTy).Contents (Elt Ideal))
    (x7 : (⟨S23x20, .f32⟩ : BufTy).Contents (Elt Ideal)) (x8 : (⟨S20, .f32⟩ : BufTy).Contents (Elt Ideal)) (x9 : (⟨S20x20, .f32⟩ : BufTy).Contents (Elt Ideal)) (x10 : (⟨S20, .f32⟩ : BufTy).Contents (Elt Ideal))
    (Wh : Mat 20 20) (We : Mat 3 20) (ba bb : Mat 1 20)
    (hWh : ∀ (j : Fin 20) (k : Fin 20), Wh (ix2 j k) = x7 (ix2 ⟨j.val, by have := j.isLt; omega⟩ k))
    (hWe : ∀ (j : Fin 3) (k : Fin 20), We (ix2 j k) = x7 (ix2 ⟨j.val + 20, by have := j.isLt; omega⟩ k))
    (hba : ∀ k : Fin 20, ba (ix2 0 k) = x8 (ix1 k))
    (hbb : ∀ k : Fin 20, bb (ix2 0 k) = x10 (ix1 k))
    (hl : ∀ (e : Fin 6400000) (j : Fin 20), y (ix2 e ⟨j.val, by have := j.isLt; omega⟩) = h (ix2 e j))
    (hr : ∀ (e : Fin 6400000) (j : Fin 3), y (ix2 e ⟨j.val + 20, by have := j.isLt; omega⟩) = x2 (ix2 e j))
    (e : Fin 6400000) (f : Fin 20) :
    mlp20 h x2 Wh We ba x9 bb (ix2 e f)
      = (∑ k : Fin 20, max ((∑ k' : Fin 23, y (ix2 e k') * x7 (ix2 k' k)) + x8 (ix1 k)) 0 * x9 (ix2 k f)) + x10 (ix1 f) := by
  rw [mlp20_apply]
  -- the 23 = 20 + 3 split of the first product's sum, `y` read at a column of either piece, and the split matrices
  -- and one-row biases written back as entries of the reference's arguments
  simp only [sum_23, hWh, hWe, hba, hbb, hl, hr]

/-- The reference joins the gathered node features to the edge attributes and multiplies the 23 joined columns by the
    23 rows of the weight matrix: the sum over the 23 columns is the sum over the 20 feature columns plus the sum over
    the 3 attribute columns, so its messages are the split form's, whatever matrices hold the two row groups and the biases
    as one-row matrices. -/
theorem mlp20_eq (x0 : (⟨S100000x4, .f32⟩ : BufTy).Contents (Elt Ideal)) (x1 : (⟨S2x6400000, .i32⟩ : BufTy).Contents (Elt Ideal)) (x2 : (⟨S6400000x3, .f32⟩ : BufTy).Contents (Elt Ideal))
    (x3 : (⟨S7x20, .f32⟩ : BufTy).Contents (Elt Ideal)) (x4 : (⟨S20, .f32⟩ : BufTy).Contents (Elt Ideal)) (x5 : (⟨S20x20, .f32⟩ : BufTy).Contents (Elt Ideal)) (x6 : (⟨S20, .f32⟩ : BufTy).Contents (Elt Ideal))
    (x7 : (⟨S23x20, .f32⟩ : BufTy).Contents (Elt Ideal)) (x8 : (⟨S20, .f32⟩ : BufTy).Contents (Elt Ideal)) (x9 : (⟨S20x20, .f32⟩ : BufTy).Contents (Elt Ideal)) (x10 : (⟨S20, .f32⟩ : BufTy).Contents (Elt Ideal))
    (Wh : Mat 20 20) (We : Mat 3 20) (ba bb : Mat 1 20)
    (hWh : ∀ (j : Fin 20) (k : Fin 20), Wh (ix2 j k) = x7 (ix2 ⟨j.val, by have := j.isLt; omega⟩ k))
    (hWe : ∀ (j : Fin 3) (k : Fin 20), We (ix2 j k) = x7 (ix2 ⟨j.val + 20, by have := j.isLt; omega⟩ k))
    (hba : ∀ k : Fin 20, ba (ix2 0 k) = x8 (ix1 k))
    (hbb : ∀ k : Fin 20, bb (ix2 0 k) = x10 (ix1 k)) :
    mlp20 (val_main_v47 (F := Ideal) x0 x1 x2 x3 x4 x5 x6) x2 Wh We ba x9 bb
      = val_main_v57 (F := Ideal) x0 x1 x2 x3 x4 x5 x6 x7 x8 x9 x10 := by
  funext i
  obtain ⟨e, f, rfl⟩ : ∃ (e : Fin 6400000) (f : Fin 20), i = ix2 e f := ⟨i 0, i 1, eq_ix2 i⟩
  -- the split form over the gathered rows and the joined matrix, then the reference's entry read back
  exact (mlp20_pt (val_main_v47 (F := Ideal) x0 x1 x2 x3 x4 x5 x6) (val_main_v48 (F := Ideal) x0 x1 x2 x3 x4 x5 x6) x2 x7 x8 x9 x10
    Wh We ba bb hWh hWe hba hbb (v48_left x0 x1 x2 x3 x4 x5 x6) (v48_right x0 x1 x2 x3 x4 x5 x6) e f).trans
    (v57_read x0 x1 x2 x3 x4 x5 x6 x7 x8 x9 x10 e f).symm

end Cert.ReferenceIdeal.RefMlp2

end
-- ==== Proof.RefCls.lean ====
/-
  The reference's class scores (linear, negate, exponential, add 1, divide 1 by it) are the logistic function of the node's linear score.
-/
import proofs.«423065_j89103391523366_2_alg».proof.Proof.RefReadP
import proofs.«423065_j89103391523366_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefCls

open Cert.ReferenceIdeal Cert.ReferenceIdeal.ReadP Cert.Mpnn
open Idealize.ShloMosaic Idealize.ShloMosaic.ValueIdx

/-- The word 0x3F800000 is the number one: sign 0, exponent field 127 (the bias), fraction 0. -/
theorem ofBits_one_f32 : Ideal.ofBits .f32 0x3F800000#32 = 1 := by
  simp [Ideal.ofBits, Ideal.ieee, -EReal.coe_mul]; norm_num

/-- The reference's last five operations spell the logistic function out: 1 / (1 + exp (−z)) of the linear score z, with
    the bias as a one-row matrix. -/
theorem scores_eq (x0 : (⟨S100000x4, .f32⟩ : BufTy).Contents (Elt Ideal)) (x1 : (⟨S2x6400000, .i32⟩ : BufTy).Contents (Elt Ideal)) (x2 : (⟨S6400000x3, .f32⟩ : BufTy).Contents (Elt Ideal))
    (x3 : (⟨S7x20, .f32⟩ : BufTy).Contents (Elt Ideal)) (x4 : (⟨S20, .f32⟩ : BufTy).Contents (Elt Ideal)) (x5 : (⟨S20x20, .f32⟩ : BufTy).Contents (Elt Ideal)) (x6 : (⟨S20, .f32⟩ : BufTy).Contents (Elt Ideal))
    (x7 : (⟨S23x20, .f32⟩ : BufTy).Contents (Elt Ideal)) (x8 : (⟨S20, .f32⟩ : BufTy).Contents (Elt Ideal)) (x9 : (⟨S20x20, .f32⟩ : BufTy).Contents (Elt Ideal)) (x10 : (⟨S20, .f32⟩ : BufTy).Contents (Elt Ideal))
    (x11 : (⟨S20x3, .f32⟩ : BufTy).Contents (Elt Ideal)) (x12 : (⟨S3, .f32⟩ : BufTy).Contents (Elt Ideal))
    (bc : Mat 1 3) (hbc : ∀ f : Fin 3, bc (ix2 0 f) = x12 (ix1 f)) :
    scores (val_main_v72 (F := Ideal) x0 x1 x2 x3 x4 x5 x6 x7 x8 x9 x10) x11 bc
      = val_main_v82 (F := Ideal) x0 x1 x2 x3 x4 x5 x6 x7 x8 x9 x10 x11 x12 := by
  -- one entry (n, f) at a time
  funext i
  obtain ⟨n, f, rfl⟩ : ∃ (n : Fin 100000) (f : Fin 3), i = ix2 n f := ⟨i 0, i 1, eq_ix2 i⟩
  -- read the operations at that entry, outermost first: divide, the two constant ones, add, exponential, negate, add,
  -- the contraction over the 20 columns, and the bias row broadcast twice
  rw [val_main_v82_apply, val_main_v81_apply, val_main_cst_15_apply, val_main_v80_apply, val_main_v79_apply,
    val_main_cst_14_apply, val_main_v78_apply, val_main_v77_apply, val_main_v76_apply, val_main_v73_apply,
    val_main_v75_apply, val_main_v74_apply]
  -- the node features stay an unknown matrix
  generalize val_main_v72 (F := Ideal) x0 x1 x2 x3 x4 x5 x6 x7 x8 x9 x10 = h
  -- the contraction reads row n of the features against column f of the weights; the bias is read at f
  have el : ∀ k : Fin 20, lidx_main_v73 (ix2 n f) k = ix2 n k := fun k =>
    funext fun a => Fin.ext (by match a with | ⟨0, _⟩ => rfl | ⟨1, _⟩ => rfl)
  have er : ∀ k : Fin 20, ridx_main_v73 (ix2 n f) k = ix2 k f := fun k =>
    funext fun a => Fin.ext (by match a with | ⟨0, _⟩ => rfl | ⟨1, _⟩ => rfl)
  have eb : idx_main_v74 (idx_main_v75 (ix2 n f)) = ix1 f :=
    funext fun a => Fin.ext (by match a with | ⟨0, _⟩ => rfl)
  -- on the extended reals the operations are +, −, exp and the division with its corners, and both constants are 1
  simp only [el, er, eb, Ideal.hostDivf_def, Ideal.addf_def, Ideal.hostUnary_exp_def, Ideal.hostNegf_def,
    Ideal.negf_def, Ideal.ofBits_def, ofBits_one_f32]
  -- the specification's entry, with the one-row bias matrix read as the bias vector
  show Ideal.div 1 (1 + Ideal.exp (-((∑ k : Fin 20, h (ix2 n k) * x11 (ix2 k f)) + bc (ix2 0 f)))) = _
  rw [hbc]

end Cert.ReferenceIdeal.RefCls

end
-- ==== Proof.PreDecode.lean ====
/-
  The precondition, read: besides the float inputs being finite it says that every source index (row 0 of the edge
  index) lies in [-100000, 100000), the range in which indexing a table of 100000 rows the NumPy way is in range.
-/
import proofs.«423065_j89103391523366_2_alg».proof.Defs
import proofs.«423065_j89103391523366_2_alg».proof.Proof.Gen.KernelIdeal
import proofs.«423065_j89103391523366_2_alg».proof.Proof.Gen.Pre_finite_inputs
import Idealize.ShloMosaic.Lib.ReduceAll
import Idealize.ShloMosaic.Lib.StableHlo.Predicate
import Idealize.ShloMosaic.Lib.Pipeline.Value
import Idealize.ShloMosaic.Lib.ValueIdx

noncomputable section

namespace Cert.KernelIdeal.PreDecode

open Cert.KernelIdeal
open Idealize.ShloMosaic Idealize.ShloMosaic.TcCoe Idealize.SL.Sem Idealize.ShloMosaic.ValueIdx

/-- The word -100000 in 32 bits, read signed. -/
theorem toInt_lo : (4294867296#32 : BitVec 32).toInt = -100000 := by decide

/-- The word 100000 in 32 bits, read signed. -/
theorem toInt_hi : (100000#32 : BitVec 32).toInt = 100000 := by decide

/-- Row 0 of a [2, 6400000] array, sliced out and reshaped to a vector, read at e is the array at (0, e). -/
theorem row0_apply {α : Type} (x : Cert.Pre_finite_inputs.S2x6400000.Idx → α)
    (hs : Cert.Pre_finite_inputs.S2x6400000.Slices ![0, 0] Cert.Pre_finite_inputs.S1x6400000)
    (hc : Cert.Pre_finite_inputs.S1x6400000.ShapeCasts Cert.Pre_finite_inputs.S6400000) (e : Fin 6400000) :
    shapeCast Cert.Pre_finite_inputs.S6400000
        (extractStridedSlice Cert.Pre_finite_inputs.S1x6400000 ![0, 0] x hs) hc (ix1 e)
      = x (ix2 (0 : Fin 2) e) := by
  rw [shapeCast_apply _ hc (ix1 e) (ix2 (0 : Fin 1) e) ?_]
  · refine extractStridedSlice_apply _ x hs _ _ fun a => ?_
    match a with
    | ⟨0, _⟩ => rfl
    | ⟨1, _⟩ => show e.val = 0 + e.val; omega
  · rw [Shape.rowMajor_val_two, Shape.rowMajor_val_one]
    show (0 : Nat) * 6400000 + e.val = e.val
    omega

/-- Under the precondition every source index, read as a signed integer, is at least -100000 and below 100000. -/
theorem src_range (m : (ℓ : Loc nD τ sig) → Buf (Elt Ideal) ℓ) (hpre : Cert.Pre_KernelIdeal m) (c : Dev nD)
    (e : Fin 6400000) :
    (-100000 : Int) ≤ ((m ((c.tc : Thread nD τ).loc main_arg1) : (⟨S2x6400000, .i32⟩ : BufTy).Contents (Elt Ideal))
        (ix2 (0 : Fin 2) e)).toInt
      ∧ ((m ((c.tc : Thread nD τ).loc main_arg1) : (⟨S2x6400000, .i32⟩ : BufTy).Contents (Elt Ideal))
        (ix2 (0 : Fin 2) e)).toInt < (100000 : Int) := by
  -- the precondition at its one index is the conjunction, by and, of thirteen one-bit words; the last is the range test
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  have hall := (IntOp.andi_eq_one.1 h).2
  clear h
  -- an and-reduction over every edge that is 1 had a 1 at every edge (the rank-0 result has one index)
  haveI : Subsingleton Cert.Pre_finite_inputs.S_.Idx := ⟨fun a b => funext fun d => d.elim0⟩
  have he := Host.reduce_andi_all _ _ _ _ _ hall (ix1 e)
  clear hall
  obtain ⟨hge, hlt⟩ := IntOp.andi_eq_one.1 he
  clear he
  have hge' := IntOp.cmpi_sge.1 hge
  have hlt' := IntOp.cmpi_slt.1 hlt
  clear hge hlt
  rw [row0_apply] at hge' hlt'
  -- a rank-0 constant broadcast reads the constant at every index
  change (4294867296#32 : BitVec 32).toInt ≤ _ at hge'
  change _ < (100000#32 : BitVec 32).toInt at hlt'
  rw [toInt_lo] at hge'
  rw [toInt_hi] at hlt'
  exact ⟨hge', hlt'⟩

end Cert.KernelIdeal.PreDecode

end
-- ==== Proof.Bridge.lean ====
/-
  The kernel program's result is the reference's, stage by stage.

  Under the precondition every source index lies in [-100000, 100000), so each filled take is the plain gather of the
  reference. The first edge-MLP call then leaves the reference's first layer of messages; the host operations that
  follow (the mean per target node, its positive part, the take at the sources) are the reference's own; the second
  call leaves the reference's second layer of messages; the mean of those is the reference's node features; and the
  classifier call leaves the reference's class scores.
-/
import proofs.«423065_j89103391523366_2_alg».proof.Proof.Gen.KernelIdeal.Frame
import proofs.«423065_j89103391523366_2_alg».proof.Proof.KHostA
import proofs.«423065_j89103391523366_2_alg».proof.Proof.KHostB
import proofs.«423065_j89103391523366_2_alg».proof.Proof.KHostC
import proofs.«423065_j89103391523366_2_alg».proof.Proof.RefChain
import proofs.«423065_j89103391523366_2_alg».proof.Proof.TakeGather
import proofs.«423065_j89103391523366_2_alg».proof.Proof.KArgs
import proofs.«423065_j89103391523366_2_alg».proof.Proof.R0Value
import proofs.«423065_j89103391523366_2_alg».proof.Proof.R1Value
import proofs.«423065_j89103391523366_2_alg».proof.Proof.R2Value
import proofs.«423065_j89103391523366_2_alg».proof.Proof.RefMlp1
import proofs.«423065_j89103391523366_2_alg».proof.Proof.RefMlp2
import proofs.«423065_j89103391523366_2_alg».proof.Proof.RefCls
import proofs.«423065_j89103391523366_2_alg».proof.Proof.PreDecode

set_option maxRecDepth 16384

noncomputable section

namespace Cert.Mpnn.Bridge

open Cert.KernelIdeal Cert.KernelIdeal.Gen Cert.KernelIdeal.Chain Cert.KernelIdeal.KHostA Cert.KernelIdeal.KHostB Cert.KernelIdeal.KHostC
open Cert.ReferenceIdeal.ReadP
open Idealize.ShloMosaic Idealize.ShloMosaic.TcCoe Idealize.SL.Sem Idealize.ShloMosaic.ValueIdx

variable (m : (ℓ : Loc nD τ sig) → Buf (Elt Ideal) ℓ) (ρ : Dev nD → PrngReg)

/-- Buffer `b` of core `c` as launched. -/
abbrev arg (c : Dev nD) (b : Ref sig .tc) : Buf (Elt Ideal) ((c.tc : Thread nD τ).loc b) := m ((c.tc : Thread nD τ).loc b)

/-! ## The index range -/

/-- Under the precondition every source index lies in [-100000, 100000). -/
theorem src_ok (hpre : Cert.Pre_KernelIdeal m) (c : Dev nD) (e : Fin 6400000) :
    (-100000 : Int) ≤ (srcOf (F := Ideal) (arg m c main_arg1) (ix1 e)).toInt
      ∧ (srcOf (F := Ideal) (arg m c main_arg1) (ix1 e)).toInt < (100000 : Int) := by
  have e0 : srcOf (F := Ideal) (arg m c main_arg1) (ix1 e)
      = ((arg m c main_arg1) : (⟨S2x6400000, .i32⟩ : BufTy).Contents (Elt Ideal)) (ix2 (0 : Fin 2) e) := by
    unfold srcOf
    exact Cert.KernelIdeal.PreDecode.row0_apply _ _ _ e
  rw [e0]
  exact Cert.KernelIdeal.PreDecode.src_range m hpre c e

/-! ## The first layer -/

/-- The first call finds the reference's gathered node features. -/
theorem V3_v4 (hpre : Cert.Pre_KernelIdeal m) (c : Dev nD) :
    V3 m ρ c main_v4 = val_main_v10 (F := Ideal) (arg m c main_arg0) (arg m c main_arg1) :=
  (A_v4 (W0 m ρ c)).trans ((Cert.KernelIdeal.TakeGather.take4_eq _ _ (src_ok m hpre c)).trans (RefChain.gather4_eq _ _).symm)

/-- The first call leaves the reference's first layer of messages. -/
theorem W4_v9 (hpre : Cert.Pre_KernelIdeal m) (c : Dev nD) :
    W4 m ρ c (Proc.devRef .tc main_v9) = val_main_v20 (F := Ideal) (arg m c main_arg0) (arg m c main_arg1) (arg m c main_arg2) (arg m c main_arg3) (arg m c main_arg4) (arg m c main_arg5) (arg m c main_arg6) := by
  refine (W4_arr m ρ c 7).trans ((Cert.KernelIdeal.R0Value.final0 (V3 m ρ) c).trans ?_)
  rw [V3_v4 m ρ hpre c, show V3 m ρ c main_arg2 = (arg m c main_arg2) from A_arg2 (W0 m ρ c),
    show V3 m ρ c main_arg5 = (arg m c main_arg5) from A_arg5 (W0 m ρ c)]
  exact Cert.ReferenceIdeal.RefMlp1.mlp4_eq _ _ _ _ _ _ _ _ _ _ _
    (fun j k => (congrFun (A_v5 (W0 m ρ c)) (ix2 j k)).trans (Cert.KernelIdeal.KArgs.topRows4 _ _ j k))
    (fun j k => (congrFun (A_v6 (W0 m ρ c)) (ix2 j k)).trans (Cert.KernelIdeal.KArgs.botRows3of7 _ _ j k))
    (fun k => (congrFun (A_v7 (W0 m ρ c)) (ix2 0 k)).trans (Cert.KernelIdeal.KArgs.rowOfVec20 _ _ k))
    (fun k => (congrFun (A_v8 (W0 m ρ c)) (ix2 0 k)).trans (Cert.KernelIdeal.KArgs.rowOfVec20 _ _ k))

/-! ## What the first call leaves of the other buffers -/

theorem W4_v1 (c : Dev nD) : W4 m ρ c (Proc.devRef .tc main_v1) = srcOf (F := Ideal) (arg m c main_arg1) :=
  (W4_of_ne m ρ c main_v1 (by decide)).trans (A_v1 (W0 m ρ c))
theorem W4_v3 (c : Dev nD) : W4 m ρ c (Proc.devRef .tc main_v3) = dstOf (F := Ideal) (arg m c main_arg1) :=
  (W4_of_ne m ρ c main_v3 (by decide)).trans (A_v3 (W0 m ρ c))
theorem W4_arg2 (c : Dev nD) : W4 m ρ c (Proc.devRef .tc main_arg2) = (arg m c main_arg2) :=
  ((W4_arr m ρ c 1).trans (((dat0 (V3 m ρ) c).arrAt_in 1 rfl _).trans (A_eq0 (V3 m ρ) c 1))).trans (A_arg2 (W0 m ρ c))
theorem W4_arg7 (c : Dev nD) : W4 m ρ c (Proc.devRef .tc main_arg7) = (arg m c main_arg7) :=
  (W4_of_ne m ρ c main_arg7 (by decide)).trans (A_arg7 (W0 m ρ c))
theorem W4_arg8 (c : Dev nD) : W4 m ρ c (Proc.devRef .tc main_arg8) = (arg m c main_arg8) :=
  (W4_of_ne m ρ c main_arg8 (by decide)).trans (A_arg8 (W0 m ρ c))
theorem W4_arg9 (c : Dev nD) : W4 m ρ c (Proc.devRef .tc main_arg9) = (arg m c main_arg9) :=
  (W4_of_ne m ρ c main_arg9 (by decide)).trans (A_arg9 (W0 m ρ c))
theorem W4_arg10 (c : Dev nD) : W4 m ρ c (Proc.devRef .tc main_arg10) = (arg m c main_arg10) :=
  (W4_of_ne m ρ c main_arg10 (by decide)).trans (A_arg10 (W0 m ρ c))
theorem W4_arg11 (c : Dev nD) : W4 m ρ c (Proc.devRef .tc main_arg11) = (arg m c main_arg11) :=
  (W4_of_ne m ρ c main_arg11 (by decide)).trans (A_arg11 (W0 m ρ c))
theorem W4_arg12 (c : Dev nD) : W4 m ρ c (Proc.devRef .tc main_arg12) = (arg m c main_arg12) :=
  (W4_of_ne m ρ c main_arg12 (by decide)).trans (A_arg12 (W0 m ρ c))

/-! ## The second layer -/

/-- The second call finds the reference's gathered node features of the first layer. -/
theorem V9_v26 (hpre : Cert.Pre_KernelIdeal m) (c : Dev nD) :
    V9 m ρ c main_v26 = val_main_v47 (F := Ideal) (arg m c main_arg0) (arg m c main_arg1) (arg m c main_arg2) (arg m c main_arg3) (arg m c main_arg4) (arg m c main_arg5) (arg m c main_arg6) := by
  refine (B_v26 (W4 m ρ c)).trans ?_
  rw [W4_v9 m ρ hpre c, W4_v3 m ρ c, W4_v1 m ρ c]
  refine (Cert.KernelIdeal.TakeGather.take20_eq _ _ (src_ok m hpre c)).trans ?_
  rw [RefChain.gather20_eq, RefChain.layer1_eq]

theorem V9_arg2 (c : Dev nD) : V9 m ρ c main_arg2 = (arg m c main_arg2) := (B_arg2 (W4 m ρ c)).trans (W4_arg2 m ρ c)
theorem V9_arg9 (c : Dev nD) : V9 m ρ c main_arg9 = (arg m c main_arg9) := (B_arg9 (W4 m ρ c)).trans (W4_arg9 m ρ c)

/-- The second call leaves the reference's second layer of messages. -/
theorem W10_v31 (hpre : Cert.Pre_KernelIdeal m) (c : Dev nD) :
    W10 m ρ c (Proc.devRef .tc main_v31) = val_main_v57 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  refine (W10_arr m ρ c 7).trans ((Cert.KernelIdeal.R1Value.final1 (V9 m ρ) c).trans ?_)
  rw [V9_v26 m ρ hpre c, V9_arg2 m ρ c, V9_arg9 m ρ c]
  exact Cert.ReferenceIdeal.RefMlp2.mlp20_eq _ _ _ _ _ _ _ _ _ _ _ _ _ _ _
    (fun j k => (congrFun (B_v27 (W4 m ρ c)) (ix2 j k)).trans ((Cert.KernelIdeal.KArgs.topRows20 _ _ j k).trans (congrFun (W4_arg7 m ρ c) _)))
    (fun j k => (congrFun (B_v28 (W4 m ρ c)) (ix2 j k)).trans ((Cert.KernelIdeal.KArgs.botRows3of23 _ _ j k).trans (congrFun (W4_arg7 m ρ c) _)))
    (fun k => (congrFun (B_v29 (W4 m ρ c)) (ix2 0 k)).trans ((Cert.KernelIdeal.KArgs.rowOfVec20 _ _ k).trans (congrFun (W4_arg8 m ρ c) _)))
    (fun k => (congrFun (B_v30 (W4 m ρ c)) (ix2 0 k)).trans ((Cert.KernelIdeal.KArgs.rowOfVec20 _ _ k).trans (congrFun (W4_arg10 m ρ c) _)))

/-! ## What the second call leaves of the other buffers -/

theorem W10_v3 (c : Dev nD) : W10 m ρ c (Proc.devRef .tc main_v3) = dstOf (F := Ideal) (arg m c main_arg1) :=
  (W10_of_ne m ρ c main_v3 (by decide)).trans ((B_v3 (W4 m ρ c)).trans (W4_v3 m ρ c))
theorem W10_arg11 (c : Dev nD) : W10 m ρ c (Proc.devRef .tc main_arg11) = (arg m c main_arg11) :=
  (W10_of_ne m ρ c main_arg11 (by decide)).trans ((B_arg11 (W4 m ρ c)).trans (W4_arg11 m ρ c))
theorem W10_arg12 (c : Dev nD) : W10 m ρ c (Proc.devRef .tc main_arg12) = (arg m c main_arg12) :=
  (W10_of_ne m ρ c main_arg12 (by decide)).trans ((B_arg12 (W4 m ρ c)).trans (W4_arg12 m ρ c))

/-! ## The classifier -/

/-- The classifier call finds the reference's node features of the second layer. -/
theorem V13_v46 (hpre : Cert.Pre_KernelIdeal m) (c : Dev nD) :
    V13 m ρ c main_v46 = val_main_v72 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  refine (C_v46 (W10 m ρ c)).trans ?_
  rw [W10_v31 m ρ hpre c, W10_v3 m ρ c, RefChain.layer2_eq]

theorem V13_arg11 (c : Dev nD) : V13 m ρ c main_arg11 = (arg m c main_arg11) := (C_arg11 (W10 m ρ c)).trans (W10_arg11 m ρ c)

/-- The kernel program's result is the reference's result of the same arguments. -/
theorem result_eq (hpre : Cert.Pre_KernelIdeal m) (c : Dev nD) :
    W14 m ρ c (Proc.devRef .tc main_v48) = val_main_v82 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) := by
  refine (W14_arr m ρ c 3).trans ((Cert.KernelIdeal.R2Value.final2 (V13 m ρ) c).trans ?_)
  rw [V13_v46 m ρ hpre c, V13_arg11 m ρ c]
  exact Cert.ReferenceIdeal.RefCls.scores_eq _ _ _ _ _ _ _ _ _ _ _ _ _ (V13 m ρ c main_v47)
    (fun f => (congrFun (C_v47 (W10 m ρ c)) (ix2 0 f)).trans ((Cert.KernelIdeal.KArgs.rowOfVec3 _ _ f).trans (congrFun (W10_arg12 m ρ c) _)))

end Cert.Mpnn.Bridge

end
-- ==== Proof.lean ====
/-
  A two-layer message-passing network on a graph of 100000 nodes and 6400000 edges, as three kernel calls (the two
  per-edge two-layer perceptrons and the node classifier) among host operations (the gathers at the edges' sources and
  the means over the edges' targets), against the plain array program.

  Both programs run to the end without a fault and leave their arguments as they were. Their results agree entry by
  entry on the extended reals: each kernel call writes, row block by row block, the array the corresponding dense
  stage of the reference computes (a product with the first layer's weights split into the rows that meet the node
  features and the rows that meet the edge attributes is the product with the joined matrix, a sum over 7 or 23 columns
  split in two); the host operations between the calls are the reference's own; and where the kernel program takes
  rows with out-of-range entries filled while the reference gathers them, the two agree because, under the
  precondition, every source index lies in [-100000, 100000).
-/
import proofs.«423065_j89103391523366_2_alg».proof.Defs
import proofs.«423065_j89103391523366_2_alg».proof.Proof.Gen.Kernel
import proofs.«423065_j89103391523366_2_alg».proof.Proof.Gen.Kernel.Skeleton
import proofs.«423065_j89103391523366_2_alg».proof.Proof.Gen.Kernel.Launch
import proofs.«423065_j89103391523366_2_alg».proof.Proof.Gen.Kernel.Points
import proofs.«423065_j89103391523366_2_alg».proof.Proof.Gen.Kernel.Frame
import proofs.«423065_j89103391523366_2_alg».proof.Proof.Gen.KernelIdeal
import proofs.«423065_j89103391523366_2_alg».proof.Proof.Gen.KernelIdeal.Skeleton
import proofs.«423065_j89103391523366_2_alg».proof.Proof.Gen.KernelIdeal.Launch
import proofs.«423065_j89103391523366_2_alg».proof.Proof.Gen.KernelIdeal.Points
import proofs.«423065_j89103391523366_2_alg».proof.Proof.Gen.KernelIdeal.Frame
import proofs.«423065_j89103391523366_2_alg».proof.Proof.Gen.ReferenceIdeal
import proofs.«423065_j89103391523366_2_alg».proof.Proof.Gen.Pre_finite_inputs
import proofs.«423065_j89103391523366_2_alg».proof.Proof.KRun
import proofs.«423065_j89103391523366_2_alg».proof.Proof.RefRun
import proofs.«423065_j89103391523366_2_alg».proof.Proof.RefReadP
import proofs.«423065_j89103391523366_2_alg».proof.Proof.Bridge
import Idealize.ShloMosaic.Adequacy
import Idealize.ShloMosaic.Init

set_option maxRecDepth 16384

noncomputable section

namespace Cert.Proof

open Idealize.ShloMosaic Idealize.SL.Sem

/-- The two idealized programs, run from memories that agree on the arguments, both end, with the same result: the
    reference's last stage read at the kernel program's arguments. -/
theorem algebraic : Cert.algebraic_KernelIdeal_ReferenceIdeal := fun m ρ m' ρ' hpre hagree =>
  ⟨fun c => Cert.ReferenceIdeal.ReadP.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
   (θ_run Cert.KernelIdeal.defs _ _).mono (fun r h c => ⟨(h c).1.trans (Cert.Mpnn.Bridge.result_eq m ρ hpre c), (h c).2⟩)
     (Cert.KernelIdeal.RunValue.run_result (F := Ideal) m ρ),
   (θ_run Cert.ReferenceIdeal.defs _ _).mono (fun r h c => ⟨by
       obtain ⟨a0, a1, a2, a3, a4, a5, a6, a7, a8, a9, a10, a11, a12⟩ := hagree c
       rw [(h c).1, Cert.ReferenceIdeal.ReadP.val_main_v82_eq, a0, a1, a2, a3, a4, a5, a6, a7, a8, a9, a10, a11, a12], (h c).2⟩)
     (Cert.ReferenceIdeal.ValueP.run (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
